-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S64x4096 : Shape := ⟨2, ![64, 4096]⟩
abbrev S4096x64 : Shape := ⟨2, ![4096, 64]⟩
abbrev S262144 : Shape := ⟨1, ![262144]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S262144 : S_.BroadcastsInDim S262144 (![] : Fin 0 → Fin S262144.rank)
  reducesTo_S262144_S_d0 : S262144.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : IVec S4096x4096 32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg4 main_v19
  let main_c_7 : IVec S_ 32 := constantI S_ 32 16#32
  let main_v21 : IVec S4096x4096 32 := broadcastInDim S4096x4096 ![] bcast_S_S4096x4096 main_c_7
  let main_v22 : IVec S4096x4096 1 := cmpi .slt main_arg4 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S4x2048x4096 .f32) (main_arg1 : FVec F S64x4096 .f32) (main_arg2 : FVec F S4096x64 .f32) (main_arg3 : FVec F S262144 .f32) (main_arg4 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg4 main_v13 main_v16
-- ==== Kernel.lean ====
abbrev S4x2048x4096 : Shape := ⟨3, ![4, 2048, 4096]⟩
abbrev S64x4096 : Shape := ⟨2, ![64, 4096]⟩
abbrev S4096x64 : Shape := ⟨2, ![4096, 64]⟩
abbrev S262144 : Shape := ⟨1, ![262144]⟩
abbrev S4096x4096 : Shape := ⟨2, ![4096, 4096]⟩
abbrev S8192x4096 : Shape := ⟨2, ![8192, 4096]⟩
abbrev S_ : Shape := ⟨0, ![]⟩
abbrev S128x4096 : Shape := ⟨2, ![128, 4096]⟩
abbrev S4096x128 : Shape := ⟨2, ![4096, 128]⟩
abbrev S128x64 : Shape := ⟨2, ![128, 64]⟩
abbrev S128x64x1 : Shape := ⟨3, ![128, 64, 1]⟩
abbrev S128x64x64 : Shape := ⟨3, ![128, 64, 64]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 20
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S64x4096, .f32⟩
  | .hbm, ⟨2, _⟩ => ⟨S4096x64, .f32⟩
  | .hbm, ⟨3, _⟩ => ⟨S262144, .f32⟩
  | .hbm, ⟨4, _⟩ => ⟨S4096x4096, .i32⟩
  | .hbm, ⟨5, _⟩ => ⟨S8192x4096, .f32⟩
  | .hbm, ⟨6, _⟩ => ⟨S64x4096, .bf16⟩
  | .hbm, ⟨7, _⟩ => ⟨S4096x64, .bf16⟩
  | .hbm, ⟨8, _⟩ => ⟨S_, .i32⟩
  | .hbm, ⟨9, _⟩ => ⟨S_, .bf16⟩
  | .hbm, ⟨10, _⟩ => ⟨S128x4096, .bf16⟩
  | .hbm, ⟨11, _⟩ => ⟨S_, .i32⟩
  | .hbm, ⟨12, _⟩ => ⟨S_, .bf16⟩
  | .hbm, ⟨13, _⟩ => ⟨S4096x128, .bf16⟩
  | .hbm, ⟨14, _⟩ => ⟨S4096x64, .f32⟩
  | .hbm, ⟨15, _⟩ => ⟨S4096x4096, .bf16⟩
  | .hbm, ⟨16, _⟩ => ⟨S8192x128, .bf16⟩
  | .hbm, ⟨17, _⟩ => ⟨S8192x4096, .bf16⟩
  | .hbm, ⟨18, _⟩ => ⟨S8192x4096, .f32⟩
  | .hbm, ⟨19, _⟩ => ⟨S4x2048x4096, .f32⟩
  | .local _ .vmem, ⟨0, _⟩ => ⟨S128x4096, .i32⟩
  | .local _ .vmem, ⟨1, _⟩ => ⟨S128x4096, .i32⟩
  | .local _ .vmem, ⟨2, _⟩ => ⟨S128x64, .f32⟩
  | .local _ .vmem, ⟨3, _⟩ => ⟨S128x64, .f32⟩
  | .local _ .vmem, ⟨4, _⟩ => ⟨S128x4096, .bf16⟩
  | .local _ .vmem, ⟨5, _⟩ => ⟨S128x4096, .bf16⟩
  | .local _ .vmem, ⟨6, _⟩ => ⟨S1024x1024, .f32⟩
  | .local _ .vmem, ⟨7, _⟩ => ⟨S1024x1024, .f32⟩
  | .local _ .vmem, ⟨8, _⟩ => ⟨S128x1024, .bf16⟩
  | .local _ .vmem, ⟨9, _⟩ => ⟨S128x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S2048x1024, .bf16⟩
  | .local _ .vmem, ⟨16, _⟩ => ⟨S2048x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2048x128, .bf16⟩
  | .local _ .vmem, ⟨20, _⟩ => ⟨S2048x128, .bf16⟩
  | .local _ .vmem, ⟨21, _⟩ => ⟨S1024x128, .bf16⟩
  | .local _ .vmem, ⟨22, _⟩ => ⟨S1024x128, .bf16⟩
  | .local _ .vmem, ⟨23, _⟩ => ⟨S2048x1024, .f32⟩
  | .local _ .vmem, ⟨24, _⟩ => ⟨S2048x1024, .f32⟩
  | .local _ .vmem, ⟨25, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S4x2048x4096_S8192x4096 : S4x2048x4096.ShapeCasts S8192x4096
  bitsLt_bf16_f32 : FTy.bits .bf16 < FTy.bits .f32
  pads_S64x4096_S128x4096_0640_000 : S64x4096.Pads (![0, 0] : Fin 2 → Nat) ![64, 0] ![0, 0] S128x4096
  h_S_ : 0 < S_.numel
  pads_S4096x64_S4096x128_000_0640 : S4096x64.Pads (![0, 0] : Fin 2 → Nat) ![0, 64] ![0, 0] S4096x128
  shapeCasts_S262144_S4096x64 : S262144.ShapeCasts S4096x64
  inb_S128x4096_S128x4096_0_0 : ∀ a, (![0, 0] : Fin 2 → Nat) a + S128x4096.size a ≤ S128x4096.size a
  h_S128x4096 : 0 < S128x4096.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x64x1 : S128x64.ShapeCasts S128x64x1
  shapeCasts_S128x64x1_S128x64x1 : S128x64x1.ShapeCasts S128x64x1
  broadcasts_S128x64x1_S128x64x64 : S128x64x1.Broadcasts S128x64x64
  shapeCasts_S128x64x64_S128x4096 : S128x64x64.ShapeCasts S128x4096
  packedbf16_S128x4096_S128x4096_0_0 : (Rect.unit (s := S128x4096) ![0, 0] S128x4096.size inb_S128x4096_S128x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S1024x128_S1024x128_0_0 : (Rect.unit (s := S1024x128) ![0, 0] S1024x128.size inb_S1024x128_S1024x128_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8192x4096_S4x2048x4096 : S8192x4096.ShapeCasts S4x2048x4096
  dot_S1024x1024_S128x1024_S1024x128_1_1_0_0_n_n_wf : DotDims.WF S1024x1024 S128x1024 S1024x128 [1] [1] [0] [0] [] []
  dot_S2048x1024_S1024x1024_S2048x1024_1_1_0_0_n_n_wf : DotDims.WF S2048x1024 S1024x1024 S2048x1024 [1] [1] [0] [0] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .i32 = 32 ∨ (Rect.block (s := S4096x4096) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S4096x64.size a
  hwx0_1 : ∀ i : grid0.Coords, EltTy.bits .f32 = 32 ∨ (Rect.block (s := S4096x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .bf16 = 32 ∨ (Rect.block (s := S4096x4096) S128x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x4096.size a
  hwx1_1 : ∀ i : grid1.Coords, EltTy.bits .bf16 = 32 ∨ (Rect.block (s := S128x4096) S128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .bf16 = 32 ∨ (Rect.block (s := S8192x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .bf16 = 32 ∨ (Rect.block (s := S8192x128) S2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S4096x128.size a
  hwx2_3 : ∀ i : grid2.Coords, EltTy.bits .bf16 = 32 ∨ (Rect.block (s := S4096x128) S1024x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x4096.size a
  hwx2_4 : ∀ i : grid2.Coords, EltTy.bits .f32 = 32 ∨ (Rect.block (s := S8192x4096) S2048x1024.size (cc2_transform_4 i) (hinb2_4 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg4) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1024x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7_1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_0) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S64x4096 : Shape := ⟨2, ![64, 4096]⟩
abbrev S4096x64 : Shape := ⟨2, ![4096, 64]⟩
abbrev S262144 : Shape := ⟨1, ![262144]⟩
abbrev S4096x4096 : Shape := ⟨2, ![4096, 4096]⟩
abbrev S16 : Shape := ⟨1, ![16]⟩
abbrev S_ : Shape := ⟨0, ![]⟩
abbrev S4096x4096x1 : Shape := ⟨3, ![4096, 4096, 1]⟩
abbrev S262144x64 : Shape := ⟨2, ![262144, 64]⟩
abbrev S262144x1 : Shape := ⟨2, ![262144, 1]⟩
abbrev S4x2048x64 : Shape := ⟨3, ![4, 2048, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S64x4096, .f32⟩
  | .hbm, ⟨2, _⟩ => ⟨S4096x64, .f32⟩
  | .hbm, ⟨3, _⟩ => ⟨S262144, .f32⟩
  | .hbm, ⟨4, _⟩ => ⟨S4096x4096, .i32⟩
  | .hbm, ⟨5, _⟩ => ⟨S16, .f32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S4096x4096, .f32⟩
  | .hbm, ⟨15, _⟩ => ⟨S262144x64, .f32⟩
  | .hbm, ⟨16, _⟩ => ⟨S262144x1, .f32⟩
  | .hbm, ⟨17, _⟩ => ⟨S262144x64, .f32⟩
  | .hbm, ⟨18, _⟩ => ⟨S262144x64, .f32⟩
  | .hbm, ⟨19, _⟩ => ⟨S4096x4096, .f32⟩
  | .hbm, ⟨20, _⟩ => ⟨S4x2048x4096, .f32⟩
  | .hbm, ⟨21, _⟩ => ⟨S4x2048x64, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S262144x64 : S4096x4096.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.KB.Deq.lean ====
/-
  The first of the program's three kernel launches: the weight matrix is rebuilt from its four-bit codes.

  The launch walks the 4096 x 4096 code matrix in 32 bands of 128 rows.  At band t the body reads the band's
  128 x 4096 codes and the band's 128 x 64 scales (one scale per run of 64 consecutive entries of a row),
  looks every code up in the sixteen-level table through a four-deep tree of selections on the code's low four
  bits, multiplies by the scale of the entry's run, and stores the 128 x 4096 band of the weight.  Nothing is
  carried from one band to the next: what a band writes is a function of that band's two input blocks alone.

  This module states that function (deq), proves that the body computes it on any whole staging buffers
  (deq_body), and packages the launch's proof data over arbitrary contents V of the device's buffers at the
  moment the launch starts: every input buffer holds its block of V, the output buffer ends at deq of them.
-/
import proofs.«406961_j15015205667342_3_alg».proof.Proof.Gen.Kernel.Launch
import proofs.«406961_j15015205667342_3_alg».proof.Proof.Gen.Kernel.Skeleton
import proofs.«406961_j15015205667342_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body on whole staging buffers -/

/-- The whole 128 x 4096 band, as the rectangle the body loads the codes through and stores the weight through. -/
abbrev rBand : Rect S128x4096 := Rect.unit (s := S128x4096) ![0, 0] S128x4096.size inb_S128x4096_S128x4096_0_0
/-- The whole 128 x 64 block of scales. -/
abbrev rScale : Rect S128x64 := Rect.unit (s := S128x64) ![0, 0] S128x64.size inb_S128x64_S128x64_0_0

/-- The band of the weight the body stores, from the band's codes and scales: the table lookup by bit tests
    (the selection tree's four levels are the generated payload terms) times the scales spread over their runs. -/
def deq (codes : Vec F S128x4096 .i32) (am : Vec F S128x64 .f32) : Vec F S128x4096 .bf16 :=
  View.canon [⟨rBand, k0_pay1 (k0_pay2 (View.ld am rScale)) (k0_pay3 (View.ld codes rBand)) (k0_pay4 (View.ld codes rBand))
    (k0_pay5 (View.ld codes rBand)) (k0_pay6 (View.ld codes rBand)) (k0_pay7 (View.ld codes rBand))
    (k0_pay8 (View.ld codes rBand)) (k0_pay9 (View.ld codes rBand))⟩]

/-- The one store covers the whole band. -/
theorem deq_cover (p0 : Vec F S128x4096 .bf16) (y : S128x4096.Idx) :
    ∃ pc ∈ ([⟨rBand, p0⟩] : List (View.Piece (Elt F) S128x4096 .bf16)), y ∈ pc.1.set :=
  View.cover_of_tiled [⟨rBand, p0⟩] S128x4096.size (by rfl) y

set_option maxHeartbeats 1000000 in
/-- On whole staging buffers holding the band's codes and scales, and any contents in the output buffer, the body
    runs to its end, leaves the two inputs as they were and the output at deq of them. -/
theorem deq_body (c : Dev nD) (E : Set ℕ) (i : grid0.Coords) (arg1 : Memref sig .tc .vmem S128x4096 .i32) (harg1 : arg1.IsWhole)
    (arg2 : Memref sig .tc .vmem S128x64 .f32) (harg2 : arg2.IsWhole) (arg3 : Memref sig .tc .vmem S128x4096 .bf16) (harg3 : arg3.IsWhole)
    (x0 : Vec F S128x4096 .i32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (deq x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (deq_cover _)

/-! ## The launch's proof data over the contents V at its start -/

section Launch
variable (V : (c : Dev nD) → (b : Ref sig .tc) → Buf (Elt F) ((c : Thread nD τ).loc b))

/-- Band t of window w's array, as the launch finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body at band t the two inputs' buffers at their bands and the
    output's at deq of them; no kernel-owned state beyond the untouched scoped buffers; nothing owed. -/
def deqDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => deq (blk0 V c 0 t) (blk0 V c 1 t)
  Φ _ := Pipeline.ΦA spec0 c
  q _ := fullShare
  owed _ := 0

theorem deqDat_A (c : Dev nD) (w : Fin cfg0.W) : (deqDat V c).A w = V c (Pipeline.arrRef spec0 w) := by
  dsimp only [deqDat]

theorem deqDat_after0 (c : Dev nD) (t : Fin cfg0.N) : (deqDat V c).after 0 t = blk0 V c 0 t := by dsimp only [deqDat]
theorem deqDat_after1 (c : Dev nD) (t : Fin cfg0.N) : (deqDat V c).after 1 t = blk0 V c 1 t := by dsimp only [deqDat]
theorem deqDat_after2 (c : Dev nD) (t : Fin cfg0.N) : (deqDat V c).after 2 t = deq (blk0 V c 0 t) (blk0 V c 1 t) := by
  dsimp only [deqDat]

/-- Every band is fetched anew, so before the body the codes' buffer holds band t of the codes, -/
theorem deqDat_before0 (c : Dev nD) (t : Fin cfg0.N) (d) : (deqDat V c).before 0 t d = blk0 V c 0 t :=
  ((deqDat V c).before_in_eq_fetched 0 rfl (fun _ => rfl) (fun _ _ _ => rfl)
    (fun t => by rw [deqDat_after0]; unfold Dat.blockOf blk0; rw [deqDat_A]; try rfl) t d).trans
    (by unfold Dat.fetched Dat.blockOf blk0; rw [deqDat_A]; try rfl)

/-- and the scales' buffer band t of the scales. -/
theorem deqDat_before1 (c : Dev nD) (t : Fin cfg0.N) (d) : (deqDat V c).before 1 t d = blk0 V c 1 t :=
  ((deqDat V c).before_in_eq_fetched 1 rfl (fun _ => rfl) (fun _ _ _ => rfl)
    (fun t => by rw [deqDat_after1]; unfold Dat.blockOf blk0; rw [deqDat_A]; try rfl) t d).trans
    (by unfold Dat.fetched Dat.blockOf blk0; rw [deqDat_A]; try rfl)

/-- The body at band t, from what the pipeline hands it to what it hands back: deq_body at the band's blocks. -/
theorem deq_point (c : Dev nD) (t : Fin cfg0.N) :
    iprop((deqDat V c).Φ t.castSucc ∗ (deqDat V c).owesAt () t.castSucc
      ∗ (∃ d, owns (c : Thread nD τ) (st0_0 t) fullShare ((deqDat V c).before 0 t d))
      ∗ (∃ d, owns (c : Thread nD τ) (st0_1 t) fullShare ((deqDat V c).before 1 t d))
      ∗ (∃ d, owns (c : Thread nD τ) (st0_2 t) fullShare ((deqDat V c).before 2 t d)))
    ⊢ wp frame (wpE (defs₀ (F := F)) Variants.none c none) Set.univ (bodyAt0 t) (fun _ =>
      iprop((deqDat V c).Φ t.succ ∗ (deqDat V c).owesAt () t.succ
        ∗ owns (c : Thread nD τ) (st0_0 t) fullShare ((deqDat V c).after 0 t)
        ∗ owns (c : Thread nD τ) (st0_1 t) fullShare ((deqDat V c).after 1 t)
        ∗ owns (c : Thread nD τ) (st0_2 t) fullShare ((deqDat V c).after 2 t))) := by
  unfold bodyAt0
  simp only [deqDat_before0, deqDat_before1]
  rw [show (deqDat V c).Φ t.succ = (deqDat V c).Φ t.castSucc from rfl,
    show (deqDat V c).owesAt () t.succ = (deqDat V c).owesAt () t.castSucc from rfl,
    deqDat_after0, deqDat_after1, deqDat_after2]
  iintro ⟨HΦ, Ho, ⟨%d0, H0⟩, ⟨%d1, H1⟩, ⟨%d2, H2⟩⟩
  iapply (deq_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every band. -/
theorem deq_obligation (c : Dev nD) : BodyObligation (deqDat (F := F) V c) (defs₀ (F := F)) Variants.none () Set.univ := fun t => by
  rw [bigSep_W0, bigSep_W0]
  exact deq_point V c t

end Launch

end Cert.Kernel.Hand

end
-- ==== Proof.LibWholeStore.lean ====
/-
  Stores and loads through the rectangle that is the whole buffer.

  A buffer written by a list of stores, the LAST of which goes through the whole-buffer rectangle (all offsets
  zero, the sizes the buffer's own), holds that last store's payload, whatever the earlier stores and the
  earlier contents were; and a load through the whole-buffer rectangle after such stores reads that payload.
  These are the two facts behind "an accumulator is reset, then updated, then read back": the library has them
  for a list of ONE store; here they are for any list whose head covers the buffer.
-/
import Idealize.ShloMosaic.Lib.Pipeline.FrameBody
import Idealize.ShloMosaic.Lib.Pipeline.Value

namespace Idealize.ShloMosaic.View

variable {Val : EltTy → Type} {S : Shape} {e : EltTy}

/-- The head piece of a list of stores, when it goes through the whole-buffer rectangle, covers every index. -/
theorem cover_cons_unit_zero {off : Fin S.rank → Nat} (h : off = fun _ => 0) (inb : ∀ a, off a + S.size a ≤ S.size a)
    (w : S.Idx → Val e) (L : List (Piece Val S e)) (y : S.Idx) :
    ∃ p ∈ ((⟨Rect.unit off S.size inb, w⟩ : Piece Val S e) :: L), y ∈ p.1.set :=
  ⟨_, List.mem_cons_self, mem_set_unit_zero h inb y⟩

/-- What a buffer holds after stores the last of which is through the whole-buffer rectangle: that store's payload. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon _ _ _ (cover_cons_unit_zero h inb w L), canon_cons_unit_zero h inb w L]

/-- What a load through the whole-buffer rectangle reads after such stores: that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (cover_cons_unit_zero h inb w L), canon_cons_unit_zero h inb w L, ld_unit_zero h inb]

end Idealize.ShloMosaic.View
-- ==== Proof.KB.Inner.lean ====
/-
  The second kernel launch: the low-rank projection  x · Aᵀ  (the rank padded to 128 columns), accumulated
  over the 4096-long contraction in four steps of 1024, and beside it the copy of x the third launch reads.

  The grid is 8 row blocks by 4 contraction steps, point t = 4·i + k.  At every point the body copies its
  1024 x 1024 block of x (the change of float format is the body's only operation there) into the second output,
  and adds the block's product with the matching 128 x 1024 block of the padded A into a 1024 x 128 accumulator
  that lives in a scratch buffer of the launch: at the first step of a row block (k = 0) the accumulator is first
  reset to zero, at the later steps it is what the step before left.  After every step the accumulator is
  copied to the first output; only the copy made at the row block's last step is written back.

  So, unlike the first launch, what a point leaves depends on the point before it.  This module states the two
  body steps (inner_first, inner_later) on whole staging buffers, names the accumulator after every point by
  recursion over the points (innerAcc), and packages the proof data: the launch's invariant holds the scratch
  buffer at innerAcc of the point just done (nothing is known of it before the first point, and its contents are
  forgotten again when the launch ends).
-/
import proofs.«406961_j15015205667342_3_alg».proof.Proof.Gen.Kernel.Launch
import proofs.«406961_j15015205667342_3_alg».proof.Proof.Gen.Kernel.Skeleton
import proofs.«406961_j15015205667342_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«406961_j15015205667342_3_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Both offsets of a whole-buffer rectangle are zero. -/
theorem zero2 : (![0, 0] : Fin 2 → Nat) = fun _ => 0 := by
  funext a; match a with | ⟨0, _⟩ => rfl | ⟨1, _⟩ => rfl

/-! ## The step's position in its row block -/

/-- The body's test "this is the first contraction step" (its second grid coordinate is 0), as printed. -/
abbrev firstStep1 (i : grid1.Coords) : Prop :=
  (Scalar.cmpi .ne (Scalar.extui (Scalar.cmpi .eq (BitVec.ofNat 32 (i 1).val) 0#32)) 0#32) = 1#1

/-- It holds exactly at the points 0, 4, 8, …. -/
theorem firstStep1_iff : ∀ t : Fin cfg1.N, firstStep1 (grid1.coords t) ↔ t.val % 4 = 0 :=
  (by decide +kernel : ∀ t : Fin grid1.N, firstStep1 (grid1.coords t) ↔ t.val % 4 = 0)

/-! ## The body on whole staging buffers -/

set_option maxHeartbeats 2000000 in
/-- A first step: whatever the scratch held, it ends at the product alone added to zeros
    (k1_pay3 x k1_pay2 a), the first output at its copy, the second output at the copy of x. -/
theorem inner_first (c : Dev nD) (E : Set ℕ) (i : grid1.Coords) (arg2 : Memref sig .tc .vmem S1024x1024 .f32) (harg2 : arg2.IsWhole)
    (arg3 : Memref sig .tc .vmem S128x1024 .bf16) (harg3 : arg3.IsWhole) (arg4 : Memref sig .tc .vmem S1024x128 .bf16) (harg4 : arg4.IsWhole)
    (arg5 : Memref sig .tc .vmem S1024x1024 .bf16) (harg5 : arg5.IsWhole) (arg6 : Memref sig .tc .vmem S1024x128 .f32) (harg6 : arg6.IsWhole)
    (hc : firstStep1 i) (x : Vec F S1024x1024 .f32) (a : Vec F S128x1024 .bf16) (K : PUnit → sProp 𝕄) :
    iprop(owns (c : Thread nD τ) arg2 fullShare x ∗ owns (c : Thread nD τ) arg3 fullShare a ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare a
            ∗ owns (c : Thread nD τ) arg4 fullShare (k1_pay4 (k1_pay3 x (k1_pay2 (F := F)) a))
            ∗ owns (c : Thread nD τ) arg5 fullShare (k1_pay1 x)
            ∗ owns (c : Thread nD τ) arg6 fullShare (k1_pay3 x (k1_pay2 (F := F)) a)) -∗ K ⟨⟩))
      ⊢ wp frame (wpE (defs₀ (F := F)) Variants.none c none) E (cc1__inner_kernel i arg2 harg2 arg3 harg3 arg4 harg4 arg5 harg5 arg6 harg6) K := by
  simp only [cc1__inner_kernel_eq_skeleton]; unfold cc1__inner_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [View.read_writes_cons_unit_zero (S := S1024x128) _ _ zero2, View.readCov_cons_unit_zero (S := S1024x128) _ zero2,
      View.readAt_eq_ld, View.ld_unit_zero (S := S1024x128) zero2, View.ld_unit_zero (S := S1024x1024) zero2,
      View.ld_unit_zero (S := S128x1024) zero2]
  isplitl [H5]
  · iexists _; isplitr
    swap; · iexact H5
    ipureintro
    simp only [View.read_writes_cons_unit_zero (S := S1024x1024) _ _ zero2, View.readAt_eq_ld, View.ld_unit_zero (S := S1024x1024) zero2]
  iexists _; isplitr
  swap; · iexact H6
  ipureintro
  sl_unfold_run_names
  simp only [View.read_writes_cons_unit_zero (S := S1024x128) _ _ zero2, View.readCov_cons_unit_zero (S := S1024x128) _ zero2,
    View.readAt_eq_ld, View.ld_unit_zero (S := S1024x128) zero2, View.ld_unit_zero (S := S1024x1024) zero2,
    View.ld_unit_zero (S := S128x1024) zero2]

set_option maxHeartbeats 2000000 in
/-- A later step: from the scratch at s it ends at s plus the product (k1_pay3 x s a), the outputs as above. -/
theorem inner_later (c : Dev nD) (E : Set ℕ) (i : grid1.Coords) (arg2 : Memref sig .tc .vmem S1024x1024 .f32) (harg2 : arg2.IsWhole)
    (arg3 : Memref sig .tc .vmem S128x1024 .bf16) (harg3 : arg3.IsWhole) (arg4 : Memref sig .tc .vmem S1024x128 .bf16) (harg4 : arg4.IsWhole)
    (arg5 : Memref sig .tc .vmem S1024x1024 .bf16) (harg5 : arg5.IsWhole) (arg6 : Memref sig .tc .vmem S1024x128 .f32) (harg6 : arg6.IsWhole)
    (hc : ¬ firstStep1 i) (x : Vec F S1024x1024 .f32) (a : Vec F S128x1024 .bf16) (s : Vec F S1024x128 .f32) (K : PUnit → sProp 𝕄) :
    iprop(owns (c : Thread nD τ) arg2 fullShare x ∗ owns (c : Thread nD τ) arg3 fullShare a ∗ (∃ d, owns (c : Thread nD τ) arg4 fullShare d)
        ∗ (∃ d, owns (c : Thread nD τ) arg5 fullShare d) ∗ owns (c : Thread nD τ) arg6 fullShare s
        ∗ (iprop(owns (c : Thread nD τ) arg2 fullShare x ∗ owns (c : Thread nD τ) arg3 fullShare a
            ∗ owns (c : Thread nD τ) arg4 fullShare (k1_pay4 (k1_pay3 x s a))
            ∗ owns (c : Thread nD τ) arg5 fullShare (k1_pay1 x)
            ∗ owns (c : Thread nD τ) arg6 fullShare (k1_pay3 x s a)) -∗ K ⟨⟩))
      ⊢ wp frame (wpE (defs₀ (F := F)) Variants.none c none) E (cc1__inner_kernel i arg2 harg2 arg3 harg3 arg4 harg4 arg5 harg5 arg6 harg6) K := by
  simp only [cc1__inner_kernel_eq_skeleton]; unfold cc1__inner_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  subst hf2; subst hf3
  obtain rfl := harg6.eq_unread hf6
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [View.read_writes_cons_unit_zero (S := S1024x128) _ _ zero2, View.readCov_cons_unit_zero (S := S1024x128) _ zero2,
      View.readAt_eq_ld, harg6.read_unread, View.ld_unit_zero (S := S1024x128) zero2, View.ld_unit_zero (S := S1024x1024) zero2,
      View.ld_unit_zero (S := S128x1024) zero2]
  isplitl [H5]
  · iexists _; isplitr
    swap; · iexact H5
    ipureintro
    simp only [View.read_writes_cons_unit_zero (S := S1024x1024) _ _ zero2, View.readAt_eq_ld, View.ld_unit_zero (S := S1024x1024) zero2]
  iexists _; isplitr
  swap; · iexact H6
  ipureintro
  sl_unfold_run_names
  simp only [View.read_writes_cons_unit_zero (S := S1024x128) _ _ zero2, View.readCov_cons_unit_zero (S := S1024x128) _ zero2,
    View.readAt_eq_ld, harg6.read_unread, View.ld_unit_zero (S := S1024x128) zero2, View.ld_unit_zero (S := S1024x1024) zero2,
    View.ld_unit_zero (S := S128x1024) zero2]

/-! ## The launch's proof data over the contents V at its start -/

section Launch
variable (V : (c : Dev nD) → (b : Ref sig .tc) → Buf (Elt F) ((c : Thread nD τ).loc b))

/-- Block t of window w's array, as the launch finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point n: at a first step the block product added to zeros, at a later step added to
    what the point before left. -/
def innerAcc (c : Dev nD) : (n : ℕ) → n < cfg1.N → Vec F S1024x128 .f32
  | 0, h => k1_pay3 (blk1 V c 0 ⟨0, h⟩) (k1_pay2 (F := F)) (blk1 V c 1 ⟨0, h⟩)
  | n + 1, h =>
    if (n + 1) % 4 = 0 then k1_pay3 (blk1 V c 0 ⟨n + 1, h⟩) (k1_pay2 (F := F)) (blk1 V c 1 ⟨n + 1, h⟩)
    else k1_pay3 (blk1 V c 0 ⟨n + 1, h⟩) (innerAcc c n (Nat.lt_of_succ_lt h)) (blk1 V c 1 ⟨n + 1, h⟩)

theorem innerAcc_first (c : Dev nD) (t : Fin cfg1.N) (h : t.val % 4 = 0) :
    innerAcc V c t.val t.isLt = k1_pay3 (blk1 V c 0 t) (k1_pay2 (F := F)) (blk1 V c 1 t) := by
  obtain ⟨n, hn⟩ := t
  cases n with
  | zero => rfl
  | succ n => exact if_pos h

theorem innerAcc_later (c : Dev nD) (t : Fin cfg1.N) (h : ¬ t.val % 4 = 0) :
    innerAcc V c t.val t.isLt
      = k1_pay3 (blk1 V c 0 t) (innerAcc V c (t.val - 1) (Nat.lt_of_le_of_lt (Nat.sub_le _ _) t.isLt)) (blk1 V c 1 t) := by
  obtain ⟨n, hn⟩ := t
  cases n with
  | zero => exact absurd (Nat.zero_mod _) h
  | succ n => exact if_neg h

/-- The launch's scratch buffer, whole. -/
abbrev accBuf1 : Memref sig .tc .vmem S1024x128 .f32 := Memref.whole cc1_scratch0

/-- What the launch keeps beside its scratch buffer: the other scoped buffers that are no staging buffer of
    its own, untouched, and the generator register. -/
def innerRest (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class invariant (every scoped non-staging buffer at some contents, the register at some state) with the
    scratch buffer singled out. -/
theorem innerPhiA_eq (c : Dev nD) :
    (Pipeline.ΦA spec1 c : sProp 𝕄) = iprop((∃ d, owns (c : Thread nD τ) accBuf1 fullShare d) ∗ innerRest (F := F) c) := by
  unfold Pipeline.ΦA innerRest
  rw [Pipeline.scopedRest_split_of_list spec1 c [cc1_scratch0] (by decide) (by decide), bigSepL_singleton]
  simp only [accBuf1, owns_whole]
  have h₁ : (iprop(iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) : sProp 𝕄)
      ⊢ iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0] ∗ (∃ r, prngReg c r)) := by
    iintro ⟨⟨H, Hr⟩, Hp⟩
    isplitl [H]
    · iexact H
    isplitl [Hr]
    · iexact Hr
    iexact Hp
  have h₂ : (iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0] ∗ (∃ r, prngReg c r)) : sProp 𝕄)
      ⊢ iprop(iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) := by
    iintro ⟨H, Hr, Hp⟩
    isplitl [H Hr]
    · isplitl [H]
      · iexact H
      iexact Hr
    iexact Hp
  exact BI.equiv_iff.mp ⟨h₁, h₂⟩

/-- The invariant before point n: before the first point nothing is known of the scratch; afterwards it holds the
    accumulator of the point just done. -/
def innerInv (c : Dev nD) : (n : ℕ) → n ≤ cfg1.N → sProp 𝕄
  | 0, _ => Pipeline.ΦA spec1 c
  | n + 1, h => iprop(owns (c : Thread nD τ) accBuf1 fullShare (innerAcc V c n h) ∗ innerRest (F := F) c)

theorem innerInv_succ (c : Dev nD) (n : ℕ) (h : n < cfg1.N) :
    innerInv V c (n + 1) h = iprop(owns (c : Thread nD τ) accBuf1 fullShare (innerAcc V c n h) ∗ innerRest (F := F) c) := rfl

theorem innerInv_pos (c : Dev nD) (n : ℕ) (h : n ≤ cfg1.N) (hz : n ≠ 0) :
    innerInv V c n h = iprop(owns (c : Thread nD τ) accBuf1 fullShare (innerAcc V c (n - 1) (by omega)) ∗ innerRest (F := F) c) := by
  cases n with
  | zero => exact absurd rfl hz
  | succ n => rfl

/-- At any point the invariant yields the scratch buffer at SOME contents beside the rest. -/
theorem innerInv_some (c : Dev nD) (n : ℕ) (h : n ≤ cfg1.N) :
    innerInv V c n h ⊢ iprop((∃ d, owns (c : Thread nD τ) accBuf1 fullShare d) ∗ innerRest (F := F) c) := by
  cases n with
  | zero =>
    rw [show innerInv V c 0 h = Pipeline.ΦA spec1 c from rfl, innerPhiA_eq]
  | succ n =>
    rw [innerInv_succ]
    iintro ⟨H, Hr⟩
    isplitl [H]
    · iexists _; iexact H
    iexact Hr

/-- The proof data: the arrays as found; after the body at point t the inputs' buffers at their blocks, the first
    output's at the copy of the accumulator, the second's at the copy of the block of x; the invariant as above;
    nothing owed. -/
def innerDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay4 (innerAcc V c t.val t.isLt)
    | ⟨3, _⟩ => k1_pay1 (blk1 V c 0 t)
  Φ t := innerInv V c t.val (Nat.le_of_lt_succ t.isLt)
  q _ := fullShare
  owed _ := 0

theorem innerDat_A (c : Dev nD) (w : Fin cfg1.W) : (innerDat V c).A w = V c (Pipeline.arrRef spec1 w) := by
  dsimp only [innerDat]

theorem innerDat_after0 (c : Dev nD) (t : Fin cfg1.N) : (innerDat V c).after 0 t = blk1 V c 0 t := by dsimp only [innerDat]
theorem innerDat_after1 (c : Dev nD) (t : Fin cfg1.N) : (innerDat V c).after 1 t = blk1 V c 1 t := by dsimp only [innerDat]
theorem innerDat_after2 (c : Dev nD) (t : Fin cfg1.N) : (innerDat V c).after 2 t = k1_pay4 (innerAcc V c t.val t.isLt) := by
  dsimp only [innerDat]
theorem innerDat_after3 (c : Dev nD) (t : Fin cfg1.N) : (innerDat V c).after 3 t = k1_pay1 (blk1 V c 0 t) := by
  dsimp only [innerDat]

theorem innerDat_inv (c : Dev nD) (t : Fin cfg1.N) :
    (innerDat V c).Φ t.castSucc = innerInv V c t.val (Nat.le_of_lt t.isLt) := by
  dsimp only [innerDat]; simp only [Fin.coe_castSucc]

/-- Both inputs are fetched anew at every point: before the body their buffers hold their blocks. -/
theorem innerDat_before0 (c : Dev nD) (t : Fin cfg1.N) (d) : (innerDat V c).before 0 t d = blk1 V c 0 t :=
  ((innerDat V c).before_in_eq_fetched 0 rfl (fun _ => rfl) (fun _ _ _ => rfl)
    (fun t => by rw [innerDat_after0]; unfold Dat.blockOf blk1; rw [innerDat_A]; try rfl) t d).trans
    (by unfold Dat.fetched Dat.blockOf blk1; rw [innerDat_A]; try rfl)

theorem innerDat_before1 (c : Dev nD) (t : Fin cfg1.N) (d) : (innerDat V c).before 1 t d = blk1 V c 1 t :=
  ((innerDat V c).before_in_eq_fetched 1 rfl (fun _ => rfl) (fun _ _ _ => rfl)
    (fun t => by rw [innerDat_after1]; unfold Dat.blockOf blk1; rw [innerDat_A]; try rfl) t d).trans
    (by unfold Dat.fetched Dat.blockOf blk1; rw [innerDat_A]; try rfl)

set_option maxHeartbeats 2000000 in
/-- The body at point t, from what the pipeline hands it to what it hands back: a first step by inner_first from the
    scratch at anything, a later step by inner_later from the scratch at the accumulator of the point before. -/
theorem inner_point (c : Dev nD) (t : Fin cfg1.N) :
    iprop((innerDat V c).Φ t.castSucc ∗ (innerDat V c).owesAt () t.castSucc
      ∗ (∃ d, owns (c : Thread nD τ) (st1_0 t) fullShare ((innerDat V c).before 0 t d))
      ∗ (∃ d, owns (c : Thread nD τ) (st1_1 t) fullShare ((innerDat V c).before 1 t d))
      ∗ (∃ d, owns (c : Thread nD τ) (st1_2 t) fullShare ((innerDat V c).before 2 t d))
      ∗ (∃ d, owns (c : Thread nD τ) (st1_3 t) fullShare ((innerDat V c).before 3 t d)))
    ⊢ wp frame (wpE (defs₀ (F := F)) Variants.none c none) Set.univ (bodyAt1 t) (fun _ =>
      iprop((innerDat V c).Φ t.succ ∗ (innerDat V c).owesAt () t.succ
        ∗ owns (c : Thread nD τ) (st1_0 t) fullShare ((innerDat V c).after 0 t)
        ∗ owns (c : Thread nD τ) (st1_1 t) fullShare ((innerDat V c).after 1 t)
        ∗ owns (c : Thread nD τ) (st1_2 t) fullShare ((innerDat V c).after 2 t)
        ∗ owns (c : Thread nD τ) (st1_3 t) fullShare ((innerDat V c).after 3 t))) := by
  unfold bodyAt1
  simp only [innerDat_before0, innerDat_before1]
  rw [show (innerDat V c).owesAt () t.succ = (innerDat V c).owesAt () t.castSucc from rfl,
    show (innerDat V c).Φ t.succ = innerInv V c (t.val + 1) t.isLt from rfl, innerInv_succ,
    innerDat_inv, innerDat_after0, innerDat_after1, innerDat_after2, innerDat_after3]
  by_cases h0 : t.val % 4 = 0
  · rw [innerAcc_first V c t h0]
    iintro ⟨Hinv, Ho, ⟨%d0, H0⟩, ⟨%d1, H1⟩, ⟨%d2, H2⟩, ⟨%d3, H3⟩⟩
    ihave Hopen := (innerInv_some V c t.val _) $$ Hinv
    icases Hopen with ⟨HS, Hr⟩
    iapply (inner_first c Set.univ _ _ _ _ _ _ _ _ _ _ _ ((firstStep1_iff t).mpr h0) (blk1 V c 0 t) (blk1 V c 1 t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hz : t.val ≠ 0 := fun e => h0 (by rw [e])
    rw [innerAcc_later V c t h0, innerInv_pos V c _ _ hz]
    iintro ⟨⟨HS, Hr⟩, Ho, ⟨%d0, H0⟩, ⟨%d1, H1⟩, ⟨%d2, H2⟩, ⟨%d3, H3⟩⟩
    iapply (inner_later c Set.univ _ _ _ _ _ _ _ _ _ _ _ (fun h => h0 ((firstStep1_iff t).mp h)) (blk1 V c 0 t) (blk1 V c 1 t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The pipeline's obligation on the body, at every point. -/
theorem inner_obligation (c : Dev nD) : BodyObligation (innerDat (F := F) V c) (defs₀ (F := F)) Variants.none () Set.univ := fun t => by
  rw [bigSep_W1, bigSep_W1]
  exact inner_point V c t

/-- What the launch hands the region is the invariant before the first point. -/
theorem inner_hin (c : Dev nD) : Pipeline.ΦA spec1 c ⊢ (innerDat V c).Φ 0 := by
  rw [show (innerDat V c).Φ 0 = Pipeline.ΦA spec1 c from rfl]

/-- After the last point the invariant gives the class invariant back: the accumulator's contents are forgotten. -/
theorem inner_hout (c : Dev nD) : (innerDat V c).Φ (Fin.last cfg1.N) ⊢ Pipeline.ΦA spec1 c := by
  rw [show (innerDat V c).Φ (Fin.last cfg1.N) = innerInv V c cfg1.N (le_refl _) from rfl, innerPhiA_eq]
  exact innerInv_some V c _ _

end Launch

end Cert.Kernel.Hand

end
-- ==== Proof.KB.MainK.lean ====
/-
  The third of the program's three kernel launches: the fused matrix product.

  The launch walks a 4 x 4 x 4 grid (i, j, k), k fastest, 64 points.  At the point (i, j, k) the body holds the
  2048 x 1024 block (i, k) of the activations, the 1024 x 1024 block (j, k) of the rebuilt weight, the
  2048 x 128 block i of the low-rank inner product, the 1024 x 128 block j of the second low-rank factor, and a
  2048 x 1024 accumulator that lives in a scratch buffer from point to point.  It zeroes the accumulator when
  k = 0, adds the product of the activation block with the transposed weight block to it at every k, and when
  k = 3 stores into the output's 2048 x 1024 block (i, j) the accumulator plus twice the product of the inner
  block with the transposed factor block.  The output's buffer is stored only at k = 3, which is where the
  pipeline writes the block back; at the other points it is left as it was found.

  Along the run the point t has k = t mod 4, so three kinds of point: the first of a run of four (zero, add, no
  output), the two middle ones (add), the last (add, emit).  This module proves what the body does on whole
  staging buffers in each of the three (main_first, main_middle, main_last), names the accumulator after each
  point by recursion along the run (mainAcc) and the block emitted at the end of a run (mainOut), and packages
  the launch's proof data over arbitrary contents V of the device's buffers at the moment the launch starts: the
  invariant carries the scratch buffer at mainAcc from one point to the next.
-/
import proofs.«406961_j15015205667342_3_alg».proof.Proof.Gen.Kernel.Launch
import proofs.«406961_j15015205667342_3_alg».proof.Proof.Gen.Kernel.Skeleton
import proofs.«406961_j15015205667342_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, along the run -/

/-- The body zeroes the accumulator at this grid point: its third coordinate is 0. -/
abbrev firstStep2 (i : grid2.Coords) : Prop := (Scalar.cmpi .ne (Scalar.extui (Scalar.cmpi .eq (BitVec.ofNat 32 (i 2).val) 0#32)) 0#32) = 1#1
/-- The body emits the output block at this grid point: its third coordinate is 3. -/
abbrev lastStep2 (i : grid2.Coords) : Prop := k2_cond2 i = 1#1

/-- The third coordinate of point t is t mod 4, so the accumulator is zeroed at the points divisible by 4 -/
theorem firstStep2_iff : ∀ t : Fin cfg2.N, firstStep2 (grid2.coords t) ↔ t.val % 4 = 0 :=
  (by decide +kernel : ∀ t : Fin grid2.N, firstStep2 (grid2.coords t) ↔ t.val % 4 = 0)
/-- and the output is emitted at the points that are 3 mod 4. -/
theorem lastStep2_iff : ∀ t : Fin cfg2.N, lastStep2 (grid2.coords t) ↔ t.val % 4 = 3 :=
  (by decide +kernel : ∀ t : Fin grid2.N, lastStep2 (grid2.coords t) ↔ t.val % 4 = 3)

/-- The input windows are never idle; -/
theorem liveAt2_0 : ∀ t : Fin cfg2.N, cfg2.idle 0 (cfg2.grid.coords t) = false :=
  (by decide +kernel : ∀ t : Fin grid2.N, idle2 0 (grid2.coords t) = false)
theorem liveAt2_1 : ∀ t : Fin cfg2.N, cfg2.idle 1 (cfg2.grid.coords t) = false :=
  (by decide +kernel : ∀ t : Fin grid2.N, idle2 1 (grid2.coords t) = false)
theorem liveAt2_2 : ∀ t : Fin cfg2.N, cfg2.idle 2 (cfg2.grid.coords t) = false :=
  (by decide +kernel : ∀ t : Fin grid2.N, idle2 2 (grid2.coords t) = false)
theorem liveAt2_3 : ∀ t : Fin cfg2.N, cfg2.idle 3 (cfg2.grid.coords t) = false :=
  (by decide +kernel : ∀ t : Fin grid2.N, idle2 3 (grid2.coords t) = false)
/-- the output window is idle exactly off the points that are 3 mod 4, -/
theorem idleAt2_4 : ∀ t : Fin cfg2.N, t.val % 4 ≠ 3 → cfg2.idle 4 (cfg2.grid.coords t) = true :=
  (by decide +kernel : ∀ t : Fin grid2.N, t.val % 4 ≠ 3 → idle2 4 (grid2.coords t) = true)
theorem liveAt2_4 : ∀ t : Fin cfg2.N, t.val % 4 = 3 → cfg2.idle 4 (cfg2.grid.coords t) = false :=
  (by decide +kernel : ∀ t : Fin grid2.N, t.val % 4 = 3 → idle2 4 (grid2.coords t) = false)
/-- and there its block is not written back. -/
theorem noFlush2_4 (t : Fin cfg2.N) (h : t.val % 4 ≠ 3) : (cfg2.win 4).flush t = false :=
  Bool.eq_false_iff.mpr fun hf => h ((flush2_4 t).mp hf)

/-! ## The body on whole staging buffers -/

/-- The zero offsets of the whole-buffer rectangles, as a constant function. -/
theorem zeroOff2 : (![0, 0] : Fin 2 → Nat) = fun _ => 0 := by
  funext a; match a with | ⟨0, _⟩ => rfl | ⟨1, _⟩ => rfl

set_option maxHeartbeats 2000000 in
/-- FIRST point of a run (k = 0): whatever the accumulator held, it ends at zero plus the product of the
    activation block x with the transposed weight block w; the two blocks are left as they were; the other three
    buffers are not touched. -/
theorem main_first (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : firstStep2 i) (hl : ¬ lastStep2 i)
    (x : Vec F S2048x1024 .bf16) (w : Vec F S1024x1024 .bf16) (K : PUnit → sProp 𝕄) :
    iprop(owns (c : Thread nD τ) arg3 fullShare x ∗ owns (c : Thread nD τ) arg4 fullShare w ∗ (∃ d, owns (c : Thread nD τ) arg8 fullShare d)
        ∗ (iprop(owns (c : Thread nD τ) arg3 fullShare x ∗ owns (c : Thread nD τ) arg4 fullShare w ∗ owns (c : Thread nD τ) arg8 fullShare (k2_pay2 k2_pay1 x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%d8, %f8, -, H8⟩, Hk⟩
  subst hf3; subst hf4
  sl_exec (disch := first | exact hf | exact hl)
  sl_step
  iapply Hk
  isplitl [H3]
  · iexists f3; isplitr; · ipureintro; rfl
    iexact H3
  isplitl [H4]
  · iexists f4; isplitr; · ipureintro; rfl
    iexact H4
  iexists _; isplitr
  swap; · iexact H8
  ipureintro
  sl_unfold_run_names
  rw [View.read_writes_eq_canon _ _ _ (fun y => ⟨_, List.Mem.head _, View.mem_set_unit_zero zeroOff2 inb_S2048x1024_S2048x1024_0_0 y⟩)]
  simp only [View.canon_cons_unit_zero (S := S2048x1024) zeroOff2, View.readCov_unit_zero (S := S2048x1024) _ zeroOff2, View.readAt_eq_ld, View.ld_unit_zero (S := S2048x1024) zeroOff2, View.ld_unit_zero (S := S1024x1024) zeroOff2]

set_option maxHeartbeats 2000000 in
/-- MIDDLE point of a run (k = 1, 2): the accumulator goes from s to s plus the product of x with the transposed w;
    the two blocks are left as they were; the other three buffers are not touched. -/
theorem main_middle (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : ¬ firstStep2 i) (hl : ¬ lastStep2 i)
    (x : Vec F S2048x1024 .bf16) (w : Vec F S1024x1024 .bf16) (s : Vec F S2048x1024 .f32) (K : PUnit → sProp 𝕄) :
    iprop(owns (c : Thread nD τ) arg3 fullShare x ∗ owns (c : Thread nD τ) arg4 fullShare w ∗ owns (c : Thread nD τ) arg8 fullShare s
        ∗ (iprop(owns (c : Thread nD τ) arg3 fullShare x ∗ owns (c : Thread nD τ) arg4 fullShare w ∗ owns (c : Thread nD τ) arg8 fullShare (k2_pay2 s x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%f8, %hf8, H8⟩, Hk⟩
  subst hf3; subst hf4
  obtain rfl := harg8.eq_unread hf8
  sl_exec (disch := first | exact hf | exact hl)
  sl_step
  iapply Hk
  isplitl [H3]
  · iexists f3; isplitr; · ipureintro; rfl
    iexact H3
  isplitl [H4]
  · iexists f4; isplitr; · ipureintro; rfl
    iexact H4
  iexists _; isplitr
  swap; · iexact H8
  ipureintro
  sl_unfold_run_names
  rw [View.read_writes_eq_canon _ _ _ (fun y => View.cover_of_tiled [⟨_, _⟩] S2048x1024.size (by rfl) y)]
  simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2]

set_option maxHeartbeats 2000000 in
/-- LAST point of a run (k = 3): the accumulator goes from s to s' = s plus the product of x with the transposed w,
    and the output's buffer, whatever it held, ends at s' plus twice the product of the inner block a with the
    transposed factor block b; the four input blocks are left as they were. -/
theorem main_last (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : ¬ firstStep2 i) (hl : lastStep2 i)
    (x : Vec F S2048x1024 .bf16) (w : Vec F S1024x1024 .bf16) (a : Vec F S2048x128 .bf16) (b : Vec F S1024x128 .bf16) (s : Vec F S2048x1024 .f32) (K : PUnit → sProp 𝕄) :
    iprop(owns (c : Thread nD τ) arg3 fullShare x ∗ owns (c : Thread nD τ) arg4 fullShare w ∗ owns (c : Thread nD τ) arg5 fullShare a ∗ owns (c : Thread nD τ) arg6 fullShare b
        ∗ (∃ d, owns (c : Thread nD τ) arg7 fullShare d) ∗ owns (c : Thread nD τ) arg8 fullShare s
        ∗ (iprop(owns (c : Thread nD τ) arg3 fullShare x ∗ owns (c : Thread nD τ) arg4 fullShare w ∗ owns (c : Thread nD τ) arg5 fullShare a ∗ owns (c : Thread nD τ) arg6 fullShare b
            ∗ owns (c : Thread nD τ) arg7 fullShare (k2_pay3 a b (k2_pay2 s x w)) ∗ owns (c : Thread nD τ) arg8 fullShare (k2_pay2 s x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6
  obtain rfl := harg8.eq_unread hf8
  sl_exec (disch := first | exact hf | exact hl)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (fun y => View.cover_of_tiled [⟨_, _⟩] S2048x1024.size (by rfl) y)]
    simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2, View.ld_unit_zero (S := S2048x128) zeroOff2, View.ld_unit_zero (S := S1024x128) zeroOff2]
  iexists _; isplitr
  swap; · iexact H8
  ipureintro
  sl_unfold_run_names
  rw [View.read_writes_eq_canon _ _ _ (fun y => View.cover_of_tiled [⟨_, _⟩] S2048x1024.size (by rfl) y)]
  simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2]

/-! ## The launch's proof data over the contents V at its start -/

section Launch
variable (V : (c : Dev nD) → (b : Ref sig .tc) → Buf (Elt F) ((c : Thread nD τ).loc b))

/-- Block t of window w's array, as the launch finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION.  The accumulator after point n: the sum, over the points of n's run of four up to n, of the
    products of the activation blocks with the transposed weight blocks, added in the order of the run onto zero —
    by recursion along the run: a point divisible by 4 starts from zero, any other from what the point before left. -/
def mainAcc (c : Dev nD) : (n : ℕ) → n < cfg2.N → Vec F S2048x1024 .f32
  | 0, h => k2_pay2 k2_pay1 (blk2 V c 0 ⟨0, h⟩) (blk2 V c 1 ⟨0, h⟩)
  | n + 1, h => k2_pay2 (if (n + 1) % 4 = 0 then k2_pay1 else mainAcc c n (Nat.lt_of_succ_lt h))
      (blk2 V c 0 ⟨n + 1, h⟩) (blk2 V c 1 ⟨n + 1, h⟩)

/-- At the first point of a run the accumulator is zero plus that point's product; -/
theorem mainAcc_first (c : Dev nD) (t : Fin cfg2.N) (h : t.val % 4 = 0) :
    mainAcc V c t.val t.isLt = k2_pay2 k2_pay1 (blk2 V c 0 t) (blk2 V c 1 t) := by
  obtain ⟨n, hn⟩ := t
  cases n with
  | zero => rfl
  | succ n =>
    have h' : (n + 1) % 4 = 0 := h
    show mainAcc V c (n + 1) hn = _
    rw [mainAcc, if_pos h']

/-- at any other point, what the point before left plus that point's product. -/
theorem mainAcc_later (c : Dev nD) (t : Fin cfg2.N) (h : t.val % 4 ≠ 0) :
    mainAcc V c t.val t.isLt
      = k2_pay2 (mainAcc V c (t.val - 1) (Nat.lt_of_le_of_lt (Nat.sub_le _ _) t.isLt)) (blk2 V c 0 t) (blk2 V c 1 t) := by
  obtain ⟨n, hn⟩ := t
  cases n with
  | zero => exact absurd (Nat.zero_mod 4) h
  | succ n =>
    have h' : ¬ (n + 1) % 4 = 0 := h
    show mainAcc V c (n + 1) hn = _
    rw [mainAcc, if_neg h']
    rfl

/-- The block emitted at point t (read at the last point of a run): the accumulator there plus twice the product of the
    run's inner block with its transposed factor block. -/
def mainOut (c : Dev nD) (t : Fin cfg2.N) : Vec F S2048x1024 .f32 :=
  k2_pay3 (blk2 V c 2 t) (blk2 V c 3 t) (mainAcc V c t.val t.isLt)

/-- The launch's invariant with the scratch buffer set apart: the accumulator's buffer at some contents, the core's
    other scoped buffers unopened, the generator register at some state. -/
theorem PhiA2_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [Idealize.SL.BI.bigSepL_singleton, owns_whole]; try rfl

/-- The invariant before point n: before the first point the launch's own (the accumulator's buffer at anything);
    afterwards the accumulator's buffer at what point n - 1 left in it, the rest as before. -/
def mainPhi (c : Dev nD) : (n : ℕ) → n ≤ cfg2.N → sProp 𝕄
  | 0, _ => Pipeline.ΦA spec2 c
  | n + 1, hn => iprop((owns (c : Thread nD τ) (Memref.whole cc2_scratch0) fullShare (mainAcc V c n hn)
      ∗ Pipeline.scopedRestBut (Ix := Unit) (Name := ℕ) (U := UR sig nD τ) (Lvl := ℕ) (Val := Elt F) spec2 c [cc2_scratch0])
      ∗ (∃ r, prngReg c r))

theorem mainPhi_zero (c : Dev nD) (n : ℕ) (h : n ≤ cfg2.N) (hz : n = 0) : mainPhi V c n h = Pipeline.ΦA spec2 c := by
  subst hz; rfl

theorem mainPhi_succ (c : Dev nD) (n : ℕ) (hn : n < cfg2.N) :
    mainPhi V c (n + 1) hn = iprop((owns (c : Thread nD τ) (Memref.whole cc2_scratch0) fullShare (mainAcc V c n hn)
      ∗ Pipeline.scopedRestBut (Ix := Unit) (Name := ℕ) (U := UR sig nD τ) (Lvl := ℕ) (Val := Elt F) spec2 c [cc2_scratch0])
      ∗ (∃ r, prngReg c r)) := rfl

theorem mainPhi_pos (c : Dev nD) (n : ℕ) (h : n ≤ cfg2.N) (hz : n ≠ 0) :
    mainPhi V c n h = iprop((owns (c : Thread nD τ) (Memref.whole cc2_scratch0) fullShare (mainAcc V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The proof data: the arrays as found; after the body at point t the four inputs' buffers at their blocks and the
    output's at mainOut (read where it is written back); the invariant carrying the accumulator; nothing owed. -/
def mainDat (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => mainOut V c t
  Φ t := mainPhi V c t.val (Nat.le_of_lt_succ t.isLt)
  q _ := fullShare
  owed _ := 0

theorem mainDat_A (c : Dev nD) (w : Fin cfg2.W) : (mainDat V c).A w = V c (Pipeline.arrRef spec2 w) := by
  dsimp only [mainDat]

theorem mainDat_after0 (c : Dev nD) (t : Fin cfg2.N) : (mainDat V c).after 0 t = blk2 V c 0 t := by dsimp only [mainDat]
theorem mainDat_after1 (c : Dev nD) (t : Fin cfg2.N) : (mainDat V c).after 1 t = blk2 V c 1 t := by dsimp only [mainDat]
theorem mainDat_after2 (c : Dev nD) (t : Fin cfg2.N) : (mainDat V c).after 2 t = blk2 V c 2 t := by dsimp only [mainDat]
theorem mainDat_after3 (c : Dev nD) (t : Fin cfg2.N) : (mainDat V c).after 3 t = blk2 V c 3 t := by dsimp only [mainDat]
theorem mainDat_after4 (c : Dev nD) (t : Fin cfg2.N) : (mainDat V c).after 4 t = mainOut V c t := by dsimp only [mainDat]

theorem mainDat_Phi_castSucc (c : Dev nD) (t : Fin cfg2.N) :
    (mainDat V c).Φ t.castSucc = mainPhi V c t.val (Nat.le_of_lt t.isLt) := by
  dsimp only [mainDat]; simp only [Fin.coe_castSucc]

/-- The body leaves every input block in place, so each input's buffer holds its block at every point, fetched there
    or not (a block not fetched at a point is the block of the point before: its index did not move): the
    activations', -/
theorem mainDat_before0 (c : Dev nD) (t : Fin cfg2.N) (d) : (mainDat V c).before 0 t d = blk2 V c 0 t :=
  ((mainDat V c).before_in_eq_fetched 0 rfl (fun _ => rfl) (fun _ _ _ => rfl)
    (fun t => by rw [mainDat_after0]; unfold Dat.blockOf blk2; rw [mainDat_A]; try rfl) t d).trans
    (by unfold Dat.fetched Dat.blockOf blk2; rw [mainDat_A]; try rfl)

/-- the weight's, -/
theorem mainDat_before1 (c : Dev nD) (t : Fin cfg2.N) (d) : (mainDat V c).before 1 t d = blk2 V c 1 t :=
  ((mainDat V c).before_in_eq_fetched 1 rfl (fun _ => rfl) (fun _ _ _ => rfl)
    (fun t => by rw [mainDat_after1]; unfold Dat.blockOf blk2; rw [mainDat_A]; try rfl) t d).trans
    (by unfold Dat.fetched Dat.blockOf blk2; rw [mainDat_A]; try rfl)

/-- the inner product's (fetched once per sixteen points), -/
theorem mainDat_before2 (c : Dev nD) (t : Fin cfg2.N) (d) : (mainDat V c).before 2 t d = blk2 V c 2 t :=
  ((mainDat V c).before_in_eq_fetched 2 rfl (fun _ => rfl) (fun _ _ _ => rfl)
    (fun t => by rw [mainDat_after2]; unfold Dat.blockOf blk2; rw [mainDat_A]; try rfl) t d).trans
    (by unfold Dat.fetched Dat.blockOf blk2; rw [mainDat_A]; try rfl)

/-- and the second factor's (fetched once per run of four). -/
theorem mainDat_before3 (c : Dev nD) (t : Fin cfg2.N) (d) : (mainDat V c).before 3 t d = blk2 V c 3 t :=
  ((mainDat V c).before_in_eq_fetched 3 rfl (fun _ => rfl) (fun _ _ _ => rfl)
    (fun t => by rw [mainDat_after3]; unfold Dat.blockOf blk2; rw [mainDat_A]; try rfl) t d).trans
    (by unfold Dat.fetched Dat.blockOf blk2; rw [mainDat_A]; try rfl)

/-- The body at point t, from what the pipeline hands it to what it hands back: the triple of the point's kind at the
    point's blocks, the accumulator taken from the invariant (at anything before the launch's first point, at what the
    point before left afterwards) and given back to it at this point's; the output's buffer handed back as found off the
    ends of the runs, at the emitted block there. -/
theorem main_point (c : Dev nD) (t : Fin cfg2.N) :
    iprop((mainDat V c).Φ t.castSucc ∗ (mainDat V c).owesAt () t.castSucc
      ∗ (∃ d, owns (c : Thread nD τ) (st2_0 t) fullShare ((mainDat V c).before 0 t d))
      ∗ (∃ d, owns (c : Thread nD τ) (st2_1 t) fullShare ((mainDat V c).before 1 t d))
      ∗ (∃ d, owns (c : Thread nD τ) (st2_2 t) fullShare ((mainDat V c).before 2 t d))
      ∗ (∃ d, owns (c : Thread nD τ) (st2_3 t) fullShare ((mainDat V c).before 3 t d))
      ∗ (∃ d, owns (c : Thread nD τ) (st2_4 t) fullShare ((mainDat V c).before 4 t d)))
    ⊢ wp frame (wpE (defs₀ (F := F)) Variants.none c none) Set.univ (bodyAt2 t) (fun _ =>
      iprop((mainDat V c).Φ t.succ ∗ (mainDat V c).owesAt () t.succ
        ∗ (mainDat V c).leavesExact 0 t
        ∗ (mainDat V c).leavesExact 1 t
        ∗ (mainDat V c).leavesExact 2 t
        ∗ (mainDat V c).leavesExact 3 t
        ∗ (mainDat V c).leavesExact 4 t)) := by
  unfold bodyAt2
  simp only [mainDat_before0, mainDat_before1, mainDat_before2, mainDat_before3]
  rw [show (mainDat V c).leavesExact 0 t = owns (c : Thread nD τ) (st2_0 t) fullShare ((mainDat V c).after 0 t) from by
      unfold Dat.leavesExact; rw [liveAt2_0 t], mainDat_after0,
    show (mainDat V c).leavesExact 1 t = owns (c : Thread nD τ) (st2_1 t) fullShare ((mainDat V c).after 1 t) from by
      unfold Dat.leavesExact; rw [liveAt2_1 t], mainDat_after1,
    show (mainDat V c).leavesExact 2 t = owns (c : Thread nD τ) (st2_2 t) fullShare ((mainDat V c).after 2 t) from by
      unfold Dat.leavesExact; rw [liveAt2_2 t], mainDat_after2,
    show (mainDat V c).leavesExact 3 t = owns (c : Thread nD τ) (st2_3 t) fullShare ((mainDat V c).after 3 t) from by
      unfold Dat.leavesExact; rw [liveAt2_3 t], mainDat_after3]
  rw [show (mainDat V c).owesAt () t.succ = (mainDat V c).owesAt () t.castSucc from rfl,
    show (mainDat V c).Φ t.succ = mainPhi V c (t.val + 1) t.isLt from rfl, mainPhi_succ, mainDat_Phi_castSucc]
  by_cases h0 : t.val % 4 = 0
  · -- first point of a run
    have hf : firstStep2 (grid2.coords t) := (firstStep2_iff t).mpr h0
    have hl : ¬ lastStep2 (grid2.coords t) := fun h => by have := (lastStep2_iff t).mp h; omega
    rw [Dat.leavesExact_idle (mainDat V c) 4 t (idleAt2_4 t (by omega)) (noFlush2_4 t (by omega))]
    rw [mainAcc_first V c t h0]
    by_cases hz : t.val = 0
    · rw [mainPhi_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply (main_first c Set.univ _ _ _ _ _ _ _ _ _ _ _ _ _ hf hl (blk2 V c 0 t) (blk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [mainPhi_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (main_first c Set.univ _ _ _ _ _ _ _ _ _ _ _ _ _ hf hl (blk2 V c 0 t) (blk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hf : ¬ firstStep2 (grid2.coords t) := fun h => h0 ((firstStep2_iff t).mp h)
    have hz : t.val ≠ 0 := fun h => h0 (by rw [h])
    rw [mainAcc_later V c t h0, mainPhi_pos V c _ _ hz]
    by_cases h3 : t.val % 4 = 3
    · -- last point of a run
      have hl : lastStep2 (grid2.coords t) := (lastStep2_iff t).mpr h3
      rw [show (mainDat V c).leavesExact 4 t = owns (c : Thread nD τ) (st2_4 t) fullShare ((mainDat V c).after 4 t) from by
          unfold Dat.leavesExact; rw [liveAt2_4 t h3], mainDat_after4]
      unfold mainOut
      rw [mainAcc_later V c t h0]
      iintro ⟨⟨⟨HS, HR⟩, Hg⟩, Ho, ⟨%d0, H0⟩, ⟨%d1, H1⟩, ⟨%d2, H2⟩, ⟨%d3, H3⟩, ⟨%d4, H4⟩⟩
      iapply (main_last c Set.univ _ _ _ _ _ _ _ _ _ _ _ _ _ hf hl (blk2 V c 0 t) (blk2 V c 1 t) (blk2 V c 2 t) (blk2 V c 3 t)
        (mainAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- middle point of a run
      have hl : ¬ lastStep2 (grid2.coords t) := fun h => h3 ((lastStep2_iff t).mp h)
      rw [Dat.leavesExact_idle (mainDat V c) 4 t (idleAt2_4 t h3) (noFlush2_4 t h3)]
      iintro ⟨⟨⟨HS, HR⟩, Hg⟩, Ho, ⟨%d0, H0⟩, ⟨%d1, H1⟩, ⟨%d2, H2⟩, ⟨%d3, H3⟩, ⟨%d4, H4⟩⟩
      iapply (main_middle c Set.univ _ _ _ _ _ _ _ _ _ _ _ _ _ hf hl (blk2 V c 0 t) (blk2 V c 1 t)
        (mainAcc V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The pipeline's obligation on the body, at every point. -/
theorem main_obligation (c : Dev nD) : BodyObligation (mainDat (F := F) V c) (defs₀ (F := F)) Variants.none () Set.univ := fun t => by
  rw [bigSep_W2, bigSep_W2]
  exact main_point V c t

/-- What the launch hands the body is the invariant before the first point. -/
theorem main_hin (c : Dev nD) : Pipeline.ΦA spec2 c ⊢ (mainDat V c).Φ 0 := by
  rw [show (mainDat V c).Φ 0 = mainPhi V c 0 (Nat.zero_le _) from rfl, mainPhi_zero V c 0 _ rfl]

/-- After the last point the invariant gives the launch's own back: what the accumulator holds is forgotten. -/
theorem main_hout (c : Dev nD) : (mainDat V c).Φ (Fin.last cfg2.N) ⊢ Pipeline.ΦA spec2 c := by
  rw [show (mainDat V c).Φ (Fin.last cfg2.N) = mainPhi V c (Fin.last cfg2.N).val (Nat.le_of_lt_succ (Fin.last cfg2.N).isLt) from rfl,
    mainPhi_pos V c _ _ (by rw [Fin.val_last]; have : cfg2.N = 64 := N_2; omega), PhiA2_eq]
  iintro ⟨⟨HS, HR⟩, Hg⟩
  isplitl [HS HR]
  · isplitl [HS]; · iexists _; iexact HS
    iexact HR
  iexact Hg

end Launch

end Cert.Kernel.Hand

end
-- ==== Proof.KB.Run.lean ====
/-
  The whole idealized kernel program as one run.

  @main is nine items in a row: five stretches of host operations (a reshape of x, the two changes of float
  format, the two zero-paddings of the low-rank factors, the reshape of the scales), the three kernel launches, and
  the final reshape of the result.  This module follows the contents of the device's unscoped buffers through the
  nine items — after a host stretch they are the stretch's operations applied; after a launch the launch's arrays
  hold what its pipeline leaves (the inputs as found, each output the write-backs of its blocks) and every other
  buffer is as found — and concludes, by the library's launch theorem for a program of several kernel regions, that
  every weakly fair execution terminates with EVERY unscoped buffer at the last of these contents.  Read at the
  result and at the five arguments this is the kernel half of the certificate's claims.
-/
import proofs.«406961_j15015205667342_3_alg».proof.Proof.Gen.Kernel.Launch
import proofs.«406961_j15015205667342_3_alg».proof.Proof.Gen.Kernel.Skeleton
import proofs.«406961_j15015205667342_3_alg».proof.Proof.Gen.Kernel.Points
import proofs.«406961_j15015205667342_3_alg».proof.Proof.Gen.Kernel.Regions
import proofs.«406961_j15015205667342_3_alg».proof.Proof.KB.Deq
import proofs.«406961_j15015205667342_3_alg».proof.Proof.KB.Inner
import proofs.«406961_j15015205667342_3_alg».proof.Proof.KB.MainK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items

Gen.V0 … Gen.V5 (the generated conditional frame's names) are the contents at launch and after each of the five
host stretches; from there on: -/

/-- The contents when launch 0 starts, read at the TensorCore's references. -/
abbrev at5 : (c : Dev nD) → (b : Ref sig .tc) → Buf (Elt F) ((c : Thread nD τ).loc b) := fun c b => V5 m c b

/-- After launch 0: its arrays at what its pipeline leaves, the rest as found. -/
def after6 (c : Dev nD) : Valuation τ sig (Elt F) :=
  Pipeline.withArrays spec0 c (V5 m c) fun w => (deqDat (at5 m) c).arrAt w cfg0.N
theorem after6_arr (c : Dev nD) (w : Fin cfg0.W) :
    after6 m c (Proc.devRef .tc (Pipeline.arrRef spec0 w)) = (deqDat (at5 m) c).arrAt w cfg0.N := by
  unfold after6; exact Pipeline.withArrays_arr spec0 launch0.win.arr_inj c _ _ w
theorem after6_of_ne (c : Dev nD) (b : Ref sig .tc) (hb : ∀ w, Pipeline.arrRef spec0 w ≠ b) :
    after6 m c (Proc.devRef .tc b) = V5 m c (Proc.devRef .tc b) := by
  unfold after6; exact Pipeline.withArrays_of_ne spec0 c _ _ b hb
abbrev at6 : (c : Dev nD) → (b : Ref sig .tc) → Buf (Elt F) ((c : Thread nD τ).loc b) := fun c b => after6 m c b

/-- After launch 1. -/
def after7 (c : Dev nD) : Valuation τ sig (Elt F) :=
  Pipeline.withArrays spec1 c (after6 m c) fun w => (innerDat (at6 m) c).arrAt w cfg1.N
theorem after7_arr (c : Dev nD) (w : Fin cfg1.W) :
    after7 m c (Proc.devRef .tc (Pipeline.arrRef spec1 w)) = (innerDat (at6 m) c).arrAt w cfg1.N := by
  unfold after7; exact Pipeline.withArrays_arr spec1 launch1.win.arr_inj c _ _ w
theorem after7_of_ne (c : Dev nD) (b : Ref sig .tc) (hb : ∀ w, Pipeline.arrRef spec1 w ≠ b) :
    after7 m c (Proc.devRef .tc b) = after6 m c (Proc.devRef .tc b) := by
  unfold after7; exact Pipeline.withArrays_of_ne spec1 c _ _ b hb
abbrev at7 : (c : Dev nD) → (b : Ref sig .tc) → Buf (Elt F) ((c : Thread nD τ).loc b) := fun c b => after7 m c b

/-- After launch 2. -/
def after8 (c : Dev nD) : Valuation τ sig (Elt F) :=
  Pipeline.withArrays spec2 c (after7 m c) fun w => (mainDat (at7 m) c).arrAt w cfg2.N
theorem after8_arr (c : Dev nD) (w : Fin cfg2.W) :
    after8 m c (Proc.devRef .tc (Pipeline.arrRef spec2 w)) = (mainDat (at7 m) c).arrAt w cfg2.N := by
  unfold after8; exact Pipeline.withArrays_arr spec2 launch2.win.arr_inj c _ _ w
theorem after8_of_ne (c : Dev nD) (b : Ref sig .tc) (hb : ∀ w, Pipeline.arrRef spec2 w ≠ b) :
    after8 m c (Proc.devRef .tc b) = after7 m c (Proc.devRef .tc b) := by
  unfold after8; exact Pipeline.withArrays_of_ne spec2 c _ _ b hb
abbrev at8 : (c : Dev nD) → (b : Ref sig .tc) → Buf (Elt F) ((c : Thread nD τ).loc b) := fun c b => after8 m c b

/-- After the final reshape: the end of @main. -/
abbrev after9 (c : Dev nD) : Valuation τ sig (Elt F) := StableHlo.after hostOps3 (after8 m c)

/-- What each launch leaves in its arrays, and that it leaves every other buffer alone: the two facts that put a
    launch's arrays back among the unscoped buffers. -/
theorem left0 (c : Dev nD) (w : Fin cfg0.W) : (deqDat (at5 m) c).arrAt w cfg0.N = at6 m c (Pipeline.arrRef spec0 w) := (after6_arr m c w).symm
theorem kept0 (c : Dev nD) : ∀ b, b ∉ Finset.univ.image (Pipeline.arrRef spec0) → at6 m c b = at5 m c b :=
  fun b hb => after6_of_ne m c b fun w e => hb (Finset.mem_image.mpr ⟨w, Finset.mem_univ _, e⟩)
theorem left1 (c : Dev nD) (w : Fin cfg1.W) : (innerDat (at6 m) c).arrAt w cfg1.N = at7 m c (Pipeline.arrRef spec1 w) := (after7_arr m c w).symm
theorem kept1 (c : Dev nD) : ∀ b, b ∉ Finset.univ.image (Pipeline.arrRef spec1) → at7 m c b = at6 m c b :=
  fun b hb => after7_of_ne m c b fun w e => hb (Finset.mem_image.mpr ⟨w, Finset.mem_univ _, e⟩)
theorem left2 (c : Dev nD) (w : Fin cfg2.W) : (mainDat (at7 m) c).arrAt w cfg2.N = at8 m c (Pipeline.arrRef spec2 w) := (after8_arr m c w).symm
theorem kept2 (c : Dev nD) : ∀ b, b ∉ Finset.univ.image (Pipeline.arrRef spec2) → at8 m c b = at7 m c b :=
  fun b hb => after8_of_ne m c b fun w e => hb (Finset.mem_image.mpr ⟨w, Finset.mem_univ _, e⟩)

/-! ## The arguments end as launched

No host operation writes an argument; launch 0 reads the codes through an input window, which the pipeline leaves as
found; every other launch bypasses the arguments. -/

theorem after9_main_arg0 (c : Dev nD) : after9 m c (Proc.devRef .tc main_arg0) = m ((c : Thread nD τ).loc main_arg0) :=
  calc after9 m c (Proc.devRef .tc main_arg0)
    _ = after8 m c (Proc.devRef .tc main_arg0) := StableHlo.after_of_writes_sub hostOps3 _ hostOps3_writes (by decide)
    _ = after7 m c (Proc.devRef .tc main_arg0) := after8_of_ne m c main_arg0 (by decide)
    _ = after6 m c (Proc.devRef .tc main_arg0) := after7_of_ne m c main_arg0 (by decide)
    _ = V5 m c (Proc.devRef .tc main_arg0) := after6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem after9_main_arg1 (c : Dev nD) : after9 m c (Proc.devRef .tc main_arg1) = m ((c : Thread nD τ).loc main_arg1) :=
  calc after9 m c (Proc.devRef .tc main_arg1)
    _ = after8 m c (Proc.devRef .tc main_arg1) := StableHlo.after_of_writes_sub hostOps3 _ hostOps3_writes (by decide)
    _ = after7 m c (Proc.devRef .tc main_arg1) := after8_of_ne m c main_arg1 (by decide)
    _ = after6 m c (Proc.devRef .tc main_arg1) := after7_of_ne m c main_arg1 (by decide)
    _ = V5 m c (Proc.devRef .tc main_arg1) := after6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem after9_main_arg2 (c : Dev nD) : after9 m c (Proc.devRef .tc main_arg2) = m ((c : Thread nD τ).loc main_arg2) :=
  calc after9 m c (Proc.devRef .tc main_arg2)
    _ = after8 m c (Proc.devRef .tc main_arg2) := StableHlo.after_of_writes_sub hostOps3 _ hostOps3_writes (by decide)
    _ = after7 m c (Proc.devRef .tc main_arg2) := after8_of_ne m c main_arg2 (by decide)
    _ = after6 m c (Proc.devRef .tc main_arg2) := after7_of_ne m c main_arg2 (by decide)
    _ = V5 m c (Proc.devRef .tc main_arg2) := after6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem after9_main_arg3 (c : Dev nD) : after9 m c (Proc.devRef .tc main_arg3) = m ((c : Thread nD τ).loc main_arg3) :=
  calc after9 m c (Proc.devRef .tc main_arg3)
    _ = after8 m c (Proc.devRef .tc main_arg3) := StableHlo.after_of_writes_sub hostOps3 _ hostOps3_writes (by decide)
    _ = after7 m c (Proc.devRef .tc main_arg3) := after8_of_ne m c main_arg3 (by decide)
    _ = after6 m c (Proc.devRef .tc main_arg3) := after7_of_ne m c main_arg3 (by decide)
    _ = V5 m c (Proc.devRef .tc main_arg3) := after6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

theorem after9_main_arg4 (c : Dev nD) : after9 m c (Proc.devRef .tc main_arg4) = m ((c : Thread nD τ).loc main_arg4) :=
  calc after9 m c (Proc.devRef .tc main_arg4)
    _ = after8 m c (Proc.devRef .tc main_arg4) := StableHlo.after_of_writes_sub hostOps3 _ hostOps3_writes (by decide)
    _ = after7 m c (Proc.devRef .tc main_arg4) := after8_of_ne m c main_arg4 (by decide)
    _ = after6 m c (Proc.devRef .tc main_arg4) := after7_of_ne m c main_arg4 (by decide)
    _ = V5 m c (Proc.devRef .tc main_arg4) := (after6_arr m c 0).trans (((deqDat (at5 m) c).arrAt_in 0 rfl _).trans (deqDat_A (at5 m) c 0))
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl

/-! ## The proof data family and what rides along -/

/-- Every launch's proof data, each over the contents its launch starts from: a literal match, so that the library's
    configuration at a numeral reduces to the printed one. -/
def pdats : (p : Fin 3) → (c : Dev nD) → Dat τ (Elt F) Unit ℕ (UR sig nD τ) ℕ (Pipeline.pin (pcfgs (F := F)) adm p) c
  | ⟨0, _⟩ => fun c => deqDat (at5 m) c
  | ⟨1, _⟩ => fun c => innerDat (at6 m) c
  | ⟨2, _⟩ => fun c => mainDat (at7 m) c

/-- No core owes another anything: no pair is recorded and no level assigned. -/
abbrev noPairs : GSem nD τ sig → Finset Unit := fun _ => ∅
abbrev noLevel : GSem nD τ sig → Unit → ℕ := fun _ _ => 0

/-- Beside the buffers every segment carries the generator register at some state and the core owing nothing. -/
abbrev riding (c : Dev nD) : sProp 𝕄 :=
  iprop((∃ r, prngReg c r) ∗ ∃ W, owes (c : Thread nD τ) (0 : CellTallies nD τ sig Unit) W)

/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The class invariant of launch 0 handed back: the register, no semaphore of the kernel's own, the scoped rest. -/
theorem giveBack0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The class invariant of launch 1 handed back: the register, no semaphore of the kernel's own, the scoped rest. -/
theorem giveBack1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The class invariant of launch 2 handed back: the register, no semaphore of the kernel's own, the scoped rest. -/
theorem giveBack2 (c : Dev nD) : (Pipeline.ΦA spec2 c : sProp 𝕄)
    ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-- At the end of @main what rides along splits into the register, kept beside the buffers, and the core owing nothing. -/
theorem riding_end (c : Dev nD) (H : sProp 𝕄) :
    iprop(H ∗ riding (F := F) c) ⊢ iprop(iprop(H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

/-! ## The launches as segments -/

-- unification with the pinned configuration may unfold plain definitions in a metavariable's type
set_option backward.isDefEq.respectTransparency.types false in
/-- Launch 0 as a segment of @main: entered with every unscoped buffer at V5, left with them at after6.
    Its arrays are taken out of the unscoped buffers on entry and put back at what the pipeline leaves on exit;
    the generator register goes into the launch's invariant and comes back; nothing is owed; the kernel has no
    semaphore of its own. -/
def seg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (deq_obligation (at5 m) c).loose
  hwaits := Pipeline.hwaits_of_owed_zero _ _ _ _ noPairs noLevel 0 fun _ _ => rfl
  pre c := iprop(StableHlo.held (c : Thread nD τ) (Pipeline.ucRefs τ sig) (V5 m c) ∗ riding c)
  post c := iprop(StableHlo.held (c : Thread nD τ) (Pipeline.ucRefs τ sig) (after6 m c) ∗ riding c)
  X c := iprop(∃ r, prngReg c r)
  Y c := iprop(∃ r, prngReg c r)
  Z c := Pipeline.unscopedRest (Ix := Unit) (Name := ℕ) (U := UR sig nD τ) (Lvl := ℕ) spec0 c (at5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    exact giveBack0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at5 m c) (at6 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Launch 1 as a segment of @main: entered with every unscoped buffer at after6, left with them at after7.
    Its arrays are taken out of the unscoped buffers on entry and put back at what the pipeline leaves on exit;
    the generator register goes into the launch's invariant and comes back; nothing is owed; the kernel has no
    semaphore of its own. -/
def seg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (inner_obligation (at6 m) c).loose
  hwaits := Pipeline.hwaits_of_owed_zero _ _ _ _ noPairs noLevel 1 fun _ _ => rfl
  pre c := iprop(StableHlo.held (c : Thread nD τ) (Pipeline.ucRefs τ sig) (after6 m c) ∗ riding c)
  post c := iprop(StableHlo.held (c : Thread nD τ) (Pipeline.ucRefs τ sig) (after7 m c) ∗ riding c)
  X c := iprop(∃ r, prngReg c r)
  Y c := iprop(∃ r, prngReg c r)
  Z c := Pipeline.unscopedRest (Ix := Unit) (Name := ℕ) (U := UR sig nD τ) (Lvl := ℕ) spec1 c (at6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (inner_hout (at6 m) c).trans (giveBack1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at6 m c) (at7 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Launch 2 as a segment of @main: entered with every unscoped buffer at after7, left with them at after8.
    Its arrays are taken out of the unscoped buffers on entry and put back at what the pipeline leaves on exit;
    the generator register goes into the launch's invariant and comes back; nothing is owed; the kernel has no
    semaphore of its own. -/
def seg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (main_obligation (at7 m) c).loose
  hwaits := Pipeline.hwaits_of_owed_zero _ _ _ _ noPairs noLevel 2 fun _ _ => rfl
  pre c := iprop(StableHlo.held (c : Thread nD τ) (Pipeline.ucRefs τ sig) (after7 m c) ∗ riding c)
  post c := iprop(StableHlo.held (c : Thread nD τ) (Pipeline.ucRefs τ sig) (after8 m c) ∗ riding c)
  X c := iprop(∃ r, prngReg c r)
  Y c := iprop(∃ r, prngReg c r)
  Z c := Pipeline.unscopedRest (Ix := Unit) (Name := ℕ) (U := UR sig nD τ) (Lvl := ℕ) spec2 c (at7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (main_hout (at7 m) c).trans (giveBack2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at7 m c) (at8 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ Variants.none noPairs noLevel) :=
  [ .host (hostSeg hostOps0 hostOps0_sub hostOps0_fresh (V0 m)),
    .host (hostSeg hostOps0_1 hostOps0_1_sub hostOps0_1_fresh (V1 m)),
    .host (hostSeg hostOps0_2 hostOps0_2_sub hostOps0_2_fresh (V2 m)),
    .host (hostSeg hostOps0_3 hostOps0_3_sub hostOps0_3_fresh (V3 m)),
    .host (hostSeg hostOps0_4 hostOps0_4_sub hostOps0_4_fresh (V4 m)),
    .region (seg0 m),
    .region (seg1 m),
    .region (seg2 m),
    .host (hostSeg hostOps3 hostOps3_sub hostOps3_fresh (after8 m)) ]

theorem main_is_segs (c : Dev nD) : main (F := F) c = Pipeline.Seg.run (segs m) := (main_chain c).trans (by chain_rfl)

set_option backward.isDefEq.respectTransparency.types false in
/-- THE RUN. From any memory with all counters zero, every weakly fair execution of @main terminates without a
    fault, and in every final state the result buffer holds the last contents named above and the five argument
    buffers hold what they were launched with. -/
theorem run_all : θ_run defs (onTc (τ := τ) (main (F := F))) ⟨m, fun _ => 0, ρ⟩ (fun r => ∀ c : Dev nD,
      r.2.mem ((c.tc : Thread nD τ).loc main_v9) = after9 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ Variants.none noPairs noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c))
    (Tₙ := fun c => iprop(StableHlo.held (c : Thread nD τ) (Pipeline.ucRefs τ sig) (after9 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => riding_end c _⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = after9 m c b)
    (hfin := fun c s' => by
      iintro ⟨⟨Hh, -⟩, HSI⟩
      unfold StableHlo.held
      imodintro
      iapply (pointsTo_read_all (Pipeline.ucRefs τ sig) (fun b => (((c : Thread nD τ)).1, b)) (after9 m c) s')
      isplitl [Hh] <;> iassumption)
    (hQ := fun s h c =>
      ⟨h c _ (mem_uc main_v9 (by decide)),
       (h c _ (mem_uc main_arg0 (by decide))).trans (after9_main_arg0 m c),
       (h c _ (mem_uc main_arg1 (by decide))).trans (after9_main_arg1 m c),
       (h c _ (mem_uc main_arg2 (by decide))).trans (after9_main_arg2 m c),
       (h c _ (mem_uc main_arg3 (by decide))).trans (after9_main_arg3 m c),
       (h c _ (mem_uc main_arg4 (by decide))).trans (after9_main_arg4 m c)⟩)

end Cert.Kernel.Hand

end
-- ==== Proof.KI.Deq.lean ====
/-
  The first of the program's three kernel launches: the weight matrix is rebuilt from its four-bit codes.

  The launch walks the 4096 x 4096 code matrix in 32 bands of 128 rows.  At band t the body reads the band's
  128 x 4096 codes and the band's 128 x 64 scales (one scale per run of 64 consecutive entries of a row),
  looks every code up in the sixteen-level table through a four-deep tree of selections on the code's low four
  bits, multiplies by the scale of the entry's run, and stores the 128 x 4096 band of the weight.  Nothing is
  carried from one band to the next: what a band writes is a function of that band's two input blocks alone.

  This module states that function (deq), proves that the body computes it on any whole staging buffers
  (deq_body), and packages the launch's proof data over arbitrary contents V of the device's buffers at the
  moment the launch starts: every input buffer holds its block of V, the output buffer ends at deq of them.
-/
import proofs.«406961_j15015205667342_3_alg».proof.Proof.Gen.KernelIdeal.Launch
import proofs.«406961_j15015205667342_3_alg».proof.Proof.Gen.KernelIdeal.Skeleton
import proofs.«406961_j15015205667342_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body on whole staging buffers -/

/-- The whole 128 x 4096 band, as the rectangle the body loads the codes through and stores the weight through. -/
abbrev rBand : Rect S128x4096 := Rect.unit (s := S128x4096) ![0, 0] S128x4096.size inb_S128x4096_S128x4096_0_0
/-- The whole 128 x 64 block of scales. -/
abbrev rScale : Rect S128x64 := Rect.unit (s := S128x64) ![0, 0] S128x64.size inb_S128x64_S128x64_0_0

/-- The band of the weight the body stores, from the band's codes and scales: the table lookup by bit tests
    (the selection tree's four levels are the generated payload terms) times the scales spread over their runs. -/
def deq (codes : Vec F S128x4096 .i32) (am : Vec F S128x64 .f32) : Vec F S128x4096 .bf16 :=
  View.canon [⟨rBand, k0_pay1 (k0_pay2 (View.ld am rScale)) (k0_pay3 (View.ld codes rBand)) (k0_pay4 (View.ld codes rBand))
    (k0_pay5 (View.ld codes rBand)) (k0_pay6 (View.ld codes rBand)) (k0_pay7 (View.ld codes rBand))
    (k0_pay8 (View.ld codes rBand)) (k0_pay9 (View.ld codes rBand))⟩]

/-- The one store covers the whole band. -/
theorem deq_cover (p0 : Vec F S128x4096 .bf16) (y : S128x4096.Idx) :
    ∃ pc ∈ ([⟨rBand, p0⟩] : List (View.Piece (Elt F) S128x4096 .bf16)), y ∈ pc.1.set :=
  View.cover_of_tiled [⟨rBand, p0⟩] S128x4096.size (by rfl) y

set_option maxHeartbeats 1000000 in
/-- On whole staging buffers holding the band's codes and scales, and any contents in the output buffer, the body
    runs to its end, leaves the two inputs as they were and the output at deq of them. -/
theorem deq_body (c : Dev nD) (E : Set ℕ) (i : grid0.Coords) (arg1 : Memref sig .tc .vmem S128x4096 .i32) (harg1 : arg1.IsWhole)
    (arg2 : Memref sig .tc .vmem S128x64 .f32) (harg2 : arg2.IsWhole) (arg3 : Memref sig .tc .vmem S128x4096 .bf16) (harg3 : arg3.IsWhole)
    (x0 : Vec F S128x4096 .i32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (deq x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (deq_cover _)

/-! ## The launch's proof data over the contents V at its start -/

section Launch
variable (V : (c : Dev nD) → (b : Ref sig .tc) → Buf (Elt F) ((c : Thread nD τ).loc b))

/-- Band t of window w's array, as the launch finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body at band t the two inputs' buffers at their bands and the
    output's at deq of them; no kernel-owned state beyond the untouched scoped buffers; nothing owed. -/
def deqDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => deq (blk0 V c 0 t) (blk0 V c 1 t)
  Φ _ := Pipeline.ΦA spec0 c
  q _ := fullShare
  owed _ := 0

theorem deqDat_A (c : Dev nD) (w : Fin cfg0.W) : (deqDat V c).A w = V c (Pipeline.arrRef spec0 w) := by
  dsimp only [deqDat]

theorem deqDat_after0 (c : Dev nD) (t : Fin cfg0.N) : (deqDat V c).after 0 t = blk0 V c 0 t := by dsimp only [deqDat]
theorem deqDat_after1 (c : Dev nD) (t : Fin cfg0.N) : (deqDat V c).after 1 t = blk0 V c 1 t := by dsimp only [deqDat]
theorem deqDat_after2 (c : Dev nD) (t : Fin cfg0.N) : (deqDat V c).after 2 t = deq (blk0 V c 0 t) (blk0 V c 1 t) := by
  dsimp only [deqDat]

/-- Every band is fetched anew, so before the body the codes' buffer holds band t of the codes, -/
theorem deqDat_before0 (c : Dev nD) (t : Fin cfg0.N) (d) : (deqDat V c).before 0 t d = blk0 V c 0 t :=
  ((deqDat V c).before_in_eq_fetched 0 rfl (fun _ => rfl) (fun _ _ _ => rfl)
    (fun t => by rw [deqDat_after0]; unfold Dat.blockOf blk0; rw [deqDat_A]; try rfl) t d).trans
    (by unfold Dat.fetched Dat.blockOf blk0; rw [deqDat_A]; try rfl)

/-- and the scales' buffer band t of the scales. -/
theorem deqDat_before1 (c : Dev nD) (t : Fin cfg0.N) (d) : (deqDat V c).before 1 t d = blk0 V c 1 t :=
  ((deqDat V c).before_in_eq_fetched 1 rfl (fun _ => rfl) (fun _ _ _ => rfl)
    (fun t => by rw [deqDat_after1]; unfold Dat.blockOf blk0; rw [deqDat_A]; try rfl) t d).trans
    (by unfold Dat.fetched Dat.blockOf blk0; rw [deqDat_A]; try rfl)

/-- The body at band t, from what the pipeline hands it to what it hands back: deq_body at the band's blocks. -/
theorem deq_point (c : Dev nD) (t : Fin cfg0.N) :
    iprop((deqDat V c).Φ t.castSucc ∗ (deqDat V c).owesAt () t.castSucc
      ∗ (∃ d, owns (c : Thread nD τ) (st0_0 t) fullShare ((deqDat V c).before 0 t d))
      ∗ (∃ d, owns (c : Thread nD τ) (st0_1 t) fullShare ((deqDat V c).before 1 t d))
      ∗ (∃ d, owns (c : Thread nD τ) (st0_2 t) fullShare ((deqDat V c).before 2 t d)))
    ⊢ wp frame (wpE (defs₀ (F := F)) Variants.none c none) Set.univ (bodyAt0 t) (fun _ =>
      iprop((deqDat V c).Φ t.succ ∗ (deqDat V c).owesAt () t.succ
        ∗ owns (c : Thread nD τ) (st0_0 t) fullShare ((deqDat V c).after 0 t)
        ∗ owns (c : Thread nD τ) (st0_1 t) fullShare ((deqDat V c).after 1 t)
        ∗ owns (c : Thread nD τ) (st0_2 t) fullShare ((deqDat V c).after 2 t))) := by
  unfold bodyAt0
  simp only [deqDat_before0, deqDat_before1]
  rw [show (deqDat V c).Φ t.succ = (deqDat V c).Φ t.castSucc from rfl,
    show (deqDat V c).owesAt () t.succ = (deqDat V c).owesAt () t.castSucc from rfl,
    deqDat_after0, deqDat_after1, deqDat_after2]
  iintro ⟨HΦ, Ho, ⟨%d0, H0⟩, ⟨%d1, H1⟩, ⟨%d2, H2⟩⟩
  iapply (deq_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every band. -/
theorem deq_obligation (c : Dev nD) : BodyObligation (deqDat (F := F) V c) (defs₀ (F := F)) Variants.none () Set.univ := fun t => by
  rw [bigSep_W0, bigSep_W0]
  exact deq_point V c t

end Launch

end Cert.KernelIdeal.Hand

end
-- ==== Proof.KI.Inner.lean ====
/-
  The second kernel launch: the low-rank projection  x · Aᵀ  (the rank padded to 128 columns), accumulated
  over the 4096-long contraction in four steps of 1024, and beside it the copy of x the third launch reads.

  The grid is 8 row blocks by 4 contraction steps, point t = 4·i + k.  At every point the body copies its
  1024 x 1024 block of x (the change of float format is the body's only operation there) into the second output,
  and adds the block's product with the matching 128 x 1024 block of the padded A into a 1024 x 128 accumulator
  that lives in a scratch buffer of the launch: at the first step of a row block (k = 0) the accumulator is first
  reset to zero, at the later steps it is what the step before left.  After every step the accumulator is
  copied to the first output; only the copy made at the row block's last step is written back.

  So, unlike the first launch, what a point leaves depends on the point before it.  This module states the two
  body steps (inner_first, inner_later) on whole staging buffers, names the accumulator after every point by
  recursion over the points (innerAcc), and packages the proof data: the launch's invariant holds the scratch
  buffer at innerAcc of the point just done (nothing is known of it before the first point, and its contents are
  forgotten again when the launch ends).
-/
import proofs.«406961_j15015205667342_3_alg».proof.Proof.Gen.KernelIdeal.Launch
import proofs.«406961_j15015205667342_3_alg».proof.Proof.Gen.KernelIdeal.Skeleton
import proofs.«406961_j15015205667342_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«406961_j15015205667342_3_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets of a whole-buffer rectangle are zero. -/
theorem zero2 : (![0, 0] : Fin 2 → Nat) = fun _ => 0 := by
  funext a; match a with | ⟨0, _⟩ => rfl | ⟨1, _⟩ => rfl

/-! ## The step's position in its row block -/

/-- The body's test "this is the first contraction step" (its second grid coordinate is 0), as printed. -/
abbrev firstStep1 (i : grid1.Coords) : Prop :=
  (Scalar.cmpi .ne (Scalar.extui (Scalar.cmpi .eq (BitVec.ofNat 32 (i 1).val) 0#32)) 0#32) = 1#1

/-- It holds exactly at the points 0, 4, 8, …. -/
theorem firstStep1_iff : ∀ t : Fin cfg1.N, firstStep1 (grid1.coords t) ↔ t.val % 4 = 0 :=
  (by decide +kernel : ∀ t : Fin grid1.N, firstStep1 (grid1.coords t) ↔ t.val % 4 = 0)

/-! ## The body on whole staging buffers -/

set_option maxHeartbeats 2000000 in
/-- A first step: whatever the scratch held, it ends at the product alone added to zeros
    (k1_pay3 x k1_pay2 a), the first output at its copy, the second output at the copy of x. -/
theorem inner_first (c : Dev nD) (E : Set ℕ) (i : grid1.Coords) (arg2 : Memref sig .tc .vmem S1024x1024 .f32) (harg2 : arg2.IsWhole)
    (arg3 : Memref sig .tc .vmem S128x1024 .bf16) (harg3 : arg3.IsWhole) (arg4 : Memref sig .tc .vmem S1024x128 .bf16) (harg4 : arg4.IsWhole)
    (arg5 : Memref sig .tc .vmem S1024x1024 .bf16) (harg5 : arg5.IsWhole) (arg6 : Memref sig .tc .vmem S1024x128 .f32) (harg6 : arg6.IsWhole)
    (hc : firstStep1 i) (x : Vec F S1024x1024 .f32) (a : Vec F S128x1024 .bf16) (K : PUnit → sProp 𝕄) :
    iprop(owns (c : Thread nD τ) arg2 fullShare x ∗ owns (c : Thread nD τ) arg3 fullShare a ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare a
            ∗ owns (c : Thread nD τ) arg4 fullShare (k1_pay4 (k1_pay3 x (k1_pay2 (F := F)) a))
            ∗ owns (c : Thread nD τ) arg5 fullShare (k1_pay1 x)
            ∗ owns (c : Thread nD τ) arg6 fullShare (k1_pay3 x (k1_pay2 (F := F)) a)) -∗ K ⟨⟩))
      ⊢ wp frame (wpE (defs₀ (F := F)) Variants.none c none) E (cc1__inner_kernel i arg2 harg2 arg3 harg3 arg4 harg4 arg5 harg5 arg6 harg6) K := by
  simp only [cc1__inner_kernel_eq_skeleton]; unfold cc1__inner_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2; subst hf3
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [View.read_writes_cons_unit_zero (S := S1024x128) _ _ zero2, View.readCov_cons_unit_zero (S := S1024x128) _ zero2,
      View.readAt_eq_ld, View.ld_unit_zero (S := S1024x128) zero2, View.ld_unit_zero (S := S1024x1024) zero2,
      View.ld_unit_zero (S := S128x1024) zero2]
  isplitl [H5]
  · iexists _; isplitr
    swap; · iexact H5
    ipureintro
    simp only [View.read_writes_cons_unit_zero (S := S1024x1024) _ _ zero2, View.readAt_eq_ld, View.ld_unit_zero (S := S1024x1024) zero2]
  iexists _; isplitr
  swap; · iexact H6
  ipureintro
  sl_unfold_run_names
  simp only [View.read_writes_cons_unit_zero (S := S1024x128) _ _ zero2, View.readCov_cons_unit_zero (S := S1024x128) _ zero2,
    View.readAt_eq_ld, View.ld_unit_zero (S := S1024x128) zero2, View.ld_unit_zero (S := S1024x1024) zero2,
    View.ld_unit_zero (S := S128x1024) zero2]

set_option maxHeartbeats 2000000 in
/-- A later step: from the scratch at s it ends at s plus the product (k1_pay3 x s a), the outputs as above. -/
theorem inner_later (c : Dev nD) (E : Set ℕ) (i : grid1.Coords) (arg2 : Memref sig .tc .vmem S1024x1024 .f32) (harg2 : arg2.IsWhole)
    (arg3 : Memref sig .tc .vmem S128x1024 .bf16) (harg3 : arg3.IsWhole) (arg4 : Memref sig .tc .vmem S1024x128 .bf16) (harg4 : arg4.IsWhole)
    (arg5 : Memref sig .tc .vmem S1024x1024 .bf16) (harg5 : arg5.IsWhole) (arg6 : Memref sig .tc .vmem S1024x128 .f32) (harg6 : arg6.IsWhole)
    (hc : ¬ firstStep1 i) (x : Vec F S1024x1024 .f32) (a : Vec F S128x1024 .bf16) (s : Vec F S1024x128 .f32) (K : PUnit → sProp 𝕄) :
    iprop(owns (c : Thread nD τ) arg2 fullShare x ∗ owns (c : Thread nD τ) arg3 fullShare a ∗ (∃ d, owns (c : Thread nD τ) arg4 fullShare d)
        ∗ (∃ d, owns (c : Thread nD τ) arg5 fullShare d) ∗ owns (c : Thread nD τ) arg6 fullShare s
        ∗ (iprop(owns (c : Thread nD τ) arg2 fullShare x ∗ owns (c : Thread nD τ) arg3 fullShare a
            ∗ owns (c : Thread nD τ) arg4 fullShare (k1_pay4 (k1_pay3 x s a))
            ∗ owns (c : Thread nD τ) arg5 fullShare (k1_pay1 x)
            ∗ owns (c : Thread nD τ) arg6 fullShare (k1_pay3 x s a)) -∗ K ⟨⟩))
      ⊢ wp frame (wpE (defs₀ (F := F)) Variants.none c none) E (cc1__inner_kernel i arg2 harg2 arg3 harg3 arg4 harg4 arg5 harg5 arg6 harg6) K := by
  simp only [cc1__inner_kernel_eq_skeleton]; unfold cc1__inner_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  subst hf2; subst hf3
  obtain rfl := harg6.eq_unread hf6
  sl_exec (disch := first | exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    simp only [View.read_writes_cons_unit_zero (S := S1024x128) _ _ zero2, View.readCov_cons_unit_zero (S := S1024x128) _ zero2,
      View.readAt_eq_ld, harg6.read_unread, View.ld_unit_zero (S := S1024x128) zero2, View.ld_unit_zero (S := S1024x1024) zero2,
      View.ld_unit_zero (S := S128x1024) zero2]
  isplitl [H5]
  · iexists _; isplitr
    swap; · iexact H5
    ipureintro
    simp only [View.read_writes_cons_unit_zero (S := S1024x1024) _ _ zero2, View.readAt_eq_ld, View.ld_unit_zero (S := S1024x1024) zero2]
  iexists _; isplitr
  swap; · iexact H6
  ipureintro
  sl_unfold_run_names
  simp only [View.read_writes_cons_unit_zero (S := S1024x128) _ _ zero2, View.readCov_cons_unit_zero (S := S1024x128) _ zero2,
    View.readAt_eq_ld, harg6.read_unread, View.ld_unit_zero (S := S1024x128) zero2, View.ld_unit_zero (S := S1024x1024) zero2,
    View.ld_unit_zero (S := S128x1024) zero2]

/-! ## The launch's proof data over the contents V at its start -/

section Launch
variable (V : (c : Dev nD) → (b : Ref sig .tc) → Buf (Elt F) ((c : Thread nD τ).loc b))

/-- Block t of window w's array, as the launch finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point n: at a first step the block product added to zeros, at a later step added to
    what the point before left. -/
def innerAcc (c : Dev nD) : (n : ℕ) → n < cfg1.N → Vec F S1024x128 .f32
  | 0, h => k1_pay3 (blk1 V c 0 ⟨0, h⟩) (k1_pay2 (F := F)) (blk1 V c 1 ⟨0, h⟩)
  | n + 1, h =>
    if (n + 1) % 4 = 0 then k1_pay3 (blk1 V c 0 ⟨n + 1, h⟩) (k1_pay2 (F := F)) (blk1 V c 1 ⟨n + 1, h⟩)
    else k1_pay3 (blk1 V c 0 ⟨n + 1, h⟩) (innerAcc c n (Nat.lt_of_succ_lt h)) (blk1 V c 1 ⟨n + 1, h⟩)

theorem innerAcc_first (c : Dev nD) (t : Fin cfg1.N) (h : t.val % 4 = 0) :
    innerAcc V c t.val t.isLt = k1_pay3 (blk1 V c 0 t) (k1_pay2 (F := F)) (blk1 V c 1 t) := by
  obtain ⟨n, hn⟩ := t
  cases n with
  | zero => rfl
  | succ n => exact if_pos h

theorem innerAcc_later (c : Dev nD) (t : Fin cfg1.N) (h : ¬ t.val % 4 = 0) :
    innerAcc V c t.val t.isLt
      = k1_pay3 (blk1 V c 0 t) (innerAcc V c (t.val - 1) (Nat.lt_of_le_of_lt (Nat.sub_le _ _) t.isLt)) (blk1 V c 1 t) := by
  obtain ⟨n, hn⟩ := t
  cases n with
  | zero => exact absurd (Nat.zero_mod _) h
  | succ n => exact if_neg h

/-- The launch's scratch buffer, whole. -/
abbrev accBuf1 : Memref sig .tc .vmem S1024x128 .f32 := Memref.whole cc1_scratch0

/-- What the launch keeps beside its scratch buffer: the other scoped buffers that are no staging buffer of
    its own, untouched, and the generator register. -/
def innerRest (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class invariant (every scoped non-staging buffer at some contents, the register at some state) with the
    scratch buffer singled out. -/
theorem innerPhiA_eq (c : Dev nD) :
    (Pipeline.ΦA spec1 c : sProp 𝕄) = iprop((∃ d, owns (c : Thread nD τ) accBuf1 fullShare d) ∗ innerRest (F := F) c) := by
  unfold Pipeline.ΦA innerRest
  rw [Pipeline.scopedRest_split_of_list spec1 c [cc1_scratch0] (by decide) (by decide), bigSepL_singleton]
  simp only [accBuf1, owns_whole]
  have h₁ : (iprop(iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) : sProp 𝕄)
      ⊢ iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0] ∗ (∃ r, prngReg c r)) := by
    iintro ⟨⟨H, Hr⟩, Hp⟩
    isplitl [H]
    · iexact H
    isplitl [Hr]
    · iexact Hr
    iexact Hp
  have h₂ : (iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0] ∗ (∃ r, prngReg c r)) : sProp 𝕄)
      ⊢ iprop(iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) := by
    iintro ⟨H, Hr, Hp⟩
    isplitl [H Hr]
    · isplitl [H]
      · iexact H
      iexact Hr
    iexact Hp
  exact BI.equiv_iff.mp ⟨h₁, h₂⟩

/-- The invariant before point n: before the first point nothing is known of the scratch; afterwards it holds the
    accumulator of the point just done. -/
def innerInv (c : Dev nD) : (n : ℕ) → n ≤ cfg1.N → sProp 𝕄
  | 0, _ => Pipeline.ΦA spec1 c
  | n + 1, h => iprop(owns (c : Thread nD τ) accBuf1 fullShare (innerAcc V c n h) ∗ innerRest (F := F) c)

theorem innerInv_succ (c : Dev nD) (n : ℕ) (h : n < cfg1.N) :
    innerInv V c (n + 1) h = iprop(owns (c : Thread nD τ) accBuf1 fullShare (innerAcc V c n h) ∗ innerRest (F := F) c) := rfl

theorem innerInv_pos (c : Dev nD) (n : ℕ) (h : n ≤ cfg1.N) (hz : n ≠ 0) :
    innerInv V c n h = iprop(owns (c : Thread nD τ) accBuf1 fullShare (innerAcc V c (n - 1) (by omega)) ∗ innerRest (F := F) c) := by
  cases n with
  | zero => exact absurd rfl hz
  | succ n => rfl

/-- At any point the invariant yields the scratch buffer at SOME contents beside the rest. -/
theorem innerInv_some (c : Dev nD) (n : ℕ) (h : n ≤ cfg1.N) :
    innerInv V c n h ⊢ iprop((∃ d, owns (c : Thread nD τ) accBuf1 fullShare d) ∗ innerRest (F := F) c) := by
  cases n with
  | zero =>
    rw [show innerInv V c 0 h = Pipeline.ΦA spec1 c from rfl, innerPhiA_eq]
  | succ n =>
    rw [innerInv_succ]
    iintro ⟨H, Hr⟩
    isplitl [H]
    · iexists _; iexact H
    iexact Hr

/-- The proof data: the arrays as found; after the body at point t the inputs' buffers at their blocks, the first
    output's at the copy of the accumulator, the second's at the copy of the block of x; the invariant as above;
    nothing owed. -/
def innerDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay4 (innerAcc V c t.val t.isLt)
    | ⟨3, _⟩ => k1_pay1 (blk1 V c 0 t)
  Φ t := innerInv V c t.val (Nat.le_of_lt_succ t.isLt)
  q _ := fullShare
  owed _ := 0

theorem innerDat_A (c : Dev nD) (w : Fin cfg1.W) : (innerDat V c).A w = V c (Pipeline.arrRef spec1 w) := by
  dsimp only [innerDat]

theorem innerDat_after0 (c : Dev nD) (t : Fin cfg1.N) : (innerDat V c).after 0 t = blk1 V c 0 t := by dsimp only [innerDat]
theorem innerDat_after1 (c : Dev nD) (t : Fin cfg1.N) : (innerDat V c).after 1 t = blk1 V c 1 t := by dsimp only [innerDat]
theorem innerDat_after2 (c : Dev nD) (t : Fin cfg1.N) : (innerDat V c).after 2 t = k1_pay4 (innerAcc V c t.val t.isLt) := by
  dsimp only [innerDat]
theorem innerDat_after3 (c : Dev nD) (t : Fin cfg1.N) : (innerDat V c).after 3 t = k1_pay1 (blk1 V c 0 t) := by
  dsimp only [innerDat]

theorem innerDat_inv (c : Dev nD) (t : Fin cfg1.N) :
    (innerDat V c).Φ t.castSucc = innerInv V c t.val (Nat.le_of_lt t.isLt) := by
  dsimp only [innerDat]; simp only [Fin.coe_castSucc]

/-- Both inputs are fetched anew at every point: before the body their buffers hold their blocks. -/
theorem innerDat_before0 (c : Dev nD) (t : Fin cfg1.N) (d) : (innerDat V c).before 0 t d = blk1 V c 0 t :=
  ((innerDat V c).before_in_eq_fetched 0 rfl (fun _ => rfl) (fun _ _ _ => rfl)
    (fun t => by rw [innerDat_after0]; unfold Dat.blockOf blk1; rw [innerDat_A]; try rfl) t d).trans
    (by unfold Dat.fetched Dat.blockOf blk1; rw [innerDat_A]; try rfl)

theorem innerDat_before1 (c : Dev nD) (t : Fin cfg1.N) (d) : (innerDat V c).before 1 t d = blk1 V c 1 t :=
  ((innerDat V c).before_in_eq_fetched 1 rfl (fun _ => rfl) (fun _ _ _ => rfl)
    (fun t => by rw [innerDat_after1]; unfold Dat.blockOf blk1; rw [innerDat_A]; try rfl) t d).trans
    (by unfold Dat.fetched Dat.blockOf blk1; rw [innerDat_A]; try rfl)

set_option maxHeartbeats 2000000 in
/-- The body at point t, from what the pipeline hands it to what it hands back: a first step by inner_first from the
    scratch at anything, a later step by inner_later from the scratch at the accumulator of the point before. -/
theorem inner_point (c : Dev nD) (t : Fin cfg1.N) :
    iprop((innerDat V c).Φ t.castSucc ∗ (innerDat V c).owesAt () t.castSucc
      ∗ (∃ d, owns (c : Thread nD τ) (st1_0 t) fullShare ((innerDat V c).before 0 t d))
      ∗ (∃ d, owns (c : Thread nD τ) (st1_1 t) fullShare ((innerDat V c).before 1 t d))
      ∗ (∃ d, owns (c : Thread nD τ) (st1_2 t) fullShare ((innerDat V c).before 2 t d))
      ∗ (∃ d, owns (c : Thread nD τ) (st1_3 t) fullShare ((innerDat V c).before 3 t d)))
    ⊢ wp frame (wpE (defs₀ (F := F)) Variants.none c none) Set.univ (bodyAt1 t) (fun _ =>
      iprop((innerDat V c).Φ t.succ ∗ (innerDat V c).owesAt () t.succ
        ∗ owns (c : Thread nD τ) (st1_0 t) fullShare ((innerDat V c).after 0 t)
        ∗ owns (c : Thread nD τ) (st1_1 t) fullShare ((innerDat V c).after 1 t)
        ∗ owns (c : Thread nD τ) (st1_2 t) fullShare ((innerDat V c).after 2 t)
        ∗ owns (c : Thread nD τ) (st1_3 t) fullShare ((innerDat V c).after 3 t))) := by
  unfold bodyAt1
  simp only [innerDat_before0, innerDat_before1]
  rw [show (innerDat V c).owesAt () t.succ = (innerDat V c).owesAt () t.castSucc from rfl,
    show (innerDat V c).Φ t.succ = innerInv V c (t.val + 1) t.isLt from rfl, innerInv_succ,
    innerDat_inv, innerDat_after0, innerDat_after1, innerDat_after2, innerDat_after3]
  by_cases h0 : t.val % 4 = 0
  · rw [innerAcc_first V c t h0]
    iintro ⟨Hinv, Ho, ⟨%d0, H0⟩, ⟨%d1, H1⟩, ⟨%d2, H2⟩, ⟨%d3, H3⟩⟩
    ihave Hopen := (innerInv_some V c t.val _) $$ Hinv
    icases Hopen with ⟨HS, Hr⟩
    iapply (inner_first c Set.univ _ _ _ _ _ _ _ _ _ _ _ ((firstStep1_iff t).mpr h0) (blk1 V c 0 t) (blk1 V c 1 t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hz : t.val ≠ 0 := fun e => h0 (by rw [e])
    rw [innerAcc_later V c t h0, innerInv_pos V c _ _ hz]
    iintro ⟨⟨HS, Hr⟩, Ho, ⟨%d0, H0⟩, ⟨%d1, H1⟩, ⟨%d2, H2⟩, ⟨%d3, H3⟩⟩
    iapply (inner_later c Set.univ _ _ _ _ _ _ _ _ _ _ _ (fun h => h0 ((firstStep1_iff t).mp h)) (blk1 V c 0 t) (blk1 V c 1 t) _ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3

/-- The pipeline's obligation on the body, at every point. -/
theorem inner_obligation (c : Dev nD) : BodyObligation (innerDat (F := F) V c) (defs₀ (F := F)) Variants.none () Set.univ := fun t => by
  rw [bigSep_W1, bigSep_W1]
  exact inner_point V c t

/-- What the launch hands the region is the invariant before the first point. -/
theorem inner_hin (c : Dev nD) : Pipeline.ΦA spec1 c ⊢ (innerDat V c).Φ 0 := by
  rw [show (innerDat V c).Φ 0 = Pipeline.ΦA spec1 c from rfl]

/-- After the last point the invariant gives the class invariant back: the accumulator's contents are forgotten. -/
theorem inner_hout (c : Dev nD) : (innerDat V c).Φ (Fin.last cfg1.N) ⊢ Pipeline.ΦA spec1 c := by
  rw [show (innerDat V c).Φ (Fin.last cfg1.N) = innerInv V c cfg1.N (le_refl _) from rfl, innerPhiA_eq]
  exact innerInv_some V c _ _

end Launch

end Cert.KernelIdeal.Hand

end
-- ==== Proof.KI.MainK.lean ====
/-
  The third of the program's three kernel launches: the fused matrix product.

  The launch walks a 4 x 4 x 4 grid (i, j, k), k fastest, 64 points.  At the point (i, j, k) the body holds the
  2048 x 1024 block (i, k) of the activations, the 1024 x 1024 block (j, k) of the rebuilt weight, the
  2048 x 128 block i of the low-rank inner product, the 1024 x 128 block j of the second low-rank factor, and a
  2048 x 1024 accumulator that lives in a scratch buffer from point to point.  It zeroes the accumulator when
  k = 0, adds the product of the activation block with the transposed weight block to it at every k, and when
  k = 3 stores into the output's 2048 x 1024 block (i, j) the accumulator plus twice the product of the inner
  block with the transposed factor block.  The output's buffer is stored only at k = 3, which is where the
  pipeline writes the block back; at the other points it is left as it was found.

  Along the run the point t has k = t mod 4, so three kinds of point: the first of a run of four (zero, add, no
  output), the two middle ones (add), the last (add, emit).  This module proves what the body does on whole
  staging buffers in each of the three (main_first, main_middle, main_last), names the accumulator after each
  point by recursion along the run (mainAcc) and the block emitted at the end of a run (mainOut), and packages
  the launch's proof data over arbitrary contents V of the device's buffers at the moment the launch starts: the
  invariant carries the scratch buffer at mainAcc from one point to the next.
-/
import proofs.«406961_j15015205667342_3_alg».proof.Proof.Gen.KernelIdeal.Launch
import proofs.«406961_j15015205667342_3_alg».proof.Proof.Gen.KernelIdeal.Skeleton
import proofs.«406961_j15015205667342_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, along the run -/

/-- The body zeroes the accumulator at this grid point: its third coordinate is 0. -/
abbrev firstStep2 (i : grid2.Coords) : Prop := (Scalar.cmpi .ne (Scalar.extui (Scalar.cmpi .eq (BitVec.ofNat 32 (i 2).val) 0#32)) 0#32) = 1#1
/-- The body emits the output block at this grid point: its third coordinate is 3. -/
abbrev lastStep2 (i : grid2.Coords) : Prop := k2_cond2 i = 1#1

/-- The third coordinate of point t is t mod 4, so the accumulator is zeroed at the points divisible by 4 -/
theorem firstStep2_iff : ∀ t : Fin cfg2.N, firstStep2 (grid2.coords t) ↔ t.val % 4 = 0 :=
  (by decide +kernel : ∀ t : Fin grid2.N, firstStep2 (grid2.coords t) ↔ t.val % 4 = 0)
/-- and the output is emitted at the points that are 3 mod 4. -/
theorem lastStep2_iff : ∀ t : Fin cfg2.N, lastStep2 (grid2.coords t) ↔ t.val % 4 = 3 :=
  (by decide +kernel : ∀ t : Fin grid2.N, lastStep2 (grid2.coords t) ↔ t.val % 4 = 3)

/-- The input windows are never idle; -/
theorem liveAt2_0 : ∀ t : Fin cfg2.N, cfg2.idle 0 (cfg2.grid.coords t) = false :=
  (by decide +kernel : ∀ t : Fin grid2.N, idle2 0 (grid2.coords t) = false)
theorem liveAt2_1 : ∀ t : Fin cfg2.N, cfg2.idle 1 (cfg2.grid.coords t) = false :=
  (by decide +kernel : ∀ t : Fin grid2.N, idle2 1 (grid2.coords t) = false)
theorem liveAt2_2 : ∀ t : Fin cfg2.N, cfg2.idle 2 (cfg2.grid.coords t) = false :=
  (by decide +kernel : ∀ t : Fin grid2.N, idle2 2 (grid2.coords t) = false)
theorem liveAt2_3 : ∀ t : Fin cfg2.N, cfg2.idle 3 (cfg2.grid.coords t) = false :=
  (by decide +kernel : ∀ t : Fin grid2.N, idle2 3 (grid2.coords t) = false)
/-- the output window is idle exactly off the points that are 3 mod 4, -/
theorem idleAt2_4 : ∀ t : Fin cfg2.N, t.val % 4 ≠ 3 → cfg2.idle 4 (cfg2.grid.coords t) = true :=
  (by decide +kernel : ∀ t : Fin grid2.N, t.val % 4 ≠ 3 → idle2 4 (grid2.coords t) = true)
theorem liveAt2_4 : ∀ t : Fin cfg2.N, t.val % 4 = 3 → cfg2.idle 4 (cfg2.grid.coords t) = false :=
  (by decide +kernel : ∀ t : Fin grid2.N, t.val % 4 = 3 → idle2 4 (grid2.coords t) = false)
/-- and there its block is not written back. -/
theorem noFlush2_4 (t : Fin cfg2.N) (h : t.val % 4 ≠ 3) : (cfg2.win 4).flush t = false :=
  Bool.eq_false_iff.mpr fun hf => h ((flush2_4 t).mp hf)

/-! ## The body on whole staging buffers -/

/-- The zero offsets of the whole-buffer rectangles, as a constant function. -/
theorem zeroOff2 : (![0, 0] : Fin 2 → Nat) = fun _ => 0 := by
  funext a; match a with | ⟨0, _⟩ => rfl | ⟨1, _⟩ => rfl

set_option maxHeartbeats 2000000 in
/-- FIRST point of a run (k = 0): whatever the accumulator held, it ends at zero plus the product of the
    activation block x with the transposed weight block w; the two blocks are left as they were; the other three
    buffers are not touched. -/
theorem main_first (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : firstStep2 i) (hl : ¬ lastStep2 i)
    (x : Vec F S2048x1024 .bf16) (w : Vec F S1024x1024 .bf16) (K : PUnit → sProp 𝕄) :
    iprop(owns (c : Thread nD τ) arg3 fullShare x ∗ owns (c : Thread nD τ) arg4 fullShare w ∗ (∃ d, owns (c : Thread nD τ) arg8 fullShare d)
        ∗ (iprop(owns (c : Thread nD τ) arg3 fullShare x ∗ owns (c : Thread nD τ) arg4 fullShare w ∗ owns (c : Thread nD τ) arg8 fullShare (k2_pay2 k2_pay1 x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%d8, %f8, -, H8⟩, Hk⟩
  subst hf3; subst hf4
  sl_exec (disch := first | exact hf | exact hl)
  sl_step
  iapply Hk
  isplitl [H3]
  · iexists f3; isplitr; · ipureintro; rfl
    iexact H3
  isplitl [H4]
  · iexists f4; isplitr; · ipureintro; rfl
    iexact H4
  iexists _; isplitr
  swap; · iexact H8
  ipureintro
  sl_unfold_run_names
  rw [View.read_writes_eq_canon _ _ _ (fun y => ⟨_, List.Mem.head _, View.mem_set_unit_zero zeroOff2 inb_S2048x1024_S2048x1024_0_0 y⟩)]
  simp only [View.canon_cons_unit_zero (S := S2048x1024) zeroOff2, View.readCov_unit_zero (S := S2048x1024) _ zeroOff2, View.readAt_eq_ld, View.ld_unit_zero (S := S2048x1024) zeroOff2, View.ld_unit_zero (S := S1024x1024) zeroOff2]

set_option maxHeartbeats 2000000 in
/-- MIDDLE point of a run (k = 1, 2): the accumulator goes from s to s plus the product of x with the transposed w;
    the two blocks are left as they were; the other three buffers are not touched. -/
theorem main_middle (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : ¬ firstStep2 i) (hl : ¬ lastStep2 i)
    (x : Vec F S2048x1024 .bf16) (w : Vec F S1024x1024 .bf16) (s : Vec F S2048x1024 .f32) (K : PUnit → sProp 𝕄) :
    iprop(owns (c : Thread nD τ) arg3 fullShare x ∗ owns (c : Thread nD τ) arg4 fullShare w ∗ owns (c : Thread nD τ) arg8 fullShare s
        ∗ (iprop(owns (c : Thread nD τ) arg3 fullShare x ∗ owns (c : Thread nD τ) arg4 fullShare w ∗ owns (c : Thread nD τ) arg8 fullShare (k2_pay2 s x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%f8, %hf8, H8⟩, Hk⟩
  subst hf3; subst hf4
  obtain rfl := harg8.eq_unread hf8
  sl_exec (disch := first | exact hf | exact hl)
  sl_step
  iapply Hk
  isplitl [H3]
  · iexists f3; isplitr; · ipureintro; rfl
    iexact H3
  isplitl [H4]
  · iexists f4; isplitr; · ipureintro; rfl
    iexact H4
  iexists _; isplitr
  swap; · iexact H8
  ipureintro
  sl_unfold_run_names
  rw [View.read_writes_eq_canon _ _ _ (fun y => View.cover_of_tiled [⟨_, _⟩] S2048x1024.size (by rfl) y)]
  simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2]

set_option maxHeartbeats 2000000 in
/-- LAST point of a run (k = 3): the accumulator goes from s to s' = s plus the product of x with the transposed w,
    and the output's buffer, whatever it held, ends at s' plus twice the product of the inner block a with the
    transposed factor block b; the four input blocks are left as they were. -/
theorem main_last (c : Dev nD) (E : Set ℕ) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S2048x1024 .f32) (harg7 : arg7.IsWhole) (arg8 : Memref sig .tc .vmem S2048x1024 .f32) (harg8 : arg8.IsWhole)
    (hf : ¬ firstStep2 i) (hl : lastStep2 i)
    (x : Vec F S2048x1024 .bf16) (w : Vec F S1024x1024 .bf16) (a : Vec F S2048x128 .bf16) (b : Vec F S1024x128 .bf16) (s : Vec F S2048x1024 .f32) (K : PUnit → sProp 𝕄) :
    iprop(owns (c : Thread nD τ) arg3 fullShare x ∗ owns (c : Thread nD τ) arg4 fullShare w ∗ owns (c : Thread nD τ) arg5 fullShare a ∗ owns (c : Thread nD τ) arg6 fullShare b
        ∗ (∃ d, owns (c : Thread nD τ) arg7 fullShare d) ∗ owns (c : Thread nD τ) arg8 fullShare s
        ∗ (iprop(owns (c : Thread nD τ) arg3 fullShare x ∗ owns (c : Thread nD τ) arg4 fullShare w ∗ owns (c : Thread nD τ) arg5 fullShare a ∗ owns (c : Thread nD τ) arg6 fullShare b
            ∗ owns (c : Thread nD τ) arg7 fullShare (k2_pay3 a b (k2_pay2 s x w)) ∗ owns (c : Thread nD τ) arg8 fullShare (k2_pay2 s x w)) -∗ K ⟨⟩))
      ⊢ wp frame (wpE (defs₀ (F := F)) Variants.none c none) E (cc2__main_kernel i arg3 harg3 arg4 harg4 arg5 harg5 arg6 harg6 arg7 harg7 arg8 harg8) K := by
  simp only [cc2__main_kernel_eq_skeleton]; unfold cc2__main_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf3; subst hf4; subst hf5; subst hf6
  obtain rfl := harg8.eq_unread hf8
  sl_exec (disch := first | exact hf | exact hl)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [View.read_writes_eq_canon _ _ _ (fun y => View.cover_of_tiled [⟨_, _⟩] S2048x1024.size (by rfl) y)]
    simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2, View.ld_unit_zero (S := S2048x128) zeroOff2, View.ld_unit_zero (S := S1024x128) zeroOff2]
  iexists _; isplitr
  swap; · iexact H8
  ipureintro
  sl_unfold_run_names
  rw [View.read_writes_eq_canon _ _ _ (fun y => View.cover_of_tiled [⟨_, _⟩] S2048x1024.size (by rfl) y)]
  simp only [View.canon_unit_zero (S := S2048x1024) zeroOff2, View.readCov_unit_zero (S := S2048x1024) _ zeroOff2, View.readAt_eq_ld, harg8.read_unread, View.ld_unit_zero (S := S2048x1024) zeroOff2, View.ld_unit_zero (S := S1024x1024) zeroOff2]

/-! ## The launch's proof data over the contents V at its start -/

section Launch
variable (V : (c : Dev nD) → (b : Ref sig .tc) → Buf (Elt F) ((c : Thread nD τ).loc b))

/-- Block t of window w's array, as the launch finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION.  The accumulator after point n: the sum, over the points of n's run of four up to n, of the
    products of the activation blocks with the transposed weight blocks, added in the order of the run onto zero —
    by recursion along the run: a point divisible by 4 starts from zero, any other from what the point before left. -/
def mainAcc (c : Dev nD) : (n : ℕ) → n < cfg2.N → Vec F S2048x1024 .f32
  | 0, h => k2_pay2 k2_pay1 (blk2 V c 0 ⟨0, h⟩) (blk2 V c 1 ⟨0, h⟩)
  | n + 1, h => k2_pay2 (if (n + 1) % 4 = 0 then k2_pay1 else mainAcc c n (Nat.lt_of_succ_lt h))
      (blk2 V c 0 ⟨n + 1, h⟩) (blk2 V c 1 ⟨n + 1, h⟩)

/-- At the first point of a run the accumulator is zero plus that point's product; -/
theorem mainAcc_first (c : Dev nD) (t : Fin cfg2.N) (h : t.val % 4 = 0) :
    mainAcc V c t.val t.isLt = k2_pay2 k2_pay1 (blk2 V c 0 t) (blk2 V c 1 t) := by
  obtain ⟨n, hn⟩ := t
  cases n with
  | zero => rfl
  | succ n =>
    have h' : (n + 1) % 4 = 0 := h
    show mainAcc V c (n + 1) hn = _
    rw [mainAcc, if_pos h']

/-- at any other point, what the point before left plus that point's product. -/
theorem mainAcc_later (c : Dev nD) (t : Fin cfg2.N) (h : t.val % 4 ≠ 0) :
    mainAcc V c t.val t.isLt
      = k2_pay2 (mainAcc V c (t.val - 1) (Nat.lt_of_le_of_lt (Nat.sub_le _ _) t.isLt)) (blk2 V c 0 t) (blk2 V c 1 t) := by
  obtain ⟨n, hn⟩ := t
  cases n with
  | zero => exact absurd (Nat.zero_mod 4) h
  | succ n =>
    have h' : ¬ (n + 1) % 4 = 0 := h
    show mainAcc V c (n + 1) hn = _
    rw [mainAcc, if_neg h']
    rfl

/-- The block emitted at point t (read at the last point of a run): the accumulator there plus twice the product of the
    run's inner block with its transposed factor block. -/
def mainOut (c : Dev nD) (t : Fin cfg2.N) : Vec F S2048x1024 .f32 :=
  k2_pay3 (blk2 V c 2 t) (blk2 V c 3 t) (mainAcc V c t.val t.isLt)

/-- The launch's invariant with the scratch buffer set apart: the accumulator's buffer at some contents, the core's
    other scoped buffers unopened, the generator register at some state. -/
theorem PhiA2_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [Idealize.SL.BI.bigSepL_singleton, owns_whole]; try rfl

/-- The invariant before point n: before the first point the launch's own (the accumulator's buffer at anything);
    afterwards the accumulator's buffer at what point n - 1 left in it, the rest as before. -/
def mainPhi (c : Dev nD) : (n : ℕ) → n ≤ cfg2.N → sProp 𝕄
  | 0, _ => Pipeline.ΦA spec2 c
  | n + 1, hn => iprop((owns (c : Thread nD τ) (Memref.whole cc2_scratch0) fullShare (mainAcc V c n hn)
      ∗ Pipeline.scopedRestBut (Ix := Unit) (Name := ℕ) (U := UR sig nD τ) (Lvl := ℕ) (Val := Elt F) spec2 c [cc2_scratch0])
      ∗ (∃ r, prngReg c r))

theorem mainPhi_zero (c : Dev nD) (n : ℕ) (h : n ≤ cfg2.N) (hz : n = 0) : mainPhi V c n h = Pipeline.ΦA spec2 c := by
  subst hz; rfl

theorem mainPhi_succ (c : Dev nD) (n : ℕ) (hn : n < cfg2.N) :
    mainPhi V c (n + 1) hn = iprop((owns (c : Thread nD τ) (Memref.whole cc2_scratch0) fullShare (mainAcc V c n hn)
      ∗ Pipeline.scopedRestBut (Ix := Unit) (Name := ℕ) (U := UR sig nD τ) (Lvl := ℕ) (Val := Elt F) spec2 c [cc2_scratch0])
      ∗ (∃ r, prngReg c r)) := rfl

theorem mainPhi_pos (c : Dev nD) (n : ℕ) (h : n ≤ cfg2.N) (hz : n ≠ 0) :
    mainPhi V c n h = iprop((owns (c : Thread nD τ) (Memref.whole cc2_scratch0) fullShare (mainAcc V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The proof data: the arrays as found; after the body at point t the four inputs' buffers at their blocks and the
    output's at mainOut (read where it is written back); the invariant carrying the accumulator; nothing owed. -/
def mainDat (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => mainOut V c t
  Φ t := mainPhi V c t.val (Nat.le_of_lt_succ t.isLt)
  q _ := fullShare
  owed _ := 0

theorem mainDat_A (c : Dev nD) (w : Fin cfg2.W) : (mainDat V c).A w = V c (Pipeline.arrRef spec2 w) := by
  dsimp only [mainDat]

theorem mainDat_after0 (c : Dev nD) (t : Fin cfg2.N) : (mainDat V c).after 0 t = blk2 V c 0 t := by dsimp only [mainDat]
theorem mainDat_after1 (c : Dev nD) (t : Fin cfg2.N) : (mainDat V c).after 1 t = blk2 V c 1 t := by dsimp only [mainDat]
theorem mainDat_after2 (c : Dev nD) (t : Fin cfg2.N) : (mainDat V c).after 2 t = blk2 V c 2 t := by dsimp only [mainDat]
theorem mainDat_after3 (c : Dev nD) (t : Fin cfg2.N) : (mainDat V c).after 3 t = blk2 V c 3 t := by dsimp only [mainDat]
theorem mainDat_after4 (c : Dev nD) (t : Fin cfg2.N) : (mainDat V c).after 4 t = mainOut V c t := by dsimp only [mainDat]

theorem mainDat_Phi_castSucc (c : Dev nD) (t : Fin cfg2.N) :
    (mainDat V c).Φ t.castSucc = mainPhi V c t.val (Nat.le_of_lt t.isLt) := by
  dsimp only [mainDat]; simp only [Fin.coe_castSucc]

/-- The body leaves every input block in place, so each input's buffer holds its block at every point, fetched there
    or not (a block not fetched at a point is the block of the point before: its index did not move): the
    activations', -/
theorem mainDat_before0 (c : Dev nD) (t : Fin cfg2.N) (d) : (mainDat V c).before 0 t d = blk2 V c 0 t :=
  ((mainDat V c).before_in_eq_fetched 0 rfl (fun _ => rfl) (fun _ _ _ => rfl)
    (fun t => by rw [mainDat_after0]; unfold Dat.blockOf blk2; rw [mainDat_A]; try rfl) t d).trans
    (by unfold Dat.fetched Dat.blockOf blk2; rw [mainDat_A]; try rfl)

/-- the weight's, -/
theorem mainDat_before1 (c : Dev nD) (t : Fin cfg2.N) (d) : (mainDat V c).before 1 t d = blk2 V c 1 t :=
  ((mainDat V c).before_in_eq_fetched 1 rfl (fun _ => rfl) (fun _ _ _ => rfl)
    (fun t => by rw [mainDat_after1]; unfold Dat.blockOf blk2; rw [mainDat_A]; try rfl) t d).trans
    (by unfold Dat.fetched Dat.blockOf blk2; rw [mainDat_A]; try rfl)

/-- the inner product's (fetched once per sixteen points), -/
theorem mainDat_before2 (c : Dev nD) (t : Fin cfg2.N) (d) : (mainDat V c).before 2 t d = blk2 V c 2 t :=
  ((mainDat V c).before_in_eq_fetched 2 rfl (fun _ => rfl) (fun _ _ _ => rfl)
    (fun t => by rw [mainDat_after2]; unfold Dat.blockOf blk2; rw [mainDat_A]; try rfl) t d).trans
    (by unfold Dat.fetched Dat.blockOf blk2; rw [mainDat_A]; try rfl)

/-- and the second factor's (fetched once per run of four). -/
theorem mainDat_before3 (c : Dev nD) (t : Fin cfg2.N) (d) : (mainDat V c).before 3 t d = blk2 V c 3 t :=
  ((mainDat V c).before_in_eq_fetched 3 rfl (fun _ => rfl) (fun _ _ _ => rfl)
    (fun t => by rw [mainDat_after3]; unfold Dat.blockOf blk2; rw [mainDat_A]; try rfl) t d).trans
    (by unfold Dat.fetched Dat.blockOf blk2; rw [mainDat_A]; try rfl)

/-- The body at point t, from what the pipeline hands it to what it hands back: the triple of the point's kind at the
    point's blocks, the accumulator taken from the invariant (at anything before the launch's first point, at what the
    point before left afterwards) and given back to it at this point's; the output's buffer handed back as found off the
    ends of the runs, at the emitted block there. -/
theorem main_point (c : Dev nD) (t : Fin cfg2.N) :
    iprop((mainDat V c).Φ t.castSucc ∗ (mainDat V c).owesAt () t.castSucc
      ∗ (∃ d, owns (c : Thread nD τ) (st2_0 t) fullShare ((mainDat V c).before 0 t d))
      ∗ (∃ d, owns (c : Thread nD τ) (st2_1 t) fullShare ((mainDat V c).before 1 t d))
      ∗ (∃ d, owns (c : Thread nD τ) (st2_2 t) fullShare ((mainDat V c).before 2 t d))
      ∗ (∃ d, owns (c : Thread nD τ) (st2_3 t) fullShare ((mainDat V c).before 3 t d))
      ∗ (∃ d, owns (c : Thread nD τ) (st2_4 t) fullShare ((mainDat V c).before 4 t d)))
    ⊢ wp frame (wpE (defs₀ (F := F)) Variants.none c none) Set.univ (bodyAt2 t) (fun _ =>
      iprop((mainDat V c).Φ t.succ ∗ (mainDat V c).owesAt () t.succ
        ∗ (mainDat V c).leavesExact 0 t
        ∗ (mainDat V c).leavesExact 1 t
        ∗ (mainDat V c).leavesExact 2 t
        ∗ (mainDat V c).leavesExact 3 t
        ∗ (mainDat V c).leavesExact 4 t)) := by
  unfold bodyAt2
  simp only [mainDat_before0, mainDat_before1, mainDat_before2, mainDat_before3]
  rw [show (mainDat V c).leavesExact 0 t = owns (c : Thread nD τ) (st2_0 t) fullShare ((mainDat V c).after 0 t) from by
      unfold Dat.leavesExact; rw [liveAt2_0 t], mainDat_after0,
    show (mainDat V c).leavesExact 1 t = owns (c : Thread nD τ) (st2_1 t) fullShare ((mainDat V c).after 1 t) from by
      unfold Dat.leavesExact; rw [liveAt2_1 t], mainDat_after1,
    show (mainDat V c).leavesExact 2 t = owns (c : Thread nD τ) (st2_2 t) fullShare ((mainDat V c).after 2 t) from by
      unfold Dat.leavesExact; rw [liveAt2_2 t], mainDat_after2,
    show (mainDat V c).leavesExact 3 t = owns (c : Thread nD τ) (st2_3 t) fullShare ((mainDat V c).after 3 t) from by
      unfold Dat.leavesExact; rw [liveAt2_3 t], mainDat_after3]
  rw [show (mainDat V c).owesAt () t.succ = (mainDat V c).owesAt () t.castSucc from rfl,
    show (mainDat V c).Φ t.succ = mainPhi V c (t.val + 1) t.isLt from rfl, mainPhi_succ, mainDat_Phi_castSucc]
  by_cases h0 : t.val % 4 = 0
  · -- first point of a run
    have hf : firstStep2 (grid2.coords t) := (firstStep2_iff t).mpr h0
    have hl : ¬ lastStep2 (grid2.coords t) := fun h => by have := (lastStep2_iff t).mp h; omega
    rw [Dat.leavesExact_idle (mainDat V c) 4 t (idleAt2_4 t (by omega)) (noFlush2_4 t (by omega))]
    rw [mainAcc_first V c t h0]
    by_cases hz : t.val = 0
    · rw [mainPhi_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply (main_first c Set.univ _ _ _ _ _ _ _ _ _ _ _ _ _ hf hl (blk2 V c 0 t) (blk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [mainPhi_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (main_first c Set.univ _ _ _ _ _ _ _ _ _ _ _ _ _ hf hl (blk2 V c 0 t) (blk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hf : ¬ firstStep2 (grid2.coords t) := fun h => h0 ((firstStep2_iff t).mp h)
    have hz : t.val ≠ 0 := fun h => h0 (by rw [h])
    rw [mainAcc_later V c t h0, mainPhi_pos V c _ _ hz]
    by_cases h3 : t.val % 4 = 3
    · -- last point of a run
      have hl : lastStep2 (grid2.coords t) := (lastStep2_iff t).mpr h3
      rw [show (mainDat V c).leavesExact 4 t = owns (c : Thread nD τ) (st2_4 t) fullShare ((mainDat V c).after 4 t) from by
          unfold Dat.leavesExact; rw [liveAt2_4 t h3], mainDat_after4]
      unfold mainOut
      rw [mainAcc_later V c t h0]
      iintro ⟨⟨⟨HS, HR⟩, Hg⟩, Ho, ⟨%d0, H0⟩, ⟨%d1, H1⟩, ⟨%d2, H2⟩, ⟨%d3, H3⟩, ⟨%d4, H4⟩⟩
      iapply (main_last c Set.univ _ _ _ _ _ _ _ _ _ _ _ _ _ hf hl (blk2 V c 0 t) (blk2 V c 1 t) (blk2 V c 2 t) (blk2 V c 3 t)
        (mainAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- middle point of a run
      have hl : ¬ lastStep2 (grid2.coords t) := fun h => h3 ((lastStep2_iff t).mp h)
      rw [Dat.leavesExact_idle (mainDat V c) 4 t (idleAt2_4 t h3) (noFlush2_4 t h3)]
      iintro ⟨⟨⟨HS, HR⟩, Hg⟩, Ho, ⟨%d0, H0⟩, ⟨%d1, H1⟩, ⟨%d2, H2⟩, ⟨%d3, H3⟩, ⟨%d4, H4⟩⟩
      iapply (main_middle c Set.univ _ _ _ _ _ _ _ _ _ _ _ _ _ hf hl (blk2 V c 0 t) (blk2 V c 1 t)
        (mainAcc V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The pipeline's obligation on the body, at every point. -/
theorem main_obligation (c : Dev nD) : BodyObligation (mainDat (F := F) V c) (defs₀ (F := F)) Variants.none () Set.univ := fun t => by
  rw [bigSep_W2, bigSep_W2]
  exact main_point V c t

/-- What the launch hands the body is the invariant before the first point. -/
theorem main_hin (c : Dev nD) : Pipeline.ΦA spec2 c ⊢ (mainDat V c).Φ 0 := by
  rw [show (mainDat V c).Φ 0 = mainPhi V c 0 (Nat.zero_le _) from rfl, mainPhi_zero V c 0 _ rfl]

/-- After the last point the invariant gives the launch's own back: what the accumulator holds is forgotten. -/
theorem main_hout (c : Dev nD) : (mainDat V c).Φ (Fin.last cfg2.N) ⊢ Pipeline.ΦA spec2 c := by
  rw [show (mainDat V c).Φ (Fin.last cfg2.N) = mainPhi V c (Fin.last cfg2.N).val (Nat.le_of_lt_succ (Fin.last cfg2.N).isLt) from rfl,
    mainPhi_pos V c _ _ (by rw [Fin.val_last]; have : cfg2.N = 64 := N_2; omega), PhiA2_eq]
  iintro ⟨⟨HS, HR⟩, Hg⟩
  isplitl [HS HR]
  · isplitl [HS]; · iexists _; iexact HS
    iexact HR
  iexact Hg

end Launch

end Cert.KernelIdeal.Hand

end
-- ==== Proof.KI.Run.lean ====
/-
  The whole idealized kernel program as one run.

  @main is nine items in a row: five stretches of host operations (a reshape of x, the two changes of float
  format, the two zero-paddings of the low-rank factors, the reshape of the scales), the three kernel launches, and
  the final reshape of the result.  This module follows the contents of the device's unscoped buffers through the
  nine items — after a host stretch they are the stretch's operations applied; after a launch the launch's arrays
  hold what its pipeline leaves (the inputs as found, each output the write-backs of its blocks) and every other
  buffer is as found — and concludes, by the library's launch theorem for a program of several kernel regions, that
  every weakly fair execution terminates with EVERY unscoped buffer at the last of these contents.  Read at the
  result and at the five arguments this is the kernel half of the certificate's claims.
-/
import proofs.«406961_j15015205667342_3_alg».proof.Proof.Gen.KernelIdeal.Launch
import proofs.«406961_j15015205667342_3_alg».proof.Proof.Gen.KernelIdeal.Skeleton
import proofs.«406961_j15015205667342_3_alg».proof.Proof.Gen.KernelIdeal.Points
import proofs.«406961_j15015205667342_3_alg».proof.Proof.Gen.KernelIdeal.Regions
import proofs.«406961_j15015205667342_3_alg».proof.Proof.KI.Deq
import proofs.«406961_j15015205667342_3_alg».proof.Proof.KI.Inner
import proofs.«406961_j15015205667342_3_alg».proof.Proof.KI.MainK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items

Gen.V0 … Gen.V5 (the generated conditional frame's names) are the contents at launch and after each of the five
host stretches; from there on: -/

/-- The contents when launch 0 starts, read at the TensorCore's references. -/
abbrev at5 : (c : Dev nD) → (b : Ref sig .tc) → Buf (Elt F) ((c : Thread nD τ).loc b) := fun c b => V5 m c b

/-- After launch 0: its arrays at what its pipeline leaves, the rest as found. -/
def after6 (c : Dev nD) : Valuation τ sig (Elt F) :=
  Pipeline.withArrays spec0 c (V5 m c) fun w => (deqDat (at5 m) c).arrAt w cfg0.N
theorem after6_arr (c : Dev nD) (w : Fin cfg0.W) :
    after6 m c (Proc.devRef .tc (Pipeline.arrRef spec0 w)) = (deqDat (at5 m) c).arrAt w cfg0.N := by
  unfold after6; exact Pipeline.withArrays_arr spec0 launch0.win.arr_inj c _ _ w
theorem after6_of_ne (c : Dev nD) (b : Ref sig .tc) (hb : ∀ w, Pipeline.arrRef spec0 w ≠ b) :
    after6 m c (Proc.devRef .tc b) = V5 m c (Proc.devRef .tc b) := by
  unfold after6; exact Pipeline.withArrays_of_ne spec0 c _ _ b hb
abbrev at6 : (c : Dev nD) → (b : Ref sig .tc) → Buf (Elt F) ((c : Thread nD τ).loc b) := fun c b => after6 m c b

/-- After launch 1. -/
def after7 (c : Dev nD) : Valuation τ sig (Elt F) :=
  Pipeline.withArrays spec1 c (after6 m c) fun w => (innerDat (at6 m) c).arrAt w cfg1.N
theorem after7_arr (c : Dev nD) (w : Fin cfg1.W) :
    after7 m c (Proc.devRef .tc (Pipeline.arrRef spec1 w)) = (innerDat (at6 m) c).arrAt w cfg1.N := by
  unfold after7; exact Pipeline.withArrays_arr spec1 launch1.win.arr_inj c _ _ w
theorem after7_of_ne (c : Dev nD) (b : Ref sig .tc) (hb : ∀ w, Pipeline.arrRef spec1 w ≠ b) :
    after7 m c (Proc.devRef .tc b) = after6 m c (Proc.devRef .tc b) := by
  unfold after7; exact Pipeline.withArrays_of_ne spec1 c _ _ b hb
abbrev at7 : (c : Dev nD) → (b : Ref sig .tc) → Buf (Elt F) ((c : Thread nD τ).loc b) := fun c b => after7 m c b

/-- After launch 2. -/
def after8 (c : Dev nD) : Valuation τ sig (Elt F) :=
  Pipeline.withArrays spec2 c (after7 m c) fun w => (mainDat (at7 m) c).arrAt w cfg2.N
theorem after8_arr (c : Dev nD) (w : Fin cfg2.W) :
    after8 m c (Proc.devRef .tc (Pipeline.arrRef spec2 w)) = (mainDat (at7 m) c).arrAt w cfg2.N := by
  unfold after8; exact Pipeline.withArrays_arr spec2 launch2.win.arr_inj c _ _ w
theorem after8_of_ne (c : Dev nD) (b : Ref sig .tc) (hb : ∀ w, Pipeline.arrRef spec2 w ≠ b) :
    after8 m c (Proc.devRef .tc b) = after7 m c (Proc.devRef .tc b) := by
  unfold after8; exact Pipeline.withArrays_of_ne spec2 c _ _ b hb
abbrev at8 : (c : Dev nD) → (b : Ref sig .tc) → Buf (Elt F) ((c : Thread nD τ).loc b) := fun c b => after8 m c b

/-- After the final reshape: the end of @main. -/
abbrev after9 (c : Dev nD) : Valuation τ sig (Elt F) := StableHlo.after hostOps3 (after8 m c)

/-- What each launch leaves in its arrays, and that it leaves every other buffer alone: the two facts that put a
    launch's arrays back among the unscoped buffers. -/
theorem left0 (c : Dev nD) (w : Fin cfg0.W) : (deqDat (at5 m) c).arrAt w cfg0.N = at6 m c (Pipeline.arrRef spec0 w) := (after6_arr m c w).symm
theorem kept0 (c : Dev nD) : ∀ b, b ∉ Finset.univ.image (Pipeline.arrRef spec0) → at6 m c b = at5 m c b :=
  fun b hb => after6_of_ne m c b fun w e => hb (Finset.mem_image.mpr ⟨w, Finset.mem_univ _, e⟩)
theorem left1 (c : Dev nD) (w : Fin cfg1.W) : (innerDat (at6 m) c).arrAt w cfg1.N = at7 m c (Pipeline.arrRef spec1 w) := (after7_arr m c w).symm
theorem kept1 (c : Dev nD) : ∀ b, b ∉ Finset.univ.image (Pipeline.arrRef spec1) → at7 m c b = at6 m c b :=
  fun b hb => after7_of_ne m c b fun w e => hb (Finset.mem_image.mpr ⟨w, Finset.mem_univ _, e⟩)
theorem left2 (c : Dev nD) (w : Fin cfg2.W) : (mainDat (at7 m) c).arrAt w cfg2.N = at8 m c (Pipeline.arrRef spec2 w) := (after8_arr m c w).symm
theorem kept2 (c : Dev nD) : ∀ b, b ∉ Finset.univ.image (Pipeline.arrRef spec2) → at8 m c b = at7 m c b :=
  fun b hb => after8_of_ne m c b fun w e => hb (Finset.mem_image.mpr ⟨w, Finset.mem_univ _, e⟩)

/-! ## The arguments end as launched

No host operation writes an argument; launch 0 reads the codes through an input window, which the pipeline leaves as
found; every other launch bypasses the arguments. -/

theorem after9_main_arg0 (c : Dev nD) : after9 m c (Proc.devRef .tc main_arg0) = m ((c : Thread nD τ).loc main_arg0) :=
  calc after9 m c (Proc.devRef .tc main_arg0)
    _ = after8 m c (Proc.devRef .tc main_arg0) := StableHlo.after_of_writes_sub hostOps3 _ hostOps3_writes (by decide)
    _ = after7 m c (Proc.devRef .tc main_arg0) := after8_of_ne m c main_arg0 (by decide)
    _ = after6 m c (Proc.devRef .tc main_arg0) := after7_of_ne m c main_arg0 (by decide)
    _ = V5 m c (Proc.devRef .tc main_arg0) := after6_of_ne m c main_arg0 (by decide)
    _ = m ((c : Thread nD τ).loc main_arg0) := (V5_of m c main_arg0 (by decide)).trans <| (V4_of m c main_arg0 (by decide)).trans <| (V3_of m c main_arg0 (by decide)).trans <| (V2_of m c main_arg0 (by decide)).trans <| (V1_of m c main_arg0 (by decide)).trans rfl

theorem after9_main_arg1 (c : Dev nD) : after9 m c (Proc.devRef .tc main_arg1) = m ((c : Thread nD τ).loc main_arg1) :=
  calc after9 m c (Proc.devRef .tc main_arg1)
    _ = after8 m c (Proc.devRef .tc main_arg1) := StableHlo.after_of_writes_sub hostOps3 _ hostOps3_writes (by decide)
    _ = after7 m c (Proc.devRef .tc main_arg1) := after8_of_ne m c main_arg1 (by decide)
    _ = after6 m c (Proc.devRef .tc main_arg1) := after7_of_ne m c main_arg1 (by decide)
    _ = V5 m c (Proc.devRef .tc main_arg1) := after6_of_ne m c main_arg1 (by decide)
    _ = m ((c : Thread nD τ).loc main_arg1) := (V5_of m c main_arg1 (by decide)).trans <| (V4_of m c main_arg1 (by decide)).trans <| (V3_of m c main_arg1 (by decide)).trans <| (V2_of m c main_arg1 (by decide)).trans <| (V1_of m c main_arg1 (by decide)).trans rfl

theorem after9_main_arg2 (c : Dev nD) : after9 m c (Proc.devRef .tc main_arg2) = m ((c : Thread nD τ).loc main_arg2) :=
  calc after9 m c (Proc.devRef .tc main_arg2)
    _ = after8 m c (Proc.devRef .tc main_arg2) := StableHlo.after_of_writes_sub hostOps3 _ hostOps3_writes (by decide)
    _ = after7 m c (Proc.devRef .tc main_arg2) := after8_of_ne m c main_arg2 (by decide)
    _ = after6 m c (Proc.devRef .tc main_arg2) := after7_of_ne m c main_arg2 (by decide)
    _ = V5 m c (Proc.devRef .tc main_arg2) := after6_of_ne m c main_arg2 (by decide)
    _ = m ((c : Thread nD τ).loc main_arg2) := (V5_of m c main_arg2 (by decide)).trans <| (V4_of m c main_arg2 (by decide)).trans <| (V3_of m c main_arg2 (by decide)).trans <| (V2_of m c main_arg2 (by decide)).trans <| (V1_of m c main_arg2 (by decide)).trans rfl

theorem after9_main_arg3 (c : Dev nD) : after9 m c (Proc.devRef .tc main_arg3) = m ((c : Thread nD τ).loc main_arg3) :=
  calc after9 m c (Proc.devRef .tc main_arg3)
    _ = after8 m c (Proc.devRef .tc main_arg3) := StableHlo.after_of_writes_sub hostOps3 _ hostOps3_writes (by decide)
    _ = after7 m c (Proc.devRef .tc main_arg3) := after8_of_ne m c main_arg3 (by decide)
    _ = after6 m c (Proc.devRef .tc main_arg3) := after7_of_ne m c main_arg3 (by decide)
    _ = V5 m c (Proc.devRef .tc main_arg3) := after6_of_ne m c main_arg3 (by decide)
    _ = m ((c : Thread nD τ).loc main_arg3) := (V5_of m c main_arg3 (by decide)).trans <| (V4_of m c main_arg3 (by decide)).trans <| (V3_of m c main_arg3 (by decide)).trans <| (V2_of m c main_arg3 (by decide)).trans <| (V1_of m c main_arg3 (by decide)).trans rfl

theorem after9_main_arg4 (c : Dev nD) : after9 m c (Proc.devRef .tc main_arg4) = m ((c : Thread nD τ).loc main_arg4) :=
  calc after9 m c (Proc.devRef .tc main_arg4)
    _ = after8 m c (Proc.devRef .tc main_arg4) := StableHlo.after_of_writes_sub hostOps3 _ hostOps3_writes (by decide)
    _ = after7 m c (Proc.devRef .tc main_arg4) := after8_of_ne m c main_arg4 (by decide)
    _ = after6 m c (Proc.devRef .tc main_arg4) := after7_of_ne m c main_arg4 (by decide)
    _ = V5 m c (Proc.devRef .tc main_arg4) := (after6_arr m c 0).trans (((deqDat (at5 m) c).arrAt_in 0 rfl _).trans (deqDat_A (at5 m) c 0))
    _ = m ((c : Thread nD τ).loc main_arg4) := (V5_of m c main_arg4 (by decide)).trans <| (V4_of m c main_arg4 (by decide)).trans <| (V3_of m c main_arg4 (by decide)).trans <| (V2_of m c main_arg4 (by decide)).trans <| (V1_of m c main_arg4 (by decide)).trans rfl

/-! ## The proof data family and what rides along -/

/-- Every launch's proof data, each over the contents its launch starts from: a literal match, so that the library's
    configuration at a numeral reduces to the printed one. -/
def pdats : (p : Fin 3) → (c : Dev nD) → Dat τ (Elt F) Unit ℕ (UR sig nD τ) ℕ (Pipeline.pin (pcfgs (F := F)) adm p) c
  | ⟨0, _⟩ => fun c => deqDat (at5 m) c
  | ⟨1, _⟩ => fun c => innerDat (at6 m) c
  | ⟨2, _⟩ => fun c => mainDat (at7 m) c

/-- No core owes another anything: no pair is recorded and no level assigned. -/
abbrev noPairs : GSem nD τ sig → Finset Unit := fun _ => ∅
abbrev noLevel : GSem nD τ sig → Unit → ℕ := fun _ _ => 0

/-- Beside the buffers every segment carries the generator register at some state and the core owing nothing. -/
abbrev riding (c : Dev nD) : sProp 𝕄 :=
  iprop((∃ r, prngReg c r) ∗ ∃ W, owes (c : Thread nD τ) (0 : CellTallies nD τ sig Unit) W)

/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The class invariant of launch 0 handed back: the register, no semaphore of the kernel's own, the scoped rest. -/
theorem giveBack0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The class invariant of launch 1 handed back: the register, no semaphore of the kernel's own, the scoped rest. -/
theorem giveBack1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- The class invariant of launch 2 handed back: the register, no semaphore of the kernel's own, the scoped rest. -/
theorem giveBack2 (c : Dev nD) : (Pipeline.ΦA spec2 c : sProp 𝕄)
    ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-- At the end of @main what rides along splits into the register, kept beside the buffers, and the core owing nothing. -/
theorem riding_end (c : Dev nD) (H : sProp 𝕄) :
    iprop(H ∗ riding (F := F) c) ⊢ iprop(iprop(H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

/-! ## The launches as segments -/

-- unification with the pinned configuration may unfold plain definitions in a metavariable's type
set_option backward.isDefEq.respectTransparency.types false in
/-- Launch 0 as a segment of @main: entered with every unscoped buffer at V5, left with them at after6.
    Its arrays are taken out of the unscoped buffers on entry and put back at what the pipeline leaves on exit;
    the generator register goes into the launch's invariant and comes back; nothing is owed; the kernel has no
    semaphore of its own. -/
def seg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (deq_obligation (at5 m) c).loose
  hwaits := Pipeline.hwaits_of_owed_zero _ _ _ _ noPairs noLevel 0 fun _ _ => rfl
  pre c := iprop(StableHlo.held (c : Thread nD τ) (Pipeline.ucRefs τ sig) (V5 m c) ∗ riding c)
  post c := iprop(StableHlo.held (c : Thread nD τ) (Pipeline.ucRefs τ sig) (after6 m c) ∗ riding c)
  X c := iprop(∃ r, prngReg c r)
  Y c := iprop(∃ r, prngReg c r)
  Z c := Pipeline.unscopedRest (Ix := Unit) (Name := ℕ) (U := UR sig nD τ) (Lvl := ℕ) spec0 c (at5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    exact giveBack0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at5 m c) (at6 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Launch 1 as a segment of @main: entered with every unscoped buffer at after6, left with them at after7.
    Its arrays are taken out of the unscoped buffers on entry and put back at what the pipeline leaves on exit;
    the generator register goes into the launch's invariant and comes back; nothing is owed; the kernel has no
    semaphore of its own. -/
def seg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (inner_obligation (at6 m) c).loose
  hwaits := Pipeline.hwaits_of_owed_zero _ _ _ _ noPairs noLevel 1 fun _ _ => rfl
  pre c := iprop(StableHlo.held (c : Thread nD τ) (Pipeline.ucRefs τ sig) (after6 m c) ∗ riding c)
  post c := iprop(StableHlo.held (c : Thread nD τ) (Pipeline.ucRefs τ sig) (after7 m c) ∗ riding c)
  X c := iprop(∃ r, prngReg c r)
  Y c := iprop(∃ r, prngReg c r)
  Z c := Pipeline.unscopedRest (Ix := Unit) (Name := ℕ) (U := UR sig nD τ) (Lvl := ℕ) spec1 c (at6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (inner_hout (at6 m) c).trans (giveBack1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at6 m c) (at7 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Launch 2 as a segment of @main: entered with every unscoped buffer at after7, left with them at after8.
    Its arrays are taken out of the unscoped buffers on entry and put back at what the pipeline leaves on exit;
    the generator register goes into the launch's invariant and comes back; nothing is owed; the kernel has no
    semaphore of its own. -/
def seg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (main_obligation (at7 m) c).loose
  hwaits := Pipeline.hwaits_of_owed_zero _ _ _ _ noPairs noLevel 2 fun _ _ => rfl
  pre c := iprop(StableHlo.held (c : Thread nD τ) (Pipeline.ucRefs τ sig) (after7 m c) ∗ riding c)
  post c := iprop(StableHlo.held (c : Thread nD τ) (Pipeline.ucRefs τ sig) (after8 m c) ∗ riding c)
  X c := iprop(∃ r, prngReg c r)
  Y c := iprop(∃ r, prngReg c r)
  Z c := Pipeline.unscopedRest (Ix := Unit) (Name := ℕ) (U := UR sig nD τ) (Lvl := ℕ) spec2 c (at7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (main_hout (at7 m) c).trans (giveBack2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at7 m c) (at8 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ Variants.none noPairs noLevel) :=
  [ .host (hostSeg hostOps0 hostOps0_sub hostOps0_fresh (V0 m)),
    .host (hostSeg hostOps0_1 hostOps0_1_sub hostOps0_1_fresh (V1 m)),
    .host (hostSeg hostOps0_2 hostOps0_2_sub hostOps0_2_fresh (V2 m)),
    .host (hostSeg hostOps0_3 hostOps0_3_sub hostOps0_3_fresh (V3 m)),
    .host (hostSeg hostOps0_4 hostOps0_4_sub hostOps0_4_fresh (V4 m)),
    .region (seg0 m),
    .region (seg1 m),
    .region (seg2 m),
    .host (hostSeg hostOps3 hostOps3_sub hostOps3_fresh (after8 m)) ]

theorem main_is_segs (c : Dev nD) : main (F := F) c = Pipeline.Seg.run (segs m) := (main_chain c).trans (by chain_rfl)

set_option backward.isDefEq.respectTransparency.types false in
/-- THE RUN. From any memory with all counters zero, every weakly fair execution of @main terminates without a
    fault, and in every final state the result buffer holds the last contents named above and the five argument
    buffers hold what they were launched with. -/
theorem run_all : θ_run defs (onTc (τ := τ) (main (F := F))) ⟨m, fun _ => 0, ρ⟩ (fun r => ∀ c : Dev nD,
      r.2.mem ((c.tc : Thread nD τ).loc main_v9) = after9 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ Variants.none noPairs noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c))
    (Tₙ := fun c => iprop(StableHlo.held (c : Thread nD τ) (Pipeline.ucRefs τ sig) (after9 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => riding_end c _⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = after9 m c b)
    (hfin := fun c s' => by
      iintro ⟨⟨Hh, -⟩, HSI⟩
      unfold StableHlo.held
      imodintro
      iapply (pointsTo_read_all (Pipeline.ucRefs τ sig) (fun b => (((c : Thread nD τ)).1, b)) (after9 m c) s')
      isplitl [Hh] <;> iassumption)
    (hQ := fun s h c =>
      ⟨h c _ (mem_uc main_v9 (by decide)),
       (h c _ (mem_uc main_arg0 (by decide))).trans (after9_main_arg0 m c),
       (h c _ (mem_uc main_arg1 (by decide))).trans (after9_main_arg1 m c),
       (h c _ (mem_uc main_arg2 (by decide))).trans (after9_main_arg2 m c),
       (h c _ (mem_uc main_arg3 (by decide))).trans (after9_main_arg3 m c),
       (h c _ (mem_uc main_arg4 (by decide))).trans (after9_main_arg4 m c)⟩)

end Cert.KernelIdeal.Hand

end
-- ==== Proof.Spec.lean ====
/-
  What both programs compute, written once over the extended reals and over literal index ranges.

  A weight matrix is stored as four-bit codes into a table of sixteen levels, with one scale per run of 64
  consecutive entries (row-major over the 4096 x 4096 matrix): entry (o, d) of the weight is
  level (code (o, d)) * scale (o * 64 + d / 64).  The layer's output at batch b, position t, feature o is the
  base product  sum_d x(b,t,d) * weight(o,d)  plus twice the low-rank correction
  sum_r (sum_d x(b,t,d) * A(r,d)) * B(o,r)  with r over the 64 rank coordinates.
-/
import Idealize.ShloMosaic.PureOps.Ideal
import Idealize.ShloMosaic.Lib.ValueIdx

noncomputable section

namespace Cert.Spec

open Idealize.ShloMosaic Idealize.ShloMosaic.ValueIdx
open scoped BigOperators

/-- The sixteen levels, as binary32 words, in code order. -/
def tab : Fin 16 → BitVec 32
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | ⟨_ + 16, h⟩ => absurd h (Nat.not_lt.2 (Nat.le_add_left _ _))

/-- The level a code word names (codes are read modulo 16; the statement's precondition keeps them below 16). -/
def level (w : BitVec 32) : EReal :=
  Ideal.ofBits .f32 (tab ⟨w.toNat % 16, Nat.mod_lt _ (by decide)⟩)

/-- The factor 2 of the low-rank correction, as the word both programs print. -/
def two : EReal := Ideal.ofBits .f32 0x40000000#32

/-- Entry (o, d) of the dequantised weight: its level times the scale of its run of 64. -/
def weight (codes : (⟨2, ![4096, 4096]⟩ : Shape).Idx → BitVec 32) (am : (⟨1, ![262144]⟩ : Shape).Idx → EReal)
    (o d : Fin 4096) : EReal :=
  level (codes (ix2 o d)) * am (ix1 ⟨o.val * 64 + d.val / 64, by have := o.isLt; have := d.isLt; omega⟩)

/-- The layer's output at (b, t, o). -/
def out (x : (⟨3, ![4, 2048, 4096]⟩ : Shape).Idx → EReal) (A : (⟨2, ![64, 4096]⟩ : Shape).Idx → EReal)
    (B : (⟨2, ![4096, 64]⟩ : Shape).Idx → EReal) (am : (⟨1, ![262144]⟩ : Shape).Idx → EReal)
    (codes : (⟨2, ![4096, 4096]⟩ : Shape).Idx → BitVec 32) (b : Fin 4) (t : Fin 2048) (o : Fin 4096) : EReal :=
  (∑ d : Fin 4096, x (ix3 b t d) * weight codes am o d)
    + two * ∑ r : Fin 64, (∑ d : Fin 4096, x (ix3 b t d) * A (ix2 r d)) * B (ix2 o r)

end Cert.Spec

end
-- ==== Proof.KI.DeqValue.lean ====
/-
  The first launch's value, entry by entry.

  The body's stored band is, at entry (p, q), the level named by the entry's four-bit code times the scale of
  the entry's run of 64 consecutive entries of its row.  Two facts make this: the four-deep selection tree on
  the code's low four bits is a lookup in the sixteen-level table when the code is below 16, and the scales'
  layout chain (a trailing unit axis, 64 copies along it, flattening) puts scale (p, q / 64) at entry (p, q).
  The launch then writes band t of the weight from band t of the codes and band t of the scales, for each of
  the 32 bands, so the whole weight array ends as the same formula over the whole arrays.
-/
import proofs.«406961_j15015205667342_3_alg».proof.Proof.KI.Deq
import proofs.«406961_j15015205667342_3_alg».proof.Proof.Spec
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## One entry of the band: the table lookup on a word -/

/-- The test "bit 0 of the word is set", as the body writes it: mask with 1, compare with 1. -/
def bitLow (w : BitVec 32) : BitVec 1 := IntOp.cmpi .eq (IntOp.andi w 1#32) 1#32
/-- The test "bit j of the word is set": arithmetic shift right by j, mask with 1, compare with 1. -/
def bitAt (j w : BitVec 32) : BitVec 1 := IntOp.cmpi .eq (IntOp.andi (IntOp.shrsi .vector w j) 1#32) 1#32

/-- The level a binary32 word encodes. -/
abbrev lvl (b : BitVec 32) : Ideal .f32 := Ideal.ofBits .f32 b

/-- The body's selection tree on one code word: bit 3 chooses the upper or lower eight levels, bit 2 the
    four within those, bit 1 the pair, bit 0 the level. -/
def lookup (w : BitVec 32) : Ideal .f32 :=
  Scalar.select (bitAt 3#32 w)
    (Scalar.select (bitAt 2#32 w)
      (Scalar.select (bitAt 1#32 w) (Scalar.select (bitLow w) (lvl 0x3F800000#32) (lvl 0x3F3913B3#32))
                                     (Scalar.select (bitLow w) (lvl 0x3F1007AB#32) (lvl 0x3EE1A4B8#32)))
      (Scalar.select (bitAt 1#32 w) (Scalar.select (bitLow w) (lvl 0x3EAD033A#32) (lvl 0x3E7C04DD#32))
                                     (Scalar.select (bitLow w) (lvl 0x3E24CAE3#32) (lvl 0x3DA2FAFF#32))))
    (Scalar.select (bitAt 2#32 w)
      (Scalar.select (bitAt 1#32 w) (Scalar.select (bitLow w) (lvl 0x00000000#32) (lvl 0xBDBA7871#32))
                                     (Scalar.select (bitLow w) (lvl 0xBE3D353F#32) (lvl 0xBE91A24D#32)))
      (Scalar.select (bitAt 1#32 w) (Scalar.select (bitLow w) (lvl 0xBECA32A0#32) (lvl 0xBF066B30#32))
                                     (Scalar.select (bitLow w) (lvl 0xBF3239B1#32) (lvl 0xBF800000#32))))

/-- On the sixteen words 0 … 15 the tree yields the table's entry. -/
theorem lookup_ofNat (k : Fin 16) : lookup (BitVec.ofNat 32 k.val) = lvl (Cert.Spec.tab k) := by
  fin_cases k <;> rfl

/-- A word below 16 is looked up to its level. -/
theorem lookup_eq_level (w : BitVec 32) (hw : w.toNat < 16) : lookup w = Cert.Spec.level w := by
  have e : BitVec.ofNat 32 w.toNat = w := by
    apply BitVec.eq_of_toNat_eq; rw [BitVec.toNat_ofNat]; omega
  have ek : (⟨w.toNat % 16, Nat.mod_lt _ (by decide)⟩ : Fin 16) = ⟨w.toNat, hw⟩ := Fin.ext (Nat.mod_eq_of_lt hw)
  have hk := lookup_ofNat ⟨w.toNat, hw⟩
  rw [e] at hk
  unfold Cert.Spec.level
  rw [ek]
  exact hk

/-- The stored band at an entry, before the layout of the scales is read: the looked-up level of the entry's
    code times the spread scale at the entry (every operation of the tree acts entry by entry, and the final
    change of float format is the identity on extended reals). -/
theorem band_entry (codes : Vec Ideal S128x4096 .i32) (sc : FVec Ideal S128x4096 .f32) (i : S128x4096.Idx) :
    k0_pay1 (F := Ideal) sc (k0_pay3 codes) (k0_pay4 codes) (k0_pay5 codes) (k0_pay6 codes) (k0_pay7 codes)
      (k0_pay8 codes) (k0_pay9 codes) i = lookup (codes i) * sc i := rfl

/-! ## The scales spread over their runs -/

/-- The scales' layout chain at an entry: the 128 x 64 block is given a trailing unit axis, repeated 64 times
    along it, and flattened row-major to 128 x 4096, so entry (p, q) reads the scale (p, q / 64): position q of
    a row is the (q % 64)-th copy of the row's (q / 64)-th scale. -/
theorem scales_entry (am : Vec Ideal S128x64 .f32) (p : Fin 128) (q : Fin 4096) :
    k0_pay2 (F := Ideal) am (ix2 p q) = am (ix2 p ⟨q.val / 64, by have := q.isLt; omega⟩) := by
  have hq := q.isLt
  have hp := p.isLt
  unfold k0_pay2
  -- flattening [128, 64, 64] row-major: (p, q) comes from (p, q / 64, q % 64)
  refine (shapeCast_apply _ _ (ix2 p q) (ix3 p (⟨q.val / 64, by omega⟩ : Fin 64) (⟨q.val % 64, by omega⟩ : Fin 64)) ?_).trans ?_
  · rw [Shape.rowMajor_val_three, Shape.rowMajor_val_two]
    show (p.val * 64 + q.val / 64) * 64 + q.val % 64 = p.val * 4096 + q.val
    omega
  -- the repetition along the last axis reads the unit axis at 0
  refine (broadcastTo_apply _ _ (ix3 p (⟨q.val / 64, by omega⟩ : Fin 64) (⟨q.val % 64, by omega⟩ : Fin 64))
    (ix3 p (⟨q.val / 64, by omega⟩ : Fin 64) (⟨0, Nat.one_pos⟩ : Fin 1)) ?_).trans ?_
  · intro a
    match a with
    | ⟨0, _⟩ => rfl
    | ⟨1, _⟩ => rfl
    | ⟨2, _⟩ => rfl
  -- the two casts between equal shapes are the identity; the cast adding the trailing unit axis keeps (p, c)
  rw [shapeCast_self, shapeCast_self]
  refine shapeCast_apply _ _ _ (ix2 p (⟨q.val / 64, by omega⟩ : Fin 64)) ?_
  rw [Shape.rowMajor_val_three, Shape.rowMajor_val_two]
  show p.val * 64 + q.val / 64 = (p.val * 64 + q.val / 64) * 1 + 0
  omega

/-! ## The band the body stores, entry by entry -/

/-- Entry (p, q) of the stored band is the level of the entry's code times the scale of the entry's run of 64,
    when every code of the band is below 16. -/
theorem deq_apply (codes : Vec Ideal S128x4096 .i32) (am : Vec Ideal S128x64 .f32)
    (hc : ∀ i, (codes i).toNat < 16) (p : Fin 128) (q : Fin 4096) :
    deq (F := Ideal) codes am (ix2 p q)
      = Cert.Spec.level (codes (ix2 p q)) * am (ix2 p ⟨q.val / 64, by have := q.isLt; omega⟩) := by
  have hz : (![0, 0] : Fin 2 → Nat) = fun _ => 0 := by funext a; fin_cases a <;> rfl
  unfold deq
  rw [View.canon_unit_zero hz]
  simp only [View.ld_unit_zero (S := S128x4096) hz, View.ld_unit_zero (S := S128x64) hz]
  rw [band_entry, scales_entry, lookup_eq_level _ (hc _)]

/-! ## From the 32 bands to the whole weight array -/

/-- The whole weight from the whole arrays: entry (o, d) is the level of code (o, d) times the scale of the
    entry's run, scale (o, d / 64) of the 4096 x 64 array of scales. -/
def weightOf (codes : Vec Ideal S4096x4096 .i32) (am : Vec Ideal S4096x64 .f32) : Vec Ideal S4096x4096 .bf16 :=
  fun j => Cert.Spec.level (codes j)
    * am (ix2 (⟨(j 0).val, idx2_lt0 j⟩ : Fin 4096) (⟨(j 1).val / 64, by have := idx2_lt1 j; omega⟩ : Fin 64))

/-- The same, at an entry named by its two coordinates. -/
theorem weightOf_apply (codes : Vec Ideal S4096x4096 .i32) (am : Vec Ideal S4096x64 .f32) (o d : Fin 4096) :
    weightOf codes am (ix2 o d)
      = Cert.Spec.level (codes (ix2 o d)) * am (ix2 o (⟨d.val / 64, by have := d.isLt; omega⟩ : Fin 64)) := rfl

/-- Band t of the weight, from band t of the codes and band t of the scales: row p of the band is row
    128 t + p of the arrays. -/
theorem band_of_arrays (codes : Vec Ideal S4096x4096 .i32) (am : Vec Ideal S4096x64 .f32)
    (hc : ∀ i, (codes i).toNat < 16) (t : Nat) (ht : t < 32)
    (cb : Vec Ideal S128x4096 .i32) (sb : Vec Ideal S128x64 .f32)
    (hcb : ∀ (p : Fin 128) (q : Fin 4096),
      cb (ix2 p q) = codes (ix2 (⟨t * 128 + p.val, by have := p.isLt; omega⟩ : Fin 4096) q))
    (hsb : ∀ (p : Fin 128) (r : Fin 64),
      sb (ix2 p r) = am (ix2 (⟨t * 128 + p.val, by have := p.isLt; omega⟩ : Fin 4096) r))
    (p : Fin 128) (q : Fin 4096) :
    deq (F := Ideal) cb sb (ix2 p q)
      = weightOf codes am (ix2 (⟨t * 128 + p.val, by have := p.isLt; omega⟩ : Fin 4096) q) := by
  have hcb' : ∀ i, (cb i).toNat < 16 := fun i => by
    rw [(congrArg cb (eq_ix2 i)).trans (hcb (i 0) (i 1))]; exact hc _
  rw [deq_apply cb sb hcb' p q, hcb, hsb, weightOf_apply]

section Launch
variable (V : (c : Dev nD) → (b : Ref sig .tc) → Buf (Elt Ideal) ((c : Thread nD τ).loc b))

/-- The code array as the launch finds it, -/
abbrev codesAt (c : Dev nD) : Vec Ideal S4096x4096 .i32 := V c main_arg4
/-- and the array of scales. -/
abbrev scalesAt (c : Dev nD) : Vec Ideal S4096x64 .f32 := V c main_v5

/-- The three index maps over the grid: at band t each window's block is block row t, block column 0. -/
theorem band_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Band t of the codes is rows 128 t … 128 t + 127 of the code array. -/
theorem codes_band (c : Dev nD) (t : Fin cfg0.N) (p : Fin 128) (q : Fin 4096) :
    (blk0 V c 0 t : Vec Ideal S128x4096 .i32) (ix2 p q)
      = codesAt V c (ix2 (⟨t.val * 128 + p.val, by have := p.isLt; have : t.val < 32 := N_0 ▸ t.isLt; omega⟩ : Fin 4096) q) := by
  obtain ⟨i0, i1, -⟩ := band_index t
  show V c main_arg4 (((cfg0.win 0).blk t).view.emb (ix2 p q)) = V c main_arg4 _
  refine congrArg (V c main_arg4) (funext fun a => Fin.ext ?_)
  match a with
  | ⟨0, _⟩ => show win0_0.index t (0 : Fin 2) * 128 + 1 * p.val = t.val * 128 + p.val; omega
  | ⟨1, _⟩ => show win0_0.index t (1 : Fin 2) * 4096 + 1 * q.val = q.val; omega

/-- Band t of the scales is the same rows of the array of scales. -/
theorem scales_band (c : Dev nD) (t : Fin cfg0.N) (p : Fin 128) (r : Fin 64) :
    (blk0 V c 1 t : Vec Ideal S128x64 .f32) (ix2 p r)
      = scalesAt V c (ix2 (⟨t.val * 128 + p.val, by have := p.isLt; have : t.val < 32 := N_0 ▸ t.isLt; omega⟩ : Fin 4096) r) := by
  obtain ⟨-, -, i0, i1, -⟩ := band_index t
  show V c main_v5 (((cfg0.win 1).blk t).view.emb (ix2 p r)) = V c main_v5 _
  refine congrArg (V c main_v5) (funext fun a => Fin.ext ?_)
  match a with
  | ⟨0, _⟩ => show win0_1.index t (0 : Fin 2) * 128 + 1 * p.val = t.val * 128 + p.val; omega
  | ⟨1, _⟩ => show win0_1.index t (1 : Fin 2) * 64 + 1 * r.val = r.val; omega

/-- What band t writes back is band t of the whole weight. -/
theorem flushed_band (c : Dev nD) (hc : ∀ i, (codesAt V c i).toNat < 16) (t : Fin cfg0.N) :
    (deqDat (F := Ideal) V c).flushed 2 t
      = ((cfg0.win 2).blk t).view.read (Elt Ideal) (weightOf (codesAt V c) (scalesAt V c)) := by
  have ht : t.val < 32 := N_0 ▸ t.isLt
  obtain ⟨-, -, -, -, i0, i1⟩ := band_index t
  show (cfg0.win 2).cut (grid0.coords t) ((deqDat (F := Ideal) V c).after 2 t) = _
  rw [deqDat_after2]
  funext j
  show deq (F := Ideal) (blk0 V c 0 t) (blk0 V c 1 t) j
    = weightOf (codesAt V c) (scalesAt V c) (((cfg0.win 2).blk t).view.emb j)
  refine (congrArg (deq (F := Ideal) (blk0 V c 0 t) (blk0 V c 1 t)) (eq_ix2 (n0 := 128) (n1 := 4096) j)).trans ?_
  refine (band_of_arrays (codesAt V c) (scalesAt V c) hc t.val ht (blk0 V c 0 t) (blk0 V c 1 t)
    (codes_band V c t) (scales_band V c t) (j 0) (j 1)).trans ?_
  refine congrArg (weightOf (codesAt V c) (scalesAt V c)) (funext fun a => Fin.ext ?_)
  match a with
  | ⟨0, _⟩ => show t.val * 128 + (j 0).val = win0_2.index t (0 : Fin 2) * 128 + 1 * (j 0).val; omega
  | ⟨1, _⟩ => show (j 1).val = win0_2.index t (1 : Fin 2) * 4096 + 1 * (j 1).val; omega

/-- Row r of the weight is in the band of point r / 128, and every point writes its band back. -/
theorem band_cover (i : S4096x4096.Idx) :
    ∃ t : Fin cfg0.N, (cfg0.win 2).flush t = true ∧ i ∈ ((cfg0.win 2).blk t).view.set := by
  have h0 : (i 0).val < 4096 := idx2_lt0 i
  have h1 : (i 1).val < 4096 := idx2_lt1 i
  have hN : cfg0.N = 32 := N_0
  let t : Fin cfg0.N := ⟨(i 0).val / 128, by rw [hN]; omega⟩
  have htv : t.val = (i 0).val / 128 := rfl
  obtain ⟨-, -, -, -, i0, i1⟩ := band_index t
  refine ⟨t, flush0_2 t, ?_⟩
  show i ∈ ((View.whole main_v6).slice (win0_2.rect t)).set
  rw [View.set_slice_whole, Rect.mem_set_unit]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-- After the launch the weight array holds, at every entry, the level of the entry's code times the scale of
    the entry's run of 64, when every code of the code array is below 16. -/
theorem deq_final (c : Dev nD) (hc : ∀ i, (codesAt V c i).toNat < 16) :
    (deqDat (F := Ideal) V c).arrAt 2 cfg0.N = weightOf (codesAt V c) (scalesAt V c) :=
  (deqDat (F := Ideal) V c).arrAt_eq_of_cover 2 (weightOf (codesAt V c) (scalesAt V c))
    (fun t _ => flushed_band V c hc t) (fun i => band_cover i)

end Launch

end Cert.KernelIdeal.Hand

end
-- ==== Proof.KI.HostVals.lean ====
/-
  What the host side of the kernel program leaves in the buffers its three launches read, and what the final regrouping
  makes of the last launch's result, each read at one index: the activations regrouped as 8192 rows, the two low-rank
  factors widened to 128 with zeros, the scales regrouped as 64 per output row, the code matrix untouched.
-/
import proofs.«406961_j15015205667342_3_alg».proof.Proof.Gen.KernelIdeal.Regions
import Idealize.ShloMosaic.Lib.StableHlo.Run
import Idealize.ShloMosaic.Lib.ValueIdx
import Idealize.ShloMosaic.Lib.Pipeline.Value
import Idealize.ShloMosaic.Lib.KernelVsHost

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The code matrix -/

/-- No host operation writes the code matrix: the first launch finds the launch contents. -/
theorem V5_arg4 : V5 m c main_arg4 = m ((c : Thread nD τ).loc main_arg4) :=
  (V5_of m c main_arg4 (by decide)).trans <| (V4_of m c main_arg4 (by decide)).trans <|
    (V3_of m c main_arg4 (by decide)).trans <| (V2_of m c main_arg4 (by decide)).trans <|
    (V1_of m c main_arg4 (by decide)).trans rfl

/-! ## The activations as 8192 rows -/

/-- The regrouped activations as a whole: the argument's elements in row-major order under the shape [8192, 4096]. -/
theorem V5_v0 : (V5 m c main_v0 : S8192x4096.Idx → EReal)
    = shapeCast S8192x4096 (m ((c : Thread nD τ).loc main_arg0) : S4x2048x4096.Idx → EReal) shapeCasts_S4x2048x4096_S8192x4096 := by
  refine ((V5_of m c main_v0 (by decide)).trans <| (V4_of m c main_v0 (by decide)).trans <|
    (V3_of m c main_v0 (by decide)).trans <| (V2_of m c main_v0 (by decide)).trans ?_)
  dsimp only [V1, V0, hostOps0]
  after_results
  rfl

/-- Row r of the 8192 is batch r / 2048, position r % 2048. -/
theorem V5_x (r : Fin 8192) (d : Fin 4096) :
    (V5 m c main_v0 : S8192x4096.Idx → EReal) (ix2 r d)
      = (m ((c : Thread nD τ).loc main_arg0) : S4x2048x4096.Idx → EReal)
          (ix3 (⟨r.val / 2048, by have := r.isLt; omega⟩ : Fin 4) (⟨r.val % 2048, Nat.mod_lt _ (by decide)⟩ : Fin 2048) d) := by
  refine (congrFun (V5_v0 m c) _).trans (shapeCast_apply _ _ _ _ ?_)
  show (S4x2048x4096.rowMajor _).val = (S8192x4096.rowMajor _).val
  rw [Shape.rowMajor_val_three, Shape.rowMajor_val_two]
  show (r.val / 2048 * 2048 + r.val % 2048) * 4096 + d.val = r.val * 4096 + d.val
  have := r.isLt
  omega

/-! ## The padding value -/

/-- The word 0 converted to a float is 0. -/
theorem pad_value : (sitofp (F := Ideal) .bf16 (constantI S_ 32 0#32) : S_.Idx → EReal) (Shape.Idx.first h_S_) = 0 := by
  show (((0#32 : BitVec 32).toInt : ℝ) : EReal) = 0
  rw [BitVec.toInt_zero, Int.cast_zero, EReal.coe_zero]

/-! ## The factor A with 64 zero rows appended -/

/-- The widened A as a whole: A (its format change the identity on extended reals) padded below with the converted
    word 0. -/
theorem V5_v3 : (V5 m c main_v3 : S128x4096.Idx → EReal)
    = pad S128x4096 ![0, 0] ![64, 0] ![0, 0]
        (truncf .bf16 (m ((c : Thread nD τ).loc main_arg1) : FVec Ideal S64x4096 .f32) bitsLt_bf16_f32 : FVec Ideal S64x4096 .bf16)
        (sitofp (F := Ideal) .bf16 (constantI S_ 32 0#32) : FVec Ideal S_ .bf16) pads_S64x4096_S128x4096_0640_000 h_S_ := by
  refine ((V5_of m c main_v3 (by decide)).trans <| (V4_of m c main_v3 (by decide)).trans <|
    (V3_of m c main_v3 (by decide)).trans ?_)
  dsimp only [V2, V1, V0, hostOps0_1, hostOps0]
  after_results
  rfl

/-- Row r of the widened A is A's row r below 64 and zero from 64 on. -/
theorem V5_A (r : Fin 128) (d : Fin 4096) :
    (V5 m c main_v3 : S128x4096.Idx → EReal) (ix2 r d)
      = (if h : r.val < 64 then (m ((c : Thread nD τ).loc main_arg1) : S64x4096.Idx → EReal) (ix2 (⟨r.val, h⟩ : Fin 64) d) else 0 : EReal) := by
  refine (congrFun (V5_v3 m c) _).trans ?_
  by_cases h : r.val < 64
  · rw [dif_pos h]
    refine (pad_apply_of_inside _ _ _ _ _ _ _ (ix2 r d) (ix2 (⟨r.val, h⟩ : Fin 64) d) (fun a => ?_)).trans rfl
    match a with
    | ⟨0, _⟩ => show r.val = 0 + r.val * (0 + 1); omega
    | ⟨1, _⟩ => show d.val = 0 + d.val * (0 + 1); omega
  · rw [dif_neg h]
    refine (pad_apply_of_not_inside _ _ _ _ _ _ _ (ix2 r d) (0 : Fin 2) ?_).trans (pad_value)
    show ¬(0 ≤ r.val ∧ (r.val - 0) % (0 + 1) = 0 ∧ (r.val - 0) / (0 + 1) < 64)
    omega

/-! ## The factor B with 64 zero columns appended -/

/-- The widened B as a whole. -/
theorem V5_v4 : (V5 m c main_v4 : S4096x128.Idx → EReal)
    = pad S4096x128 ![0, 0] ![0, 64] ![0, 0]
        (truncf .bf16 (m ((c : Thread nD τ).loc main_arg2) : FVec Ideal S4096x64 .f32) bitsLt_bf16_f32 : FVec Ideal S4096x64 .bf16)
        (sitofp (F := Ideal) .bf16 (constantI S_ 32 0#32) : FVec Ideal S_ .bf16) pads_S4096x64_S4096x128_000_0640 h_S_ := by
  refine ((V5_of m c main_v4 (by decide)).trans ?_)
  dsimp only [V4, V3, V2, V1, V0, hostOps0_3, hostOps0_2, hostOps0_1, hostOps0]
  after_results
  rfl

/-- Column r of the widened B is B's column r below 64 and zero from 64 on. -/
theorem V5_B (o : Fin 4096) (r : Fin 128) :
    (V5 m c main_v4 : S4096x128.Idx → EReal) (ix2 o r)
      = (if h : r.val < 64 then (m ((c : Thread nD τ).loc main_arg2) : S4096x64.Idx → EReal) (ix2 o (⟨r.val, h⟩ : Fin 64)) else 0 : EReal) := by
  refine (congrFun (V5_v4 m c) _).trans ?_
  by_cases h : r.val < 64
  · rw [dif_pos h]
    refine (pad_apply_of_inside _ _ _ _ _ _ _ (ix2 o r) (ix2 o (⟨r.val, h⟩ : Fin 64)) (fun a => ?_)).trans rfl
    match a with
    | ⟨0, _⟩ => show o.val = 0 + o.val * (0 + 1); omega
    | ⟨1, _⟩ => show r.val = 0 + r.val * (0 + 1); omega
  · rw [dif_neg h]
    refine (pad_apply_of_not_inside _ _ _ _ _ _ _ (ix2 o r) (1 : Fin 2) ?_).trans (pad_value)
    show ¬(0 ≤ r.val ∧ (r.val - 0) % (0 + 1) = 0 ∧ (r.val - 0) / (0 + 1) < 64)
    omega

/-! ## The scales, 64 per output row -/

/-- The regrouped scales as a whole. -/
theorem V5_v5 : (V5 m c main_v5 : S4096x64.Idx → EReal)
    = shapeCast S4096x64 (m ((c : Thread nD τ).loc main_arg3) : S262144.Idx → EReal) shapeCasts_S262144_S4096x64 := by
  have h3 : V4 m c main_arg3 = m ((c : Thread nD τ).loc main_arg3) :=
    (V4_of m c main_arg3 (by decide)).trans <| (V3_of m c main_arg3 (by decide)).trans <|
      (V2_of m c main_arg3 (by decide)).trans <| (V1_of m c main_arg3 (by decide)).trans rfl
  have e : (V5 m c main_v5 : S4096x64.Idx → EReal)
      = shapeCast S4096x64 (V4 m c main_arg3 : S262144.Idx → EReal) shapeCasts_S262144_S4096x64 := by
    dsimp only [V5, hostOps0_4]
    generalize V4 m c = W
    after_results
    rfl
  rw [e, h3]

/-- Scale j of output row o is scale o * 64 + j of the flat list. -/
theorem V5_scale (o : Fin 4096) (j : Fin 64) :
    (V5 m c main_v5 : S4096x64.Idx → EReal) (ix2 o j)
      = (m ((c : Thread nD τ).loc main_arg3) : S262144.Idx → EReal)
          (ix1 (⟨o.val * 64 + j.val, by have := o.isLt; have := j.isLt; omega⟩ : Fin 262144)) := by
  refine (congrFun (V5_v5 m c) _).trans (shapeCast_apply _ _ _ _ ?_)
  show (S262144.rowMajor _).val = (S4096x64.rowMajor _).val
  rw [Shape.rowMajor_val_one, Shape.rowMajor_val_two]
  rfl

/-! ## The result regrouped as [4, 2048, 4096] -/

/-- From any contents W of the device's buffers, the final regrouping leaves at (b, t, o) of the result what W has at
    row b * 2048 + t, column o of the last launch's array. -/
theorem after_out (W : Valuation τ sig (Elt Ideal)) (b : Fin 4) (t : Fin 2048) (o : Fin 4096) :
    (StableHlo.after hostOps3 W main_v9 : S4x2048x4096.Idx → EReal) (ix3 b t o)
      = (W main_v8 : S8192x4096.Idx → EReal)
          (ix2 (⟨b.val * 2048 + t.val, by have := b.isLt; have := t.isLt; omega⟩ : Fin 8192) o) := by
  have e : (StableHlo.after hostOps3 W main_v9 : S4x2048x4096.Idx → EReal)
      = shapeCast S4x2048x4096 (W main_v8 : S8192x4096.Idx → EReal) shapeCasts_S8192x4096_S4x2048x4096 := by
    dsimp only [hostOps3]
    after_results
    rfl
  refine (congrFun e _).trans (shapeCast_apply _ _ _ _ ?_)
  show (S8192x4096.rowMajor _).val = (S4x2048x4096.rowMajor _).val
  rw [Shape.rowMajor_val_two, Shape.rowMajor_val_three]
  rfl

/-- Whatever the launches leave, the result at (b, t, o) is the last launch's row b * 2048 + t, column o. -/
theorem V9_out (outs : Outs (F := Ideal)) (b : Fin 4) (t : Fin 2048) (o : Fin 4096) :
    (V9 m outs c main_v9 : S4x2048x4096.Idx → EReal) (ix3 b t o)
      = (V8 m outs c main_v8 : S8192x4096.Idx → EReal)
          (ix2 (⟨b.val * 2048 + t.val, by have := b.isLt; have := t.isLt; omega⟩ : Fin 8192) o) :=
  after_out (V8 m outs c) b t o

end Cert.KernelIdeal.Hand

end
-- ==== Proof.SumLaws.lean ====
/-
  Two laws of finite sums on the extended reals.  The extended reals under addition are a commutative monoid, so a
  finite sum may be cut into consecutive runs and the runs added in order, and terms that are zero may be left out;
  nothing here needs a term to be finite.
-/
import Mathlib.Algebra.BigOperators.Fin
import Mathlib.Data.EReal.Basic

noncomputable section

namespace Cert.Sums

open scoped BigOperators

/-- A sum over m + n positions is the sum over the first m positions plus the sum over the n positions after them. -/
theorem sum_split (m n : Nat) (f : Fin (m + n) → EReal) :
    ∑ d : Fin (m + n), f d
      = (∑ e : Fin m, f ⟨e.val, by have := e.isLt; omega⟩) + ∑ e : Fin n, f ⟨m + e.val, by have := e.isLt; omega⟩ := by
  rw [Fin.sum_univ_add]
  rfl

/-- A 4096-long sum taken as four consecutive runs of 1024, the runs added one after the other onto zero: how a
    contraction accumulated in four steps groups its terms. -/
def fourRuns (f : Fin 4096 → EReal) : EReal :=
  (((0 + ∑ e : Fin 1024, f ⟨e.val, by omega⟩) + ∑ e : Fin 1024, f ⟨1024 + e.val, by omega⟩)
      + ∑ e : Fin 1024, f ⟨2048 + e.val, by omega⟩)
    + ∑ e : Fin 1024, f ⟨3072 + e.val, by omega⟩

/-- The four runs added in order are the whole sum: cut the last run off three times. -/
theorem fourRuns_eq (f : Fin 4096 → EReal) : fourRuns f = ∑ d : Fin 4096, f d := by
  have h1 : ∑ d : Fin 4096, f d
      = (∑ e : Fin 3072, f ⟨e.val, by omega⟩) + ∑ e : Fin 1024, f ⟨3072 + e.val, by omega⟩ :=
    sum_split 3072 1024 f
  have h2 : ∑ e : Fin 3072, f ⟨e.val, by omega⟩
      = (∑ e : Fin 2048, f ⟨e.val, by omega⟩) + ∑ e : Fin 1024, f ⟨2048 + e.val, by omega⟩ :=
    sum_split 2048 1024 (fun e : Fin 3072 => f ⟨e.val, by omega⟩)
  have h3 : ∑ e : Fin 2048, f ⟨e.val, by omega⟩
      = (∑ e : Fin 1024, f ⟨e.val, by omega⟩) + ∑ e : Fin 1024, f ⟨1024 + e.val, by omega⟩ :=
    sum_split 1024 1024 (fun e : Fin 2048 => f ⟨e.val, by omega⟩)
  unfold fourRuns
  rw [zero_add, h1, h2, h3]

/-- The four-run sum depends only on the terms. -/
theorem fourRuns_congr {f g : Fin 4096 → EReal} (h : ∀ d, f d = g d) : fourRuns f = fourRuns g := by
  have e : f = g := funext h
  rw [e]

/-- A 128-long sum whose terms vanish from position 64 on is the sum of its first 64 terms. -/
theorem padded_sum (g : Fin 128 → EReal) (h : ∀ r : Fin 128, 64 ≤ r.val → g r = 0) :
    ∑ r : Fin 128, g r = ∑ r : Fin 64, g ⟨r.val, by omega⟩ := by
  have hs : ∑ r : Fin 128, g r
      = (∑ r : Fin 64, g ⟨r.val, by omega⟩) + ∑ r : Fin 64, g ⟨64 + r.val, by omega⟩ :=
    sum_split 64 64 g
  have hz : ∑ r : Fin 64, g ⟨64 + r.val, by omega⟩ = 0 :=
    Finset.sum_eq_zero fun r _ => h _ (Nat.le_add_right 64 r.val)
  rw [hs, hz, add_zero]

end Cert.Sums

end
-- ==== Proof.KI.InnerValue.lean ====
/-
  The second launch's value.

  Each of the 8 row blocks of x (1024 rows) is taken through 4 contraction steps of 1024 columns.  A step adds, at
  entry (p, q) of the 1024 x 128 accumulator, the sum over its 1024 columns e of x-block(p, e) times a-block(q, e)
  (both operands are contracted along their second axis); the first step of a row block starts from zero.  So after
  the fourth step the accumulator holds the four run sums added in order onto zero, and that is what the launch
  writes back to the first output: the projection of a row of x onto a row of the padded factor, its 4096 products
  grouped in four consecutive runs.  The second output is written at every point with the point's block of x,
  unchanged in value, so it ends as x.
-/
import proofs.«406961_j15015205667342_3_alg».proof.Proof.KI.Inner
import proofs.«406961_j15015205667342_3_alg».proof.Proof.SumLaws
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## One step of the accumulation at an entry -/

/-- The copy of a block of x: the change of float format is the identity on extended reals. -/
theorem copy_eq (x : Vec Ideal S1024x1024 .f32) : k1_pay1 (F := Ideal) x = x := by
  unfold k1_pay1
  rw [shapeCast_self]
  rfl

/-- Likewise the copy of the accumulator to the first output. -/
theorem accCopy_eq (s : Vec Ideal S1024x128 .f32) : k1_pay4 (F := Ideal) s = s := rfl

/-- The reset value of the accumulator is zero at every entry. -/
theorem reset_entry (j : S1024x128.Idx) : k1_pay2 (F := Ideal) j = 0 := by
  unfold k1_pay2
  rw [shapeCast_self]
  exact Ideal.ofBits_zero_f32

/-! The product's index bookkeeping: at result entry i and contraction position r the left operand is read at
    (i's row, r) and the right operand at (i's column, r): both operands are contracted along their second axis. -/

theorem prod_lhs0 (i : S1024x128.Idx) (r : dot_S1024x1024_S128x1024_S1024x128_1_1_0_0_n_n.contr.Idx) :
    (dot_S1024x1024_S128x1024_S1024x128_1_1_0_0_n_n.lhsIdx i r 0).val = (i 0).val := by
  unfold DotDims.lhsIdx
  rw [dif_neg (show ¬(0 : Fin S1024x1024.rank) ∈ dot_S1024x1024_S128x1024_S1024x128_1_1_0_0_n_n.lhsBatch from List.not_mem_nil),
    dif_pos (show (0 : Fin S1024x1024.rank) ∈ dot_S1024x1024_S128x1024_S1024x128_1_1_0_0_n_n.lhsNonContracting from List.mem_cons_self)]
  rfl
theorem prod_lhs1 (i : S1024x128.Idx) (r : dot_S1024x1024_S128x1024_S1024x128_1_1_0_0_n_n.contr.Idx) :
    (dot_S1024x1024_S128x1024_S1024x128_1_1_0_0_n_n.lhsIdx i r 1).val = (r ⟨0, Nat.one_pos⟩).val :=
  dot_S1024x1024_S128x1024_S1024x128_1_1_0_0_n_n.lhsIdx_val_of_single rfl i r
theorem prod_rhs0 (i : S1024x128.Idx) (r : dot_S1024x1024_S128x1024_S1024x128_1_1_0_0_n_n.contr.Idx) :
    (dot_S1024x1024_S128x1024_S1024x128_1_1_0_0_n_n.rhsIdx i r 0).val = (i 1).val := by
  unfold DotDims.rhsIdx
  rw [dif_neg (show ¬(0 : Fin S128x1024.rank) ∈ dot_S1024x1024_S128x1024_S1024x128_1_1_0_0_n_n.rhsBatch from List.not_mem_nil),
    dif_pos (show (0 : Fin S128x1024.rank) ∈ dot_S1024x1024_S128x1024_S1024x128_1_1_0_0_n_n.rhsNonContracting from List.mem_cons_self)]
  rfl
theorem prod_rhs1 (i : S1024x128.Idx) (r : dot_S1024x1024_S128x1024_S1024x128_1_1_0_0_n_n.contr.Idx) :
    (dot_S1024x1024_S128x1024_S1024x128_1_1_0_0_n_n.rhsIdx i r 1).val = (r ⟨0, Nat.one_pos⟩).val :=
  dot_S1024x1024_S128x1024_S1024x128_1_1_0_0_n_n.rhsIdx_val_of_single rfl i r

/-- The block product at entry (p, q): the sum over the 1024 contracted columns e of x(p, e) times a(q, e). -/
theorem prod_entry (x : FVec Ideal S1024x1024 .bf16) (a : FVec Ideal S128x1024 .bf16) (p : Fin 1024) (q : Fin 128) :
    matmul dot_S1024x1024_S128x1024_S1024x128_1_1_0_0_n_n none x a (constant (F := Ideal) S1024x128 .f32 0x00000000#32) (ix2 p q)
      = ∑ e : Fin 1024, x (ix2 p e) * a (ix2 q e) := by
  simp only [Idealize.ShloMosaic.matmul]
  rw [Ideal.matmul_constant_zero_apply, ← Equiv.sum_comp (contrEquiv1 dot_S1024x1024_S128x1024_S1024x128_1_1_0_0_n_n 1024 rfl rfl).symm]
  refine Finset.sum_congr rfl fun e _ => ?_
  have he := contrEquiv1_symm_val dot_S1024x1024_S128x1024_S1024x128_1_1_0_0_n_n 1024 rfl rfl e
  have el : dot_S1024x1024_S128x1024_S1024x128_1_1_0_0_n_n.lhsIdx (ix2 p q) ((contrEquiv1 dot_S1024x1024_S128x1024_S1024x128_1_1_0_0_n_n 1024 rfl rfl).symm e) = ix2 p e :=
    funext fun a => Fin.ext (by
      match a with
      | ⟨0, _⟩ => exact prod_lhs0 _ _
      | ⟨1, _⟩ => exact (prod_lhs1 _ _).trans he)
  have er : dot_S1024x1024_S128x1024_S1024x128_1_1_0_0_n_n.rhsIdx (ix2 p q) ((contrEquiv1 dot_S1024x1024_S128x1024_S1024x128_1_1_0_0_n_n 1024 rfl rfl).symm e) = ix2 q e :=
    funext fun a => Fin.ext (by
      match a with
      | ⟨0, _⟩ => exact prod_rhs0 _ _
      | ⟨1, _⟩ => exact (prod_rhs1 _ _).trans he)
  rw [el, er]

/-- One step at entry (p, q): what the accumulator held there plus the block product there. -/
theorem step_entry (x : Vec Ideal S1024x1024 .f32) (s : Vec Ideal S1024x128 .f32) (a : Vec Ideal S128x1024 .bf16)
    (p : Fin 1024) (q : Fin 128) :
    k1_pay3 (F := Ideal) x s a (ix2 p q) = s (ix2 p q) + ∑ e : Fin 1024, x (ix2 p e) * a (ix2 q e) := by
  unfold k1_pay3
  rw [shapeCast_self, shapeCast_self, copy_eq]
  exact congrArg (s (ix2 p q) + ·) (prod_entry x a p q)

/-! ## The projection, as a function of the whole arrays -/

/-- The projection of row r of x onto row q of the padded factor, the 4096 products summed as the launch groups
    them: four consecutive runs of 1024, added in order. -/
def projOf (x : Vec Ideal S8192x4096 .f32) (ap : Vec Ideal S128x4096 .bf16) : Vec Ideal S8192x128 .bf16 :=
  fun j => Cert.Sums.fourRuns (fun d : Fin 4096 =>
    (x (ix2 (⟨(j 0).val, idx2_lt0 j⟩ : Fin 8192) d) : EReal) * (ap (ix2 (⟨(j 1).val, idx2_lt1 j⟩ : Fin 128) d) : EReal))

/-- The same with the four runs written out, at a row and a column named by their values. -/
theorem projOf_runs (x : Vec Ideal S8192x4096 .f32) (ap : Vec Ideal S128x4096 .bf16) (J : S8192x128.Idx)
    (R : Fin 8192) (Q : Fin 128) (hR : R.val = (J 0).val) (hQ : Q.val = (J 1).val) :
    projOf x ap J
      = (((0 + ∑ e : Fin 1024, (x (ix2 R (⟨e.val, by omega⟩ : Fin 4096)) : EReal) * (ap (ix2 Q (⟨e.val, by omega⟩ : Fin 4096)) : EReal))
          + ∑ e : Fin 1024, (x (ix2 R (⟨1024 + e.val, by omega⟩ : Fin 4096)) : EReal) * (ap (ix2 Q (⟨1024 + e.val, by omega⟩ : Fin 4096)) : EReal))
          + ∑ e : Fin 1024, (x (ix2 R (⟨2048 + e.val, by omega⟩ : Fin 4096)) : EReal) * (ap (ix2 Q (⟨2048 + e.val, by omega⟩ : Fin 4096)) : EReal))
        + ∑ e : Fin 1024, (x (ix2 R (⟨3072 + e.val, by omega⟩ : Fin 4096)) : EReal) * (ap (ix2 Q (⟨3072 + e.val, by omega⟩ : Fin 4096)) : EReal) := by
  have eR : (⟨(J 0).val, idx2_lt0 J⟩ : Fin 8192) = R := Fin.ext hR.symm
  have eQ : (⟨(J 1).val, idx2_lt1 J⟩ : Fin 128) = Q := Fin.ext hQ.symm
  unfold projOf Cert.Sums.fourRuns
  rw [eR, eQ]

/-- Four terms added in order onto zero, term by term. -/
theorem four_add_congr {a0 a1 a2 a3 b0 b1 b2 b3 : EReal} (h0 : a0 = b0) (h1 : a1 = b1) (h2 : a2 = b2) (h3 : a3 = b3) :
    (((0 + a0) + a1) + a2) + a3 = (((0 + b0) + b1) + b2) + b3 := by rw [h0, h1, h2, h3]

/-! ## The accumulator at the end of a row block -/

section Launch
variable (V : (c : Dev nD) → (b : Ref sig .tc) → Buf (Elt Ideal) ((c : Thread nD τ).loc b))

/-- The block of x and the block of the padded factor the step at point n reads, by their literal types. -/
abbrev xBlk (c : Dev nD) (n : ℕ) (h : n < cfg1.N) : Vec Ideal S1024x1024 .f32 := blk1 V c 0 ⟨n, h⟩
abbrev aBlk (c : Dev nD) (n : ℕ) (h : n < cfg1.N) : Vec Ideal S128x1024 .bf16 := blk1 V c 1 ⟨n, h⟩

/-- The block product of the step at point n, at entry (p, q). -/
abbrev stepSum (c : Dev nD) (n : ℕ) (h : n < cfg1.N) (p : Fin 1024) (q : Fin 128) : EReal :=
  ∑ e : Fin 1024, xBlk V c n h (ix2 p e) * aBlk V c n h (ix2 q e)

/-- A later step adds its block product onto what the step before left. -/
theorem acc_succ (c : Dev nD) (n : ℕ) (h : n + 1 < cfg1.N) (hm : ¬ (n + 1) % 4 = 0) (p : Fin 1024) (q : Fin 128) :
    innerAcc V c (n + 1) h (ix2 p q) = innerAcc V c n (Nat.lt_of_succ_lt h) (ix2 p q) + stepSum V c (n + 1) h p q := by
  have e : innerAcc V c (n + 1) h
      = k1_pay3 (xBlk V c (n + 1) h) (innerAcc V c n (Nat.lt_of_succ_lt h)) (aBlk V c (n + 1) h) := if_neg hm
  rw [e]
  exact step_entry _ _ _ p q

/-- A first step adds its block product onto zero. -/
theorem acc_start (c : Dev nD) (n : ℕ) (h : n < cfg1.N) (hm : n % 4 = 0) (p : Fin 1024) (q : Fin 128) :
    innerAcc V c n h (ix2 p q) = 0 + stepSum V c n h p q := by
  have e : innerAcc V c n h = k1_pay3 (xBlk V c n h) (k1_pay2 (F := Ideal)) (aBlk V c n h) := innerAcc_first V c ⟨n, h⟩ hm
  rw [e]
  refine (step_entry _ _ _ p q).trans ?_
  rw [reset_entry]

/-- After the fourth step of a row block the accumulator holds, at each entry, the four block products added in
    order onto zero. -/
theorem acc_rowblock (c : Dev nD) (n : ℕ) (h : n + 3 < cfg1.N) (hm : n % 4 = 0) (p : Fin 1024) (q : Fin 128) :
    innerAcc V c (n + 3) h (ix2 p q)
      = (((0 + stepSum V c n (by omega) p q) + stepSum V c (n + 1) (by omega) p q)
          + stepSum V c (n + 2) (by omega) p q) + stepSum V c (n + 3) h p q := by
  rw [acc_succ V c (n + 2) h (by omega) p q, acc_succ V c (n + 1) (by omega) (by omega) p q,
    acc_succ V c n (by omega) (by omega) p q, acc_start V c n (by omega) hm p q]

/-! ## The blocks as parts of the arrays -/

/-- The array x as the launch finds it, -/
abbrev xAt (c : Dev nD) : Vec Ideal S8192x4096 .f32 := V c main_v0
/-- and the padded factor (128 rows of 4096). -/
abbrev padAt (c : Dev nD) : Vec Ideal S128x4096 .bf16 := V c main_v3

/-- The four index maps over the grid: point t is row block t / 4 at contraction step t % 4. The blocks of x and
    of its copy sit at (t / 4, t % 4), the block of the padded factor at (0, t % 4), the projection's at (t / 4, 0). -/
theorem inner_index : ∀ t : Fin cfg1.N,
    win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = t.val / 4 ∧ win1_2.index t (1 : Fin 2) = 0
    ∧ win1_3.index t (0 : Fin 2) = t.val / 4 ∧ win1_3.index t (1 : Fin 2) = t.val % 4 :=
  (by decide +kernel : ∀ t : Fin grid1.N, _)

/-- Entry (p, e) of the block of x at point t is entry (1024 (t / 4) + p, 1024 (t % 4) + e) of x. -/
theorem x_block (c : Dev nD) (t : Fin cfg1.N) (p e : Fin 1024) (R : Fin 8192) (D : Fin 4096)
    (hR : R.val = t.val / 4 * 1024 + p.val) (hD : D.val = t.val % 4 * 1024 + e.val) :
    (blk1 V c 0 t : Vec Ideal S1024x1024 .f32) (ix2 p e) = xAt V c (ix2 R D) := by
  obtain ⟨i0, i1, -⟩ := inner_index t
  show V c main_v0 (((cfg1.win 0).blk t).view.emb (ix2 p e)) = V c main_v0 (ix2 R D)
  refine congrArg (V c main_v0) (funext fun a => Fin.ext ?_)
  match a with
  | ⟨0, _⟩ => show win1_0.index t (0 : Fin 2) * 1024 + 1 * p.val = R.val; omega
  | ⟨1, _⟩ => show win1_0.index t (1 : Fin 2) * 1024 + 1 * e.val = D.val; omega

/-- Entry (q, e) of the block of the padded factor at point t is its entry (q, 1024 (t % 4) + e). -/
theorem a_block (c : Dev nD) (t : Fin cfg1.N) (q : Fin 128) (e : Fin 1024) (Q : Fin 128) (D : Fin 4096)
    (hQ : Q.val = q.val) (hD : D.val = t.val % 4 * 1024 + e.val) :
    (blk1 V c 1 t : Vec Ideal S128x1024 .bf16) (ix2 q e) = padAt V c (ix2 Q D) := by
  obtain ⟨-, -, i0, i1, -⟩ := inner_index t
  show V c main_v3 (((cfg1.win 1).blk t).view.emb (ix2 q e)) = V c main_v3 (ix2 Q D)
  refine congrArg (V c main_v3) (funext fun a => Fin.ext ?_)
  match a with
  | ⟨0, _⟩ => show win1_1.index t (0 : Fin 2) * 128 + 1 * q.val = Q.val; omega
  | ⟨1, _⟩ => show win1_1.index t (1 : Fin 2) * 1024 + 1 * e.val = D.val; omega

/-- The block product of the step at point m, over the arrays: a run of 1024 consecutive columns, named by any
    D with D e = 1024 (m % 4) + e. -/
theorem stepSum_run (c : Dev nD) (m : ℕ) (hm : m < cfg1.N) (p : Fin 1024) (q : Fin 128) (R : Fin 8192) (Q : Fin 128)
    (D : Fin 1024 → Fin 4096) (hR : R.val = m / 4 * 1024 + p.val) (hQ : Q.val = q.val)
    (hD : ∀ e, (D e).val = m % 4 * 1024 + e.val) :
    stepSum V c m hm p q = ∑ e : Fin 1024, xAt V c (ix2 R (D e)) * padAt V c (ix2 Q (D e)) :=
  Finset.sum_congr rfl fun e _ =>
    congrArg₂ (fun u v : EReal => u * v) (x_block V c ⟨m, hm⟩ p e R (D e) hR (hD e))
      (a_block V c ⟨m, hm⟩ q e Q (D e) hQ (hD e))

/-! ## The copy of x: the second output -/

/-- What the second output ends holding: x, entry by entry. -/
abbrev xCopy (c : Dev nD) : Vec Ideal S8192x4096 .bf16 := fun j => xAt V c j

/-- What point t writes back to the second output is block t of x. -/
theorem flushed_copy (c : Dev nD) (t : Fin cfg1.N) :
    (innerDat (F := Ideal) V c).flushed 3 t = ((cfg1.win 3).blk t).view.read (Elt Ideal) (xCopy V c) := by
  obtain ⟨i00, i01, -, -, -, -, i30, i31⟩ := inner_index t
  show (cfg1.win 3).cut (grid1.coords t) ((innerDat (F := Ideal) V c).after 3 t) = _
  rw [innerDat_after3, copy_eq]
  funext j
  show V c main_v0 (((cfg1.win 0).blk t).view.emb j) = V c main_v0 (((cfg1.win 3).blk t).view.emb j)
  refine congrArg (V c main_v0) (funext fun a => Fin.ext ?_)
  match a with
  | ⟨0, _⟩ =>
    show win1_0.index t (0 : Fin 2) * 1024 + 1 * (j 0).val = win1_3.index t (0 : Fin 2) * 1024 + 1 * (j 0).val
    omega
  | ⟨1, _⟩ =>
    show win1_0.index t (1 : Fin 2) * 1024 + 1 * (j 1).val = win1_3.index t (1 : Fin 2) * 1024 + 1 * (j 1).val
    omega

/-- Entry (r, d) of the copy is written by the point of row block r / 1024 at step d / 1024. -/
theorem copy_cover (i : S8192x4096.Idx) :
    ∃ t : Fin cfg1.N, (cfg1.win 3).flush t = true ∧ i ∈ ((cfg1.win 3).blk t).view.set := by
  have h0 : (i 0).val < 8192 := idx2_lt0 i
  have h1 : (i 1).val < 4096 := idx2_lt1 i
  have hN : cfg1.N = 32 := N_1
  let t : Fin cfg1.N := ⟨4 * ((i 0).val / 1024) + (i 1).val / 1024, by rw [hN]; omega⟩
  have htv : t.val = 4 * ((i 0).val / 1024) + (i 1).val / 1024 := rfl
  obtain ⟨-, -, -, -, -, -, i0, i1⟩ := inner_index t
  refine ⟨t, flush1_3 t, ?_⟩
  show i ∈ ((View.whole main_v7_1).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- After the launch the second output holds x. -/
theorem inner_final3 (c : Dev nD) : (innerDat (F := Ideal) V c).arrAt 3 cfg1.N = xCopy V c :=
  (innerDat (F := Ideal) V c).arrAt_eq_of_cover 3 (xCopy V c) (fun t _ => flushed_copy V c t) (fun i => copy_cover i)

/-! ## The projection: the first output -/

/-- What the last step of a row block writes back to the first output is the row block of the projection. -/
theorem flushed_proj (c : Dev nD) (t : Fin cfg1.N) (hf : (cfg1.win 2).flush t = true) :
    (innerDat (F := Ideal) V c).flushed 2 t
      = ((cfg1.win 2).blk t).view.read (Elt Ideal) (projOf (xAt V c) (padAt V c)) := by
  have hN : cfg1.N = 32 := N_1
  obtain ⟨tv, ht⟩ := t
  have h3 : tv % 4 = 3 := (flush1_2 ⟨tv, ht⟩).mp hf
  obtain ⟨n, rfl⟩ : ∃ n, tv = n + 3 := ⟨tv - 3, by omega⟩
  have hn0 : n % 4 = 0 := by omega
  have hn : n + 3 < 32 := hN ▸ ht
  obtain ⟨-, -, -, -, i0, i1, -⟩ := inner_index ⟨n + 3, ht⟩
  have i0' : win1_2.index ⟨n + 3, ht⟩ (0 : Fin 2) = (n + 3) / 4 := i0
  show (cfg1.win 2).cut (grid1.coords ⟨n + 3, ht⟩) ((innerDat (F := Ideal) V c).after 2 ⟨n + 3, ht⟩) = _
  rw [innerDat_after2]
  funext j
  have hj0 : (j 0).val < 1024 := (j 0).isLt
  have hj1 : (j 1).val < 128 := (j 1).isLt
  show innerAcc V c (n + 3) ht j
    = projOf (xAt V c) (padAt V c) (((cfg1.win 2).blk ⟨n + 3, ht⟩).view.emb j)
  refine (congrArg (innerAcc V c (n + 3) ht) (eq_ix2 (n0 := 1024) (n1 := 128) j)).trans ?_
  refine (acc_rowblock V c n ht hn0 (j 0) (j 1)).trans ?_
  refine (four_add_congr ?_ ?_ ?_ ?_).trans
    (projOf_runs (xAt V c) (padAt V c) (((cfg1.win 2).blk ⟨n + 3, ht⟩).view.emb j)
      (⟨(n + 3) / 4 * 1024 + (j 0).val, by omega⟩ : Fin 8192) (⟨(j 1).val, hj1⟩ : Fin 128)
      (by show (n + 3) / 4 * 1024 + (j 0).val = win1_2.index ⟨n + 3, ht⟩ (0 : Fin 2) * 1024 + 1 * (j 0).val; omega)
      (by show (j 1).val = win1_2.index ⟨n + 3, ht⟩ (1 : Fin 2) * 128 + 1 * (j 1).val; omega)).symm
  · exact stepSum_run V c n _ (j 0) (j 1) _ _ (fun e => (⟨e.val, by omega⟩ : Fin 4096))
      (by show (n + 3) / 4 * 1024 + (j 0).val = n / 4 * 1024 + (j 0).val; omega) rfl
      (fun e => by show e.val = n % 4 * 1024 + e.val; omega)
  · exact stepSum_run V c (n + 1) _ (j 0) (j 1) _ _ (fun e => (⟨1024 + e.val, by omega⟩ : Fin 4096))
      (by show (n + 3) / 4 * 1024 + (j 0).val = (n + 1) / 4 * 1024 + (j 0).val; omega) rfl
      (fun e => by show 1024 + e.val = (n + 1) % 4 * 1024 + e.val; omega)
  · exact stepSum_run V c (n + 2) _ (j 0) (j 1) _ _ (fun e => (⟨2048 + e.val, by omega⟩ : Fin 4096))
      (by show (n + 3) / 4 * 1024 + (j 0).val = (n + 2) / 4 * 1024 + (j 0).val; omega) rfl
      (fun e => by show 2048 + e.val = (n + 2) % 4 * 1024 + e.val; omega)
  · exact stepSum_run V c (n + 3) _ (j 0) (j 1) _ _ (fun e => (⟨3072 + e.val, by omega⟩ : Fin 4096))
      (by show (n + 3) / 4 * 1024 + (j 0).val = (n + 3) / 4 * 1024 + (j 0).val; omega) rfl
      (fun e => by show 3072 + e.val = (n + 3) % 4 * 1024 + e.val; omega)

/-- Row r of the projection is written back by the last step of row block r / 1024. -/
theorem proj_cover (i : S8192x128.Idx) :
    ∃ t : Fin cfg1.N, (cfg1.win 2).flush t = true ∧ i ∈ ((cfg1.win 2).blk t).view.set := by
  have h0 : (i 0).val < 8192 := idx2_lt0 i
  have h1 : (i 1).val < 128 := idx2_lt1 i
  have hN : cfg1.N = 32 := N_1
  let t : Fin cfg1.N := ⟨4 * ((i 0).val / 1024) + 3, by rw [hN]; omega⟩
  have htv : t.val = 4 * ((i 0).val / 1024) + 3 := rfl
  obtain ⟨-, -, -, -, i0, i1, -⟩ := inner_index t
  refine ⟨t, (flush1_2 t).mpr (by omega), ?_⟩
  show i ∈ ((View.whole main_v7_0).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 128 ≤ (i 1).val ∧ (i 1).val < win1_2.index t (1 : Fin 2) * 128 + 128
    omega

/-- After the launch the first output holds the projection of x onto the padded factor. -/
theorem inner_final2 (c : Dev nD) :
    (innerDat (F := Ideal) V c).arrAt 2 cfg1.N = projOf (xAt V c) (padAt V c) :=
  (innerDat (F := Ideal) V c).arrAt_eq_of_cover 2 (projOf (xAt V c) (padAt V c))
    (fun t hf => flushed_proj V c t hf) (fun i => proj_cover i)

end Launch

end Cert.KernelIdeal.Hand

end
-- ==== Proof.KI.MainValue.lean ====
/-
  The third launch's value, entry by entry.

  One accumulation step adds to the accumulator, at entry (p, q), the sum over the 1024 positions e of the
  activation block's (p, e) times the weight block's (q, e); the emitting step adds twice the sum over the 128
  positions r of the inner block's (p, r) times the factor block's (q, r).  A run of four points walks the four
  1024-wide column blocks of one 2048-row band of the activations against the same column blocks of one
  1024-row band of the weight, so at the end of the run the accumulator holds, at (p, q), the 4096-long
  contraction of row p of the band with row q of the band, taken as four runs of 1024 added in order onto zero.
  The sixteen output blocks tile the 8192 x 4096 output array, each written back at the end of its run, so the
  whole array ends as one formula over the four arrays the launch reads.
-/
import proofs.«406961_j15015205667342_3_alg».proof.Proof.KI.MainK
import proofs.«406961_j15015205667342_3_alg».proof.Proof.SumLaws
import proofs.«406961_j15015205667342_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The two contractions, each a sum over its one contracted coordinate

For each of the two products: the left operand's index at result index (p, q) and contraction position k is (p, k),
the right operand's is (q, k): both operands are contracted along their second axis. -/

/-! ### a 2048 x 1024 block against a 1024 x 1024 block, over the 1024 shared positions -/

theorem wide_lhs0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch from List.not_mem_nil),
    dif_pos (show (0 : Fin S2048x1024.rank) ∈ dot_S2048x1024_S1024x1024_S2048x1024_1_1_0_0_n_n.lhsNonContracting from List.mem_cons_self)]
  rfl
theorem wide_lhs1 (i : S2048x1024.Idx) (q : dot_S2048x1024_S1024x1024_S2048x1024_1_1_0_0_n_n.contr.Idx) : (dot_S2048x1024_S1024x1024_S2048x1024_1_1_0_0_n_n.lhsIdx i q 1).val = (q ⟨0, Nat.one_pos⟩).val :=
  dot_S2048x1024_S1024x1024_S2048x1024_1_1_0_0_n_n.lhsIdx_val_of_single rfl i q
theorem wide_rhs0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch from List.not_mem_nil),
    dif_pos (show (0 : Fin S1024x1024.rank) ∈ dot_S2048x1024_S1024x1024_S2048x1024_1_1_0_0_n_n.rhsNonContracting from List.mem_cons_self)]
  rfl
theorem wide_rhs1 (i : S2048x1024.Idx) (q : dot_S2048x1024_S1024x1024_S2048x1024_1_1_0_0_n_n.contr.Idx) : (dot_S2048x1024_S1024x1024_S2048x1024_1_1_0_0_n_n.rhsIdx i q 1).val = (q ⟨0, Nat.one_pos⟩).val :=
  dot_S2048x1024_S1024x1024_S2048x1024_1_1_0_0_n_n.rhsIdx_val_of_single rfl i q

/-- The wide product at (p, q): the sum over the 1024 positions k of l(p, k) times r(q, k). -/
theorem wide_apply (l : FVec Ideal S2048x1024 .bf16) (r : FVec Ideal S1024x1024 .bf16) (p : Fin 2048) (q : Fin 1024) :
    FloatOps.matmul dot_S2048x1024_S1024x1024_S2048x1024_1_1_0_0_n_n none l r (constant S2048x1024 .f32 0x00000000#32) (ix2 p q)
      = ∑ k : Fin 1024, l (ix2 p k) * r (ix2 q k) := by
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k :=
    funext fun a => Fin.ext (by
      match a with
      | ⟨0, _⟩ => exact wide_lhs0 _ _
      | ⟨1, _⟩ => exact (wide_lhs1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k :=
    funext fun a => Fin.ext (by
      match a with
      | ⟨0, _⟩ => exact wide_rhs0 _ _
      | ⟨1, _⟩ => exact (wide_rhs1 _ _).trans hk)
  rw [el, er]

/-! ### a 2048 x 128 block against a 1024 x 128 block, over the 128 shared positions -/

theorem thin_lhs0 (i : S2048x1024.Idx) (q : dot_S2048x128_S1024x128_S2048x1024_1_1_0_0_n_n.contr.Idx) : (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch from List.not_mem_nil),
    dif_pos (show (0 : Fin S2048x128.rank) ∈ dot_S2048x128_S1024x128_S2048x1024_1_1_0_0_n_n.lhsNonContracting from List.mem_cons_self)]
  rfl
theorem thin_lhs1 (i : S2048x1024.Idx) (q : dot_S2048x128_S1024x128_S2048x1024_1_1_0_0_n_n.contr.Idx) : (dot_S2048x128_S1024x128_S2048x1024_1_1_0_0_n_n.lhsIdx i q 1).val = (q ⟨0, Nat.one_pos⟩).val :=
  dot_S2048x128_S1024x128_S2048x1024_1_1_0_0_n_n.lhsIdx_val_of_single rfl i q
theorem thin_rhs0 (i : S2048x1024.Idx) (q : dot_S2048x128_S1024x128_S2048x1024_1_1_0_0_n_n.contr.Idx) : (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch from List.not_mem_nil),
    dif_pos (show (0 : Fin S1024x128.rank) ∈ dot_S2048x128_S1024x128_S2048x1024_1_1_0_0_n_n.rhsNonContracting from List.mem_cons_self)]
  rfl
theorem thin_rhs1 (i : S2048x1024.Idx) (q : dot_S2048x128_S1024x128_S2048x1024_1_1_0_0_n_n.contr.Idx) : (dot_S2048x128_S1024x128_S2048x1024_1_1_0_0_n_n.rhsIdx i q 1).val = (q ⟨0, Nat.one_pos⟩).val :=
  dot_S2048x128_S1024x128_S2048x1024_1_1_0_0_n_n.rhsIdx_val_of_single rfl i q

/-- The thin product at (p, q): the sum over the 128 positions k of l(p, k) times r(q, k). -/
theorem thin_apply (l : FVec Ideal S2048x128 .bf16) (r : FVec Ideal S1024x128 .bf16) (p : Fin 2048) (q : Fin 1024) :
    FloatOps.matmul dot_S2048x128_S1024x128_S2048x1024_1_1_0_0_n_n none l r (constant S2048x1024 .f32 0x00000000#32) (ix2 p q)
      = ∑ k : Fin 128, l (ix2 p k) * r (ix2 q k) := by
  rw [Ideal.matmul_constant_zero_apply, ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 p q) ((contrEquiv1 dot_S2048x128_S1024x128_S2048x1024_1_1_0_0_n_n 128 rfl rfl).symm k) = ix2 p k :=
    funext fun a => Fin.ext (by
      match a with
      | ⟨0, _⟩ => exact thin_lhs0 _ _
      | ⟨1, _⟩ => exact (thin_lhs1 _ _).trans hk)
  have er : dot_S2048x128_S1024x128_S2048x1024_1_1_0_0_n_n.rhsIdx (ix2 p q) ((contrEquiv1 dot_S2048x128_S1024x128_S2048x1024_1_1_0_0_n_n 128 rfl rfl).symm k) = ix2 q k :=
    funext fun a => Fin.ext (by
      match a with
      | ⟨0, _⟩ => exact thin_rhs0 _ _
      | ⟨1, _⟩ => exact (thin_rhs1 _ _).trans hk)
  rw [el, er]

/-! ## The body's three stored values at an entry -/

/-- The zeroed accumulator is 0 everywhere. -/
theorem zeroAcc_apply (i : S2048x1024.Idx) : k2_pay1 (F := Ideal) i = 0 := by
  unfold k2_pay1
  refine (congrFun (shapeCast_self _ _) i).trans ?_
  exact Ideal.ofBits_zero_f32

/-- One accumulation step at (p, q): the accumulator's entry plus the wide product of the two blocks there. -/
theorem accStep_apply (s : Vec Ideal S2048x1024 .f32) (x : Vec Ideal S2048x1024 .bf16) (w : Vec Ideal S1024x1024 .bf16)
    (p : Fin 2048) (q : Fin 1024) :
    k2_pay2 (F := Ideal) s x w (ix2 p q) = s (ix2 p q) + ∑ e : Fin 1024, x (ix2 p e) * w (ix2 q e) := by
  unfold k2_pay2
  refine (congrFun (shapeCast_self _ _) (ix2 p q)).trans ?_
  rw [addf_apply, shapeCast_self, shapeCast_self]
  refine congrArg (s (ix2 p q) + ·) ?_
  exact wide_apply x w p q

/-- The emitting step at (p, q): the accumulator's entry plus twice the thin product of the two blocks there. -/
theorem emit_apply (a : Vec Ideal S2048x128 .bf16) (b : Vec Ideal S1024x128 .bf16) (s : Vec Ideal S2048x1024 .f32)
    (p : Fin 2048) (q : Fin 1024) :
    k2_pay3 (F := Ideal) a b s (ix2 p q) = s (ix2 p q) + Cert.Spec.two * ∑ r : Fin 128, a (ix2 p r) * b (ix2 q r) := by
  unfold k2_pay3
  rw [addf_apply, mulf_apply, broadcast_apply, shapeCast_self, shapeCast_self]
  refine congrArg (s (ix2 p q) + ·) (congrArg (Cert.Spec.two * ·) ?_)
  exact thin_apply a b p q

/-! ## From the sixteen output blocks to the whole output array -/

/-- The whole output from the whole arrays: entry (r, o) is the 4096-long contraction of row r of the activations
    with row o of the weight, taken as four runs of 1024 added in order onto zero, plus twice the 128-long contraction
    of row r of the inner product with row o of the second factor. -/
def gemmOf (xb : Vec Ideal S8192x4096 .bf16) (w : Vec Ideal S4096x4096 .bf16) (pr : Vec Ideal S8192x128 .bf16)
    (bp : Vec Ideal S4096x128 .bf16) : Vec Ideal S8192x4096 .f32 :=
  fun j => Cert.Sums.fourRuns (fun d : Fin 4096 =>
        xb (ix2 (⟨(j 0).val, idx2_lt0 j⟩ : Fin 8192) d) * w (ix2 (⟨(j 1).val, idx2_lt1 j⟩ : Fin 4096) d))
      + Cert.Spec.two * ∑ q : Fin 128,
        pr (ix2 (⟨(j 0).val, idx2_lt0 j⟩ : Fin 8192) q) * bp (ix2 (⟨(j 1).val, idx2_lt1 j⟩ : Fin 4096) q)

/-- The same, at an entry named by its two coordinates. -/
theorem gemmOf_apply (xb : Vec Ideal S8192x4096 .bf16) (w : Vec Ideal S4096x4096 .bf16) (pr : Vec Ideal S8192x128 .bf16)
    (bp : Vec Ideal S4096x128 .bf16) (r : Fin 8192) (o : Fin 4096) :
    gemmOf xb w pr bp (ix2 r o)
      = Cert.Sums.fourRuns (fun d : Fin 4096 => xb (ix2 r d) * w (ix2 o d))
        + Cert.Spec.two * ∑ q : Fin 128, pr (ix2 r q) * bp (ix2 o q) := rfl

section Launch
variable (V : (c : Dev nD) → (b : Ref sig .tc) → Buf (Elt Ideal) ((c : Thread nD τ).loc b))

/-- The activations as the launch finds them, -/
abbrev actsAt (c : Dev nD) : Vec Ideal S8192x4096 .bf16 := V c main_v7_1
/-- the rebuilt weight, -/
abbrev weightAt (c : Dev nD) : Vec Ideal S4096x4096 .bf16 := V c main_v6
/-- the low-rank inner product, -/
abbrev innerAt (c : Dev nD) : Vec Ideal S8192x128 .bf16 := V c main_v7_0
/-- and the second low-rank factor. -/
abbrev factorAt (c : Dev nD) : Vec Ideal S4096x128 .bf16 := V c main_v4

/-- The five index maps over the grid.  Point t is (i, j, k) = (t / 16, t / 4 mod 4, t mod 4): the activations' block is
    (i, k), the weight's (j, k), the inner product's (i, 0), the factor's (j, 0), the output's (i, j). -/
theorem tile_index : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = t.val / 16 ∧ win2_2.index t (1 : Fin 2) = 0
    ∧ win2_3.index t (0 : Fin 2) = t.val / 4 % 4 ∧ win2_3.index t (1 : Fin 2) = 0
    ∧ win2_4.index t (0 : Fin 2) = t.val / 16 ∧ win2_4.index t (1 : Fin 2) = t.val / 4 % 4 :=
  (by decide +kernel : ∀ t : Fin grid2.N, _)

/-- The activations' block at point t is rows 2048 i … of the band i = t / 16, columns 1024 k … of the run k = t mod 4. -/
theorem acts_block (c : Dev nD) (t : Fin cfg2.N) (p : Fin 2048) (e : Fin 1024) (R : Fin 8192) (D : Fin 4096)
    (hR : R.val = (t.val / 16) * 2048 + p.val) (hD : D.val = (t.val % 4) * 1024 + e.val) :
    (blk2 V c 0 t : Vec Ideal S2048x1024 .bf16) (ix2 p e) = actsAt V c (ix2 R D) := by
  obtain ⟨i0, i1, -, -, -, -, -, -, -, -⟩ := tile_index t
  show V c main_v7_1 (((cfg2.win 0).blk t).view.emb (ix2 p e)) = V c main_v7_1 _
  refine congrArg (V c main_v7_1) (funext fun a => Fin.ext ?_)
  match a with
  | ⟨0, _⟩ => show win2_0.index t (0 : Fin 2) * 2048 + 1 * p.val = R.val; omega
  | ⟨1, _⟩ => show win2_0.index t (1 : Fin 2) * 1024 + 1 * e.val = D.val; omega

/-- The weight's block at point t is rows 1024 j … of the band j = t / 4 mod 4, the same columns. -/
theorem weight_block (c : Dev nD) (t : Fin cfg2.N) (p : Fin 1024) (e : Fin 1024) (R : Fin 4096) (D : Fin 4096)
    (hR : R.val = (t.val / 4 % 4) * 1024 + p.val) (hD : D.val = (t.val % 4) * 1024 + e.val) :
    (blk2 V c 1 t : Vec Ideal S1024x1024 .bf16) (ix2 p e) = weightAt V c (ix2 R D) := by
  obtain ⟨-, -, i0, i1, -, -, -, -, -, -⟩ := tile_index t
  show V c main_v6 (((cfg2.win 1).blk t).view.emb (ix2 p e)) = V c main_v6 _
  refine congrArg (V c main_v6) (funext fun a => Fin.ext ?_)
  match a with
  | ⟨0, _⟩ => show win2_1.index t (0 : Fin 2) * 1024 + 1 * p.val = R.val; omega
  | ⟨1, _⟩ => show win2_1.index t (1 : Fin 2) * 1024 + 1 * e.val = D.val; omega

/-- The inner product's block at point t is the rows of band i, all 128 columns. -/
theorem inner_block (c : Dev nD) (t : Fin cfg2.N) (p : Fin 2048) (e : Fin 128) (R : Fin 8192) (D : Fin 128)
    (hR : R.val = (t.val / 16) * 2048 + p.val) (hD : D.val = 0 * 128 + e.val) :
    (blk2 V c 2 t : Vec Ideal S2048x128 .bf16) (ix2 p e) = innerAt V c (ix2 R D) := by
  obtain ⟨-, -, -, -, i0, i1, -, -, -, -⟩ := tile_index t
  show V c main_v7_0 (((cfg2.win 2).blk t).view.emb (ix2 p e)) = V c main_v7_0 _
  refine congrArg (V c main_v7_0) (funext fun a => Fin.ext ?_)
  match a with
  | ⟨0, _⟩ => show win2_2.index t (0 : Fin 2) * 2048 + 1 * p.val = R.val; omega
  | ⟨1, _⟩ => show win2_2.index t (1 : Fin 2) * 128 + 1 * e.val = D.val; omega

/-- The factor's block at point t is the rows of band j, all 128 columns. -/
theorem factor_block (c : Dev nD) (t : Fin cfg2.N) (p : Fin 1024) (e : Fin 128) (R : Fin 4096) (D : Fin 128)
    (hR : R.val = (t.val / 4 % 4) * 1024 + p.val) (hD : D.val = 0 * 128 + e.val) :
    (blk2 V c 3 t : Vec Ideal S1024x128 .bf16) (ix2 p e) = factorAt V c (ix2 R D) := by
  obtain ⟨-, -, -, -, -, -, i0, i1, -, -⟩ := tile_index t
  show V c main_v4 (((cfg2.win 3).blk t).view.emb (ix2 p e)) = V c main_v4 _
  refine congrArg (V c main_v4) (funext fun a => Fin.ext ?_)
  match a with
  | ⟨0, _⟩ => show win2_3.index t (0 : Fin 2) * 1024 + 1 * p.val = R.val; omega
  | ⟨1, _⟩ => show win2_3.index t (1 : Fin 2) * 128 + 1 * e.val = D.val; omega

/-- One step's contribution at (p, q), read off the arrays: the contraction over the step's run of 1024 columns,
    the run's columns named by g. -/
theorem step_sum (c : Dev nD) (t : Fin cfg2.N) (xb : Vec Ideal S2048x1024 .bf16) (wb : Vec Ideal S1024x1024 .bf16)
    (hx : xb = blk2 V c 0 t) (hw : wb = blk2 V c 1 t) (p : Fin 2048) (q : Fin 1024) (R : Fin 8192) (O : Fin 4096)
    (g : Fin 1024 → Fin 4096) (hg : ∀ e, (g e).val = t.val % 4 * 1024 + e.val)
    (hR : R.val = t.val / 16 * 2048 + p.val) (hO : O.val = t.val / 4 % 4 * 1024 + q.val) :
    ∑ e : Fin 1024, xb (ix2 p e) * wb (ix2 q e)
      = ∑ e : Fin 1024, actsAt V c (ix2 R (g e)) * weightAt V c (ix2 O (g e)) := by
  subst hx; subst hw
  exact Finset.sum_congr rfl fun e _ => by
    rw [acts_block V c t p e R (g e) hR (hg e), weight_block V c t q e O (g e) hO (hg e)]

/-- THE RUN.  At the last point of a run the accumulator holds, at (p, q), the whole 4096-long contraction of row
    2048 i + p of the activations with row 1024 j + q of the weight, as four runs of 1024 added in order onto zero. -/
theorem mainAcc_run (c : Dev nD) (t : Fin cfg2.N) (h3 : t.val % 4 = 3) (p : Fin 2048) (q : Fin 1024)
    (R : Fin 8192) (O : Fin 4096) (hR : R.val = t.val / 16 * 2048 + p.val) (hO : O.val = t.val / 4 % 4 * 1024 + q.val) :
    mainAcc V c t.val t.isLt (ix2 p q)
      = Cert.Sums.fourRuns (fun d : Fin 4096 => actsAt V c (ix2 R d) * weightAt V c (ix2 O d)) := by
  have hN : cfg2.N = 64 := N_2
  have ht := t.isLt
  have b1 : t.val - 1 < cfg2.N := by omega
  have b2 : t.val - 1 - 1 < cfg2.N := by omega
  have b3 : t.val - 1 - 1 - 1 < cfg2.N := by omega
  have e3 : mainAcc V c t.val t.isLt
      = k2_pay2 (mainAcc V c (t.val - 1) b1) (blk2 V c 0 t) (blk2 V c 1 t) := mainAcc_later V c t (by omega)
  have e2 : mainAcc V c (t.val - 1) b1
      = k2_pay2 (mainAcc V c (t.val - 1 - 1) b2) (blk2 V c 0 ⟨t.val - 1, b1⟩) (blk2 V c 1 ⟨t.val - 1, b1⟩) :=
    mainAcc_later V c ⟨t.val - 1, b1⟩ (by show (t.val - 1) % 4 ≠ 0; omega)
  have e1 : mainAcc V c (t.val - 1 - 1) b2
      = k2_pay2 (mainAcc V c (t.val - 1 - 1 - 1) b3) (blk2 V c 0 ⟨t.val - 1 - 1, b2⟩) (blk2 V c 1 ⟨t.val - 1 - 1, b2⟩) :=
    mainAcc_later V c ⟨t.val - 1 - 1, b2⟩ (by show (t.val - 1 - 1) % 4 ≠ 0; omega)
  have e0 : mainAcc V c (t.val - 1 - 1 - 1) b3
      = k2_pay2 k2_pay1 (blk2 V c 0 ⟨t.val - 1 - 1 - 1, b3⟩) (blk2 V c 1 ⟨t.val - 1 - 1 - 1, b3⟩) :=
    mainAcc_first V c ⟨t.val - 1 - 1 - 1, b3⟩ (by show (t.val - 1 - 1 - 1) % 4 = 0; omega)
  rw [e3, accStep_apply, e2, accStep_apply, e1, accStep_apply, e0, accStep_apply, zeroAcc_apply]
  unfold Cert.Sums.fourRuns
  refine congrArg₂ (· + ·) (congrArg₂ (· + ·) (congrArg₂ (· + ·) (congrArg₂ (· + ·) rfl ?_) ?_) ?_) ?_
  · exact step_sum V c ⟨t.val - 1 - 1 - 1, b3⟩ _ _ rfl rfl p q R O (fun e => ⟨e.val, by have := e.isLt; omega⟩)
      (fun e => by show e.val = (t.val - 1 - 1 - 1) % 4 * 1024 + e.val; omega)
      (by show R.val = (t.val - 1 - 1 - 1) / 16 * 2048 + p.val; omega)
      (by show O.val = (t.val - 1 - 1 - 1) / 4 % 4 * 1024 + q.val; omega)
  · exact step_sum V c ⟨t.val - 1 - 1, b2⟩ _ _ rfl rfl p q R O (fun e => ⟨1024 + e.val, by have := e.isLt; omega⟩)
      (fun e => by show 1024 + e.val = (t.val - 1 - 1) % 4 * 1024 + e.val; omega)
      (by show R.val = (t.val - 1 - 1) / 16 * 2048 + p.val; omega)
      (by show O.val = (t.val - 1 - 1) / 4 % 4 * 1024 + q.val; omega)
  · exact step_sum V c ⟨t.val - 1, b1⟩ _ _ rfl rfl p q R O (fun e => ⟨2048 + e.val, by have := e.isLt; omega⟩)
      (fun e => by show 2048 + e.val = (t.val - 1) % 4 * 1024 + e.val; omega)
      (by show R.val = (t.val - 1) / 16 * 2048 + p.val; omega)
      (by show O.val = (t.val - 1) / 4 % 4 * 1024 + q.val; omega)
  · exact step_sum V c t _ _ rfl rfl p q R O (fun e => ⟨3072 + e.val, by have := e.isLt; omega⟩)
      (fun e => by show 3072 + e.val = t.val % 4 * 1024 + e.val; omega) hR hO

/-- The block emitted at the last point t of a run is, at (p, q), entry (2048 i + p, 1024 j + q) of the whole output. -/
theorem tile_of_arrays (c : Dev nD) (t : Fin cfg2.N) (h3 : t.val % 4 = 3) (p : Fin 2048) (q : Fin 1024)
    (R : Fin 8192) (O : Fin 4096) (hR : R.val = t.val / 16 * 2048 + p.val) (hO : O.val = t.val / 4 % 4 * 1024 + q.val) :
    mainOut V c t (ix2 p q) = gemmOf (actsAt V c) (weightAt V c) (innerAt V c) (factorAt V c) (ix2 R O) := by
  unfold mainOut
  rw [emit_apply, mainAcc_run V c t h3 p q R O hR hO, gemmOf_apply]
  refine congrArg (_ + ·) (congrArg (Cert.Spec.two * ·) (Finset.sum_congr rfl fun r _ => ?_))
  rw [inner_block V c t p r R r hR (by show r.val = 0 * 128 + r.val; omega),
    factor_block V c t q r O r hO (by show r.val = 0 * 128 + r.val; omega)]

/-- What the last point of a run writes back is its block of the whole output. -/
theorem flushed_tile (c : Dev nD) (t : Fin cfg2.N) (h3 : t.val % 4 = 3) :
    (mainDat (F := Ideal) V c).flushed 4 t
      = ((cfg2.win 4).blk t).view.read (Elt Ideal) (gemmOf (actsAt V c) (weightAt V c) (innerAt V c) (factorAt V c)) := by
  have hN : cfg2.N = 64 := N_2
  have ht := t.isLt
  obtain ⟨-, -, -, -, -, -, -, -, i0, i1⟩ := tile_index t
  show (cfg2.win 4).cut (grid2.coords t) ((mainDat (F := Ideal) V c).after 4 t) = _
  rw [mainDat_after4]
  funext j
  show mainOut V c t j
    = gemmOf (actsAt V c) (weightAt V c) (innerAt V c) (factorAt V c) (((cfg2.win 4).blk t).view.emb j)
  have hj0 : (j 0).val < 2048 := idx2_lt0 j
  have hj1 : (j 1).val < 1024 := idx2_lt1 j
  refine (congrArg (mainOut V c t) (eq_ix2 (n0 := 2048) (n1 := 1024) j)).trans ?_
  refine (tile_of_arrays V c t h3 (j 0) (j 1) ⟨t.val / 16 * 2048 + (j 0).val, by omega⟩
    ⟨t.val / 4 % 4 * 1024 + (j 1).val, by omega⟩ rfl rfl).trans ?_
  refine congrArg (gemmOf (actsAt V c) (weightAt V c) (innerAt V c) (factorAt V c)) (funext fun a => Fin.ext ?_)
  match a with
  | ⟨0, _⟩ => show t.val / 16 * 2048 + (j 0).val = win2_4.index t (0 : Fin 2) * 2048 + 1 * (j 0).val; omega
  | ⟨1, _⟩ => show t.val / 4 % 4 * 1024 + (j 1).val = win2_4.index t (1 : Fin 2) * 1024 + 1 * (j 1).val; omega

/-- Entry (r, o) of the output is in the block of the run (i, j) = (r / 2048, o / 1024), written back at the run's
    last point 16 i + 4 j + 3. -/
theorem tile_cover (i : S8192x4096.Idx) :
    ∃ t : Fin cfg2.N, (cfg2.win 4).flush t = true ∧ i ∈ ((cfg2.win 4).blk t).view.set := by
  have h0 : (i 0).val < 8192 := idx2_lt0 i
  have h1 : (i 1).val < 4096 := idx2_lt1 i
  have hN : cfg2.N = 64 := N_2
  let t : Fin cfg2.N := ⟨16 * ((i 0).val / 2048) + 4 * ((i 1).val / 1024) + 3, by rw [hN]; omega⟩
  have htv : t.val = 16 * ((i 0).val / 2048) + 4 * ((i 1).val / 1024) + 3 := rfl
  obtain ⟨-, -, -, -, -, -, -, -, i0, i1⟩ := tile_index t
  refine ⟨t, (flush2_4 t).mpr (by omega), ?_⟩
  show i ∈ ((View.whole main_v8).slice (win2_4.rect t)).set
  rw [View.set_slice_whole, Rect.mem_set_unit]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 1024 ≤ (i 1).val ∧ (i 1).val < win2_4.index t (1 : Fin 2) * 1024 + 1024
    omega

/-- After the launch the output array holds, at every entry (r, o), the four-run contraction of row r of the
    activations with row o of the weight plus twice the contraction of row r of the inner product with row o of the
    second factor. -/
theorem main_final (c : Dev nD) :
    (mainDat (F := Ideal) V c).arrAt 4 cfg2.N = gemmOf (actsAt V c) (weightAt V c) (innerAt V c) (factorAt V c) :=
  (mainDat (F := Ideal) V c).arrAt_eq_of_cover 4 (gemmOf (actsAt V c) (weightAt V c) (innerAt V c) (factorAt V c))
    (fun t hf => flushed_tile V c t ((flush2_4 t).mp hf)) (fun i => tile_cover i)

end Launch

end Cert.KernelIdeal.Hand

end
-- ==== Proof.Bridge.lean ====
/-
  The law that joins the shape in which the kernel computes the layer to the specification's.

  The kernel works on the activations regrouped as 8192 rows, takes each 4096-long contraction in four runs of 1024,
  and carries the low-rank factors widened from 64 to 128 with zeros.  Over abstract arrays that read as those
  regroupings and widenings of x, A, B and the dequantised weight, the kernel's expression for one output element is
  the specification's: the four runs add up to the whole contraction, and the rank coordinates from 64 on contribute
  nothing because the widened B is zero there.
-/
import proofs.«406961_j15015205667342_3_alg».proof.Proof.Spec
import proofs.«406961_j15015205667342_3_alg».proof.Proof.SumLaws
import Idealize.ShloMosaic.Lib.ValueIdx
import Mathlib.Algebra.BigOperators.Group.Finset.Basic
import Mathlib.Data.EReal.Basic

noncomputable section

namespace Cert.Bridge

open Idealize.ShloMosaic Idealize.ShloMosaic.ValueIdx Cert.Sums
open scoped BigOperators

/-- One output element, kernel shape against specification shape.  Row r of the regrouped activations is position
    (b, t); w is the dequantised weight; ap and bp are A and B widened to 128 with zeros; pr is the projection of row r
    onto the 128 widened rank coordinates, each taken in four runs. -/
theorem kernel_eq_spec
    (x : (⟨3, ![4, 2048, 4096]⟩ : Shape).Idx → EReal) (A : (⟨2, ![64, 4096]⟩ : Shape).Idx → EReal)
    (B : (⟨2, ![4096, 64]⟩ : Shape).Idx → EReal) (am : (⟨1, ![262144]⟩ : Shape).Idx → EReal)
    (codes : (⟨2, ![4096, 4096]⟩ : Shape).Idx → BitVec 32)
    (xb : (⟨2, ![8192, 4096]⟩ : Shape).Idx → EReal) (w : (⟨2, ![4096, 4096]⟩ : Shape).Idx → EReal)
    (ap : (⟨2, ![128, 4096]⟩ : Shape).Idx → EReal) (pr : (⟨2, ![8192, 128]⟩ : Shape).Idx → EReal)
    (bp : (⟨2, ![4096, 128]⟩ : Shape).Idx → EReal)
    (b : Fin 4) (t : Fin 2048) (o : Fin 4096) (r : Fin 8192)
    (hx : ∀ d : Fin 4096, xb (ix2 r d) = x (ix3 b t d))
    (hw : ∀ d : Fin 4096, w (ix2 o d) = Cert.Spec.weight codes am o d)
    (hap : ∀ (q : Fin 128) (d : Fin 4096), ap (ix2 q d) = if h : q.val < 64 then A (ix2 ⟨q.val, h⟩ d) else 0)
    (hpr : ∀ q : Fin 128, pr (ix2 r q) = fourRuns (fun d : Fin 4096 => xb (ix2 r d) * ap (ix2 q d)))
    (hbp : ∀ q : Fin 128, bp (ix2 o q) = if h : q.val < 64 then B (ix2 o ⟨q.val, h⟩) else 0) :
    fourRuns (fun d : Fin 4096 => xb (ix2 r d) * w (ix2 o d))
        + Cert.Spec.two * ∑ q : Fin 128, pr (ix2 r q) * bp (ix2 o q)
      = Cert.Spec.out x A B am codes b t o := by
  -- the base product: four runs are the whole contraction, read through the regrouping and the weight
  have hbase : fourRuns (fun d : Fin 4096 => xb (ix2 r d) * w (ix2 o d))
      = ∑ d : Fin 4096, x (ix3 b t d) * Cert.Spec.weight codes am o d := by
    rw [fourRuns_eq]
    exact Finset.sum_congr rfl fun d _ => by rw [hx, hw]
  -- the correction: the rank coordinates from 64 on meet a zero of the widened B
  have hcorr : ∑ q : Fin 128, pr (ix2 r q) * bp (ix2 o q)
      = ∑ q : Fin 64, (∑ d : Fin 4096, x (ix3 b t d) * A (ix2 q d)) * B (ix2 o q) := by
    rw [padded_sum (fun q : Fin 128 => pr (ix2 r q) * bp (ix2 o q)) (fun q hq => by
      show pr (ix2 r q) * bp (ix2 o q) = 0
      rw [hbp, dif_neg (Nat.not_lt.mpr hq), mul_zero])]
    refine Finset.sum_congr rfl fun q _ => ?_
    have hq : ((⟨q.val, by have := q.isLt; omega⟩ : Fin 128)).val < 64 := q.isLt
    show pr (ix2 r (⟨q.val, by have := q.isLt; omega⟩ : Fin 128)) * bp (ix2 o (⟨q.val, by have := q.isLt; omega⟩ : Fin 128)) = _
    rw [hpr, hbp, dif_pos hq, fourRuns_eq]
    refine congrArg₂ (· * ·) (Finset.sum_congr rfl fun d _ => ?_) rfl
    rw [hx, hap, dif_pos hq]
  unfold Cert.Spec.out
  rw [hbase, hcorr]

end Cert.Bridge

end
-- ==== Proof.KI.Value.lean ====
/-
  The kernel program's result, read at an index.

  The last item of @main reshapes launch 2's output; launch 2's output is, entry by entry, the base product of its
  first two input arrays taken in four runs plus twice the product of its last two; those four arrays are, going
  back through the earlier items: the copy of x launch 1 made (x itself over the extended reals, reshaped to 8192
  rows by the first host operation), the weight launch 0 rebuilt from the codes and the reshaped scales, the
  projection launch 1 accumulated from x and the zero-padded first factor, and the zero-padded second factor.
  Put together, and joined to the specification by the summation laws, the result at (b, t, o) is the
  specification's value.
-/
import proofs.«406961_j15015205667342_3_alg».proof.Proof.KI.Run
import proofs.«406961_j15015205667342_3_alg».proof.Proof.KI.DeqValue
import proofs.«406961_j15015205667342_3_alg».proof.Proof.KI.HostVals
import proofs.«406961_j15015205667342_3_alg».proof.Proof.KI.InnerValue
import proofs.«406961_j15015205667342_3_alg».proof.Proof.KI.MainValue
import proofs.«406961_j15015205667342_3_alg».proof.Proof.Bridge

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (m : (ℓ : Loc nD τ sig) → Buf (Elt Ideal) ℓ) (c : Dev nD)

/-! ## What launch 2 reads -/

/-- The weight: what launch 0 left in its output, which launch 1 does not touch. -/
theorem weight_in (hc : ∀ i, ((m ((c : Thread nD τ).loc main_arg4) : S4096x4096.Idx → BitVec 32) i).toNat < 16) :
    (at7 m c main_v6 : S4096x4096.Idx → EReal) = weightOf (V5 m c main_arg4) (V5 m c main_v5) := by
  have h1 : at7 m c main_v6 = at6 m c main_v6 := after7_of_ne m c main_v6 (by decide)
  have h2 : at6 m c main_v6 = (deqDat (at5 m) c).arrAt 2 cfg0.N := after6_arr m c 2
  rw [h1, h2]
  exact deq_final (at5 m) c (fun i => by
    show ((V5 m c main_arg4 : S4096x4096.Idx → BitVec 32) i).toNat < 16
    rw [V5_arg4]; exact hc i)

/-- The zero-padded second factor: no launch before launch 2 touches it. -/
theorem lowB_in : (at7 m c main_v4 : S4096x128.Idx → EReal) = V5 m c main_v4 := by
  have h1 : at7 m c main_v4 = at6 m c main_v4 := after7_of_ne m c main_v4 (by decide)
  have h2 : at6 m c main_v4 = V5 m c main_v4 := after6_of_ne m c main_v4 (by decide)
  rw [h1, h2]

/-- The arrays launch 1 starts from are the host stretches': launch 0 touches neither x nor the padded first factor. -/
theorem x_in1 : (at6 m c main_v0 : S8192x4096.Idx → EReal) = V5 m c main_v0 := after6_of_ne m c main_v0 (by decide)
theorem lowA_in1 : (at6 m c main_v3 : S128x4096.Idx → EReal) = V5 m c main_v3 := after6_of_ne m c main_v3 (by decide)

/-- The copy of x: launch 1's second output, which is x as that launch found it. -/
theorem acts_in : (at7 m c main_v7_1 : S8192x4096.Idx → EReal) = fun j => (V5 m c main_v0 : S8192x4096.Idx → EReal) j := by
  have h1 : at7 m c main_v7_1 = (innerDat (at6 m) c).arrAt 3 cfg1.N := after7_arr m c 3
  rw [h1, inner_final3 (at6 m) c]
  funext j
  exact congrFun (x_in1 m c) j

/-- The projection: launch 1's first output, accumulated from x and the zero-padded first factor. -/
theorem proj_in : (at7 m c main_v7_0 : S8192x128.Idx → EReal) = projOf (V5 m c main_v0) (V5 m c main_v3) := by
  have h1 : at7 m c main_v7_0 = (innerDat (at6 m) c).arrAt 2 cfg1.N := after7_arr m c 2
  rw [h1, inner_final2 (at6 m) c]
  show projOf (at6 m c main_v0) (at6 m c main_v3) = _
  rw [x_in1 m c, lowA_in1 m c]

/-! ## The result at an index -/

/-- The kernel program's result at (b, t, o) is the specification's value there. -/
theorem kernel_value (hc : ∀ i, ((m ((c : Thread nD τ).loc main_arg4) : S4096x4096.Idx → BitVec 32) i).toNat < 16)
    (b : Fin 4) (t : Fin 2048) (o : Fin 4096) :
    (after9 m c (Proc.devRef .tc main_v9) : S4x2048x4096.Idx → EReal) (ix3 b t o)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) b t o := by
  have hlt : b.val * 2048 + t.val < 8192 := by have := b.isLt; have := t.isLt; omega
  have h8 : (after8 m c main_v8 : S8192x4096.Idx → EReal)
      = gemmOf (at7 m c main_v7_1) (at7 m c main_v6) (at7 m c main_v7_0) (at7 m c main_v4) :=
    (after8_arr m c 4).trans (main_final (at7 m) c)
  refine (after_out (after8 m c) b t o).trans ?_
  rw [h8, gemmOf_apply, acts_in m c, weight_in m c hc, proj_in m c, lowB_in m c]
  refine Cert.Bridge.kernel_eq_spec (m ((c : Thread nD τ).loc main_arg0)) (m ((c : Thread nD τ).loc main_arg1))
    (m ((c : Thread nD τ).loc main_arg2)) (m ((c : Thread nD τ).loc main_arg3)) (m ((c : Thread nD τ).loc main_arg4))
    (fun j => (V5 m c main_v0 : S8192x4096.Idx → EReal) j) (weightOf (V5 m c main_arg4) (V5 m c main_v5))
    (V5 m c main_v3) (projOf (V5 m c main_v0) (V5 m c main_v3)) (V5 m c main_v4) b t o ⟨b.val * 2048 + t.val, hlt⟩ ?_ ?_ ?_ ?_ ?_
  · -- row b·2048 + t of the reshaped x is x at (b, t)
    intro d
    have := V5_x m c ⟨b.val * 2048 + t.val, hlt⟩ d
    rw [this]
    congr 1
    have hb : (b.val * 2048 + t.val) / 2048 = b.val := by have := t.isLt; omega
    have ht : (b.val * 2048 + t.val) % 2048 = t.val := by have := t.isLt; omega
    funext a
    match a with
    | ⟨0, _⟩ => exact Fin.ext hb
    | ⟨1, _⟩ => exact Fin.ext ht
    | ⟨2, _⟩ => rfl
  · -- the rebuilt weight is the specification's: the reshaped scales at (o, d / 64) are the scale of entry (o, d)'s run
    intro d
    rw [weightOf_apply, V5_arg4, V5_scale]
    rfl
  · intro q d; exact V5_A m c q d
  · intro q; rfl
  · intro q; exact V5_B m c o q

end Cert.KernelIdeal.Hand

end
-- ==== Proof.RefOut.lean ====
/-
  The reference program's result as one pure term of its five arguments.

  The sixteen levels are a constant table; a code c is first normalised to c + 16 when it is negative, the table is
  read at the normalised code (element by element over the 4096 x 4096 code matrix), the levels are regrouped in rows
  of 64 consecutive entries and each row is multiplied by its own scale, and the scaled levels are regrouped as the
  4096 x 4096 weight.  The result is  x . weight^T  +  2 * ((x . A^T) . B^T).
-/
import proofs.«406961_j15015205667342_3_alg».proof.ReferenceIdeal

noncomputable section

namespace Cert.RefHand

open Cert.ReferenceIdeal Idealize.ShloMosaic
open Cert.ReferenceIdeal.Facts₀

variable {F : FTy → Type} [FloatOps F] [Cert.ReferenceIdeal.Facts]

/-- The table of sixteen levels, entry k the k-th word of the literal list. -/
def levels : FVec F S16 .f32 := fun i => FloatOps.ofBits .f32 (lit0 (S16.rowMajor i))

/-- A code read as a table position: a negative code c names position c + 16, any other code itself. -/
def position (codes : IVec S4096x4096 32) : IVec S4096x4096 32 :=
  select (cmpi .slt codes (broadcastInDim S4096x4096 ![] bcast_S_S4096x4096 (constantI S_ 32 0#32)))
    (addi codes (broadcastInDim S4096x4096 ![] bcast_S_S4096x4096 (constantI S_ 32 16#32))) codes

/-- The level of every entry of the code matrix: the table read at the entry's position. -/
def levelMat (codes : IVec S4096x4096 32) : FVec F S4096x4096 .f32 :=
  Host.gather gather_S16_S4096x4096x1_S4096x4096_n_0_n_n_0_2_1 (levels (F := F))
    (broadcastInDim S4096x4096x1 ![0, 1] bcast_S4096x4096_S4096x4096x1_0_1 (position codes))

/-- The scales laid beside the rows of 64: row g of the [262144, 64] grouping carries scale g in each of its columns. -/
def scaleRows (am : FVec F S262144 .f32) : FVec F S262144x64 .f32 :=
  broadcastInDim S262144x64 ![0, 1] bcast_S262144x1_S262144x64_0_1
    (broadcastInDim S262144x1 ![0] bcast_S262144_S262144x1_0 am)

/-- The dequantised weight: levels grouped in rows of 64, each row times its scale, grouped back as 4096 x 4096. -/
def wmat (am : FVec F S262144 .f32) (codes : IVec S4096x4096 32) : FVec F S4096x4096 .f32 :=
  shapeCast S4096x4096
    (mulf (shapeCast S262144x64 (levelMat (F := F) codes) shapeCasts_S4096x4096_S262144x64) (scaleRows am))
    shapeCasts_S262144x64_S4096x4096

/-- The low-rank correction (x . A^T) . B^T. -/
def lowRank (x : FVec F S4x2048x4096 .f32) (A : FVec F S64x4096 .f32) (B : FVec F S4096x64 .f32) :
    FVec F S4x2048x4096 .f32 :=
  Host.dotGeneral dot_S4x2048x64_S4096x64_S4x2048x4096_2_1_01_0_n_n none
    (Host.dotGeneral dot_S4x2048x4096_S64x4096_S4x2048x64_2_1_01_0_n_n none x A) B

/-- The reference's result: the base product with the dequantised weight plus twice the low-rank correction. -/
def out (x : FVec F S4x2048x4096 .f32) (A : FVec F S64x4096 .f32) (B : FVec F S4096x64 .f32)
    (am : FVec F S262144 .f32) (codes : IVec S4096x4096 32) : FVec F S4x2048x4096 .f32 :=
  addf (Host.dotGeneral dot_S4x2048x4096_S4096x4096_S4x2048x4096_2_1_01_0_n_n none x (wmat am codes))
    (mulf (broadcastInDim S4x2048x4096 ![] bcast_S_S4x2048x4096 (constant (F := F) S_ .f32 0x40000000#32))
      (lowRank x A B))

end Cert.RefHand

end
-- ==== Proof.RefRun.lean ====
/-
  The reference program run: it is a straight line of 22 host operations, so its execution is the fold of the
  operations over the launch memory, and the result buffer reads back as the one pure term `out` of the arguments.
-/
import proofs.«406961_j15015205667342_3_alg».proof.Proof.RefOut
import Idealize.ShloMosaic.Lib.StableHlo.Run

noncomputable section

namespace Cert.RefHand

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The reference's 22 operations, in program order: the level table and the two integer constants with their
    broadcasts, the normalisation of the codes, the table read, the regrouping in rows of 64 and the scaling, the
    three contractions, the constant 2 and the final multiply and add. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg4 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg4 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg4 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v6 main_v7 rfl shapeCasts_S4096x4096_S262144x64,
    unary main_arg3 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x64 ![0, 1] bcast_S262144x1_S262144x64_0_1 : (⟨S262144x1, .f32⟩ : BufTy).Contents (Elt F) → (⟨S262144x64, .f32⟩ : BufTy).Contents (Elt F)),
    binary main_v7 main_v9 main_v10 (mulf : (⟨S262144x64, .f32⟩ : BufTy).Contents (Elt F) → (⟨S262144x64, .f32⟩ : BufTy).Contents (Elt F) → (⟨S262144x64, .f32⟩ : BufTy).Contents (Elt F)),
    reshape main_v10 main_v11 rfl shapeCasts_S262144x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg1 main_v13 ((fun l r => Host.dotGeneral dot_S4x2048x4096_S64x4096_S4x2048x64_2_1_01_0_n_n none l r) : (⟨S4x2048x4096, .f32⟩ : BufTy).Contents (Elt F) → (⟨S64x4096, .f32⟩ : BufTy).Contents (Elt F) → (⟨S4x2048x64, .f32⟩ : BufTy).Contents (Elt F)),
    binary main_v13 main_arg2 main_v14 ((fun l r => Host.dotGeneral dot_S4x2048x64_S4096x64_S4x2048x4096_2_1_01_0_n_n none l r) : (⟨S4x2048x64, .f32⟩ : BufTy).Contents (Elt F) → (⟨S4096x64, .f32⟩ : BufTy).Contents (Elt F) → (⟨S4x2048x4096, .f32⟩ : BufTy).Contents (Elt F)),
    nullary main_cst_1 (constant S_ .f32 0x40000000#32),
    unary main_cst_1 main_v15 (broadcastInDim S4x2048x4096 ![] bcast_S_S4x2048x4096 : (⟨S_, .f32⟩ : BufTy).Contents (Elt F) → (⟨S4x2048x4096, .f32⟩ : BufTy).Contents (Elt F)),
    binary main_v15 main_v14 main_v16 (mulf : (⟨S4x2048x4096, .f32⟩ : BufTy).Contents (Elt F) → (⟨S4x2048x4096, .f32⟩ : BufTy).Contents (Elt F) → (⟨S4x2048x4096, .f32⟩ : BufTy).Contents (Elt F)),
    binary main_v12 main_v16 main_v17 (addf : (⟨S4x2048x4096, .f32⟩ : BufTy).Contents (Elt F) → (⟨S4x2048x4096, .f32⟩ : BufTy).Contents (Elt F) → (⟨S4x2048x4096, .f32⟩ : BufTy).Contents (Elt F)) ]

/-- The program is the sequence of its operations. -/
theorem main_eq (c : Dev nD) : main (F := F) c = seq ops := rfl

/-- No buffer of the reference is scoped (every one is a tensor value of the host program). -/
theorem scopedRefs_eq : (Finset.univ.filter fun b : Ref sig .tc => b.isScoped) = ∅ := by decide

/-- The reference has no semaphore, so none is scoped. -/
theorem scopedSems_eq : (Finset.univ.filter fun sm : SemLoc sig => sm.isScoped .tc) = ∅ := by decide

/-- Every operation touches only the device's own tensor buffers. -/
theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., binary_bufs_sub .., ternary_bufs_sub .., unary_bufs_sub .., binary_bufs_sub ..,
    reshape_bufs_sub .., unary_bufs_sub .., unary_bufs_sub .., binary_bufs_sub .., reshape_bufs_sub ..,
    binary_bufs_sub .., binary_bufs_sub .., binary_bufs_sub .., nullary_bufs_sub .., unary_bufs_sub ..,
    binary_bufs_sub .., binary_bufs_sub ..⟩

/-- From any memory with zero counters every weakly fair execution of the reference terminates; the result buffer
    then holds `out` of the five arguments' launch contents, and the five arguments hold what they held. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v17)
          = out (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v17).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.RefHand

end
-- ==== Proof.RefRead.lean ====
/-
  The reference's result read at one index (b, t, o), operation by operation, and found to be the layer's output as the
  specification writes it: the table read gives the level of the entry's code, the two regroupings place entry (o, d)
  in row o * 64 + d / 64 of the rows of 64 so that it meets the scale of its own run, and each contraction is a sum over
  its one contracted coordinate.
-/
import proofs.«406961_j15015205667342_3_alg».proof.Proof.RefOut
import proofs.«406961_j15015205667342_3_alg».proof.Proof.Spec
import Idealize.ShloMosaic.Lib.ValueIdx
import Idealize.ShloMosaic.Lib.Pipeline.Value
import Idealize.ShloMosaic.PureOps.Ideal.Laws

noncomputable section

namespace Cert.RefHand

open Cert.ReferenceIdeal Idealize.ShloMosaic Idealize.ShloMosaic.ValueIdx
open Cert.ReferenceIdeal.Facts₀
open scoped BigOperators

variable [Cert.ReferenceIdeal.Facts]

/-! ## Words: a code below 16 is its own table position -/

/-- A word below 16 is not negative as a signed integer. -/
theorem not_neg_of_lt16 (w : BitVec 32) (hw : w.toNat < 16) : IntOp.cmpi .slt w 0#32 = 0#1 := by
  unfold IntOp.cmpi
  have hm : w.msb = false := by
    rw [BitVec.msb_eq_decide]; simp only [decide_eq_false_iff_not, Nat.not_le]; omega
  show BitVec.ofBool (w.slt 0#32) = 0#1
  rw [BitVec.slt_zero_eq_msb, hm]; rfl

/-- Read as a signed integer and clamped into the table, a word below 16 is itself. -/
theorem clamp_of_lt16 (w : BitVec 32) (hw : w.toNat < 16) : min w.toInt.toNat (16 - 1) = w.toNat := by
  rw [BitVec.toInt_eq_toNat_of_lt (by omega), Int.toNat_natCast]; omega

/-! ## The table -/

/-- Entry k of the level table is the specification's level word k. -/
theorem lit0_eq_tab : ∀ k : Fin 16, lit0 k = Cert.Spec.tab k := by decide

/-- The table read at position k. -/
theorem levels_apply (k : Fin 16) : levels (F := Ideal) (ix1 k) = Ideal.ofBits .f32 (Cert.Spec.tab k) := by
  unfold levels
  have hk : S16.rowMajor (ix1 k) = k := Fin.ext (Shape.rowMajor_val_one (ix1 k))
  show Ideal.ofBits .f32 (lit0 (S16.rowMajor (ix1 k))) = _
  rw [hk, lit0_eq_tab]

/-! ## The codes' positions and levels -/

/-- Under the precondition the normalisation leaves every code as it is. -/
theorem position_apply (codes : IVec S4096x4096 32) (hc : ∀ i, (codes i).toNat < 16) (j : S4096x4096.Idx) :
    position codes j = codes j := by
  show Scalar.select (IntOp.cmpi .slt (codes j) 0#32) (IntOp.addi (codes j) 16#32) (codes j) = codes j
  rw [not_neg_of_lt16 _ (hc j), select_zero]

/-- The level matrix at (o, d) is the level the specification reads off the code at (o, d). -/
theorem levelMat_apply (codes : IVec S4096x4096 32) (hc : ∀ i, (codes i).toNat < 16) (o d : Fin 4096) :
    levelMat (F := Ideal) codes (ix2 o d) = Cert.Spec.level (codes (ix2 o d)) := by
  unfold levelMat
  refine (gather_take_apply (N := 16) (R := 4096) (C := 4096) (by decide)
    gather_S16_S4096x4096x1_S4096x4096_n_0_n_n_0_2_1_wf (levels (F := Ideal)) _ (ix2 o d)).trans ?_
  have hidx : broadcastInDim S4096x4096x1 ![0, 1] bcast_S4096x4096_S4096x4096x1_0_1 (position codes) (takeIdx (ix2 o d))
      = position codes (ix2 o d) :=
    broadcastInDim_apply _ _ _ _ (ix2 o d) (fun a => by
      match a with
      | ⟨0, _⟩ => rfl
      | ⟨1, _⟩ => rfl)
  have hpos := position_apply codes hc (ix2 o d)
  have hfin : (⟨min (broadcastInDim S4096x4096x1 ![0, 1] bcast_S4096x4096_S4096x4096x1_0_1 (position codes)
        (takeIdx (ix2 o d))).toInt.toNat (16 - 1), by omega⟩ : Fin 16)
      = ⟨(codes (ix2 o d)).toNat % 16, Nat.mod_lt _ (by decide)⟩ := by
    refine Fin.ext ?_
    show min _ (16 - 1) = (codes (ix2 o d)).toNat % 16
    rw [hidx, hpos, clamp_of_lt16 _ (hc _), Nat.mod_eq_of_lt (hc _)]
  rw [hfin, levels_apply]
  rfl

/-! ## The scales beside the rows of 64, and the weight -/

/-- Row g of the rows of 64 carries scale g in every column. -/
theorem scaleRows_apply (am : FVec Ideal S262144 .f32) (g : Fin 262144) (c : Fin 64) :
    scaleRows am (ix2 g c) = am (ix1 g) := by
  unfold scaleRows
  refine (broadcastInDim_apply _ _ _ _ (ix2 g (0 : Fin 1)) (fun a => by
    match a with
    | ⟨0, _⟩ => rfl
    | ⟨1, _⟩ => rfl)).trans ?_
  exact broadcastInDim_apply _ _ _ _ (ix1 g) (fun a => by
    match a with
    | ⟨0, _⟩ => rfl)

/-- Entry (o, d) of the 4096 x 4096 matrix and entry (o * 64 + d / 64, d % 64) of the rows of 64 are the same
    row-major position, o * 4096 + d. -/
theorem regroup_pos (o d : Fin 4096) (h1 : o.val * 64 + d.val / 64 < 262144) (h2 : d.val % 64 < 64) :
    (S262144x64.rowMajor (ix2 (⟨o.val * 64 + d.val / 64, h1⟩ : Fin 262144) (⟨d.val % 64, h2⟩ : Fin 64))).val
      = (S4096x4096.rowMajor (ix2 o d)).val := by
  rw [Shape.rowMajor_val_two, Shape.rowMajor_val_two]
  show (o.val * 64 + d.val / 64) * 64 + d.val % 64 = o.val * 4096 + d.val
  omega

/-- The dequantised weight at (o, d): the level of the code at (o, d) times the scale of the run of 64 it lies in. -/
theorem wmat_apply (am : FVec Ideal S262144 .f32) (codes : IVec S4096x4096 32) (hc : ∀ i, (codes i).toNat < 16)
    (o d : Fin 4096) : wmat (F := Ideal) am codes (ix2 o d) = Cert.Spec.weight codes am o d := by
  have h1 : o.val * 64 + d.val / 64 < 262144 := by have := o.isLt; have := d.isLt; omega
  have h2 : d.val % 64 < 64 := Nat.mod_lt _ (by decide)
  unfold wmat
  refine (shapeCast_apply _ _ (ix2 o d) (ix2 (⟨o.val * 64 + d.val / 64, h1⟩ : Fin 262144) (⟨d.val % 64, h2⟩ : Fin 64))
    (regroup_pos o d h1 h2)).trans ?_
  rw [mulf_apply, scaleRows_apply,
    shapeCast_apply (levelMat (F := Ideal) codes) shapeCasts_S4096x4096_S262144x64 _ (ix2 o d) (regroup_pos o d h1 h2).symm,
    levelMat_apply codes hc]
  rfl

/-! ## The three contractions, each a sum over its one contracted coordinate

For each record: the left operand's index at result index i and contraction position q keeps i's first two coordinates
and takes q on its last axis; the right operand's takes i's last coordinate on its first axis and q on its second. -/

/-! ### x against the weight: [4, 2048, 4096] with [4096, 4096] over the 4096 input features -/

theorem base_lhs0 (i : S4x2048x4096.Idx) (q : dot_S4x2048x4096_S4096x4096_S4x2048x4096_2_1_01_0_n_n.contr.Idx) : (dot_S4x2048x4096_S4096x4096_S4x2048x4096_2_1_01_0_n_n.lhsIdx i q 0).val = (i 0).val := by
  unfold DotDims.lhsIdx
  rw [dif_neg (show ¬(0 : Fin S4x2048x4096.rank) ∈ dot_S4x2048x4096_S4096x4096_S4x2048x4096_2_1_01_0_n_n.lhsBatch from List.not_mem_nil),
    dif_pos (show (0 : Fin S4x2048x4096.rank) ∈ dot_S4x2048x4096_S4096x4096_S4x2048x4096_2_1_01_0_n_n.lhsNonContracting from List.mem_cons_self)]
  rfl
theorem base_lhs1 (i : S4x2048x4096.Idx) (q : dot_S4x2048x4096_S4096x4096_S4x2048x4096_2_1_01_0_n_n.contr.Idx) : (dot_S4x2048x4096_S4096x4096_S4x2048x4096_2_1_01_0_n_n.lhsIdx i q 1).val = (i 1).val := by
  unfold DotDims.lhsIdx
  rw [dif_neg (show ¬(1 : Fin S4x2048x4096.rank) ∈ dot_S4x2048x4096_S4096x4096_S4x2048x4096_2_1_01_0_n_n.lhsBatch from List.not_mem_nil),
    dif_pos (show (1 : Fin S4x2048x4096.rank) ∈ dot_S4x2048x4096_S4096x4096_S4x2048x4096_2_1_01_0_n_n.lhsNonContracting from List.mem_cons_of_mem _ List.mem_cons_self)]
  rfl
theorem base_lhs2 (i : S4x2048x4096.Idx) (q : dot_S4x2048x4096_S4096x4096_S4x2048x4096_2_1_01_0_n_n.contr.Idx) : (dot_S4x2048x4096_S4096x4096_S4x2048x4096_2_1_01_0_n_n.lhsIdx i q 2).val = (q ⟨0, Nat.one_pos⟩).val :=
  dot_S4x2048x4096_S4096x4096_S4x2048x4096_2_1_01_0_n_n.lhsIdx_val_of_single rfl i q
theorem base_rhs0 (i : S4x2048x4096.Idx) (q : dot_S4x2048x4096_S4096x4096_S4x2048x4096_2_1_01_0_n_n.contr.Idx) : (dot_S4x2048x4096_S4096x4096_S4x2048x4096_2_1_01_0_n_n.rhsIdx i q 0).val = (i 2).val := by
  unfold DotDims.rhsIdx
  rw [dif_neg (show ¬(0 : Fin S4096x4096.rank) ∈ dot_S4x2048x4096_S4096x4096_S4x2048x4096_2_1_01_0_n_n.rhsBatch from List.not_mem_nil),
    dif_pos (show (0 : Fin S4096x4096.rank) ∈ dot_S4x2048x4096_S4096x4096_S4x2048x4096_2_1_01_0_n_n.rhsNonContracting from List.mem_cons_self)]
  rfl
theorem base_rhs1 (i : S4x2048x4096.Idx) (q : dot_S4x2048x4096_S4096x4096_S4x2048x4096_2_1_01_0_n_n.contr.Idx) : (dot_S4x2048x4096_S4096x4096_S4x2048x4096_2_1_01_0_n_n.rhsIdx i q 1).val = (q ⟨0, Nat.one_pos⟩).val :=
  dot_S4x2048x4096_S4096x4096_S4x2048x4096_2_1_01_0_n_n.rhsIdx_val_of_single rfl i q

/-- The base product at (b, t, o): the sum over the input features d of x(b, t, d) times the weight's (o, d). -/
theorem base_apply (l : FVec Ideal S4x2048x4096 .f32) (r : FVec Ideal S4096x4096 .f32) (b : Fin 4) (t : Fin 2048) (o : Fin 4096) :
    Host.dotGeneral dot_S4x2048x4096_S4096x4096_S4x2048x4096_2_1_01_0_n_n none l r (ix3 b t o) = ∑ k : Fin 4096, l (ix3 b t k) * r (ix2 o k) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b t o) ((contrEquiv1 dot_S4x2048x4096_S4096x4096_S4x2048x4096_2_1_01_0_n_n 4096 rfl rfl).symm k) = ix3 b t k :=
    funext fun a => Fin.ext (by
      match a with
      | ⟨0, _⟩ => exact base_lhs0 _ _
      | ⟨1, _⟩ => exact base_lhs1 _ _
      | ⟨2, _⟩ => exact (base_lhs2 _ _).trans hk)
  have er : dot_S4x2048x4096_S4096x4096_S4x2048x4096_2_1_01_0_n_n.rhsIdx (ix3 b t o) ((contrEquiv1 dot_S4x2048x4096_S4096x4096_S4x2048x4096_2_1_01_0_n_n 4096 rfl rfl).symm k) = ix2 o k :=
    funext fun a => Fin.ext (by
      match a with
      | ⟨0, _⟩ => exact base_rhs0 _ _
      | ⟨1, _⟩ => exact (base_rhs1 _ _).trans hk)
  rw [el, er]

/-! ### x against A: [4, 2048, 4096] with [64, 4096] over the 4096 input features -/

theorem down_lhs0 (i : S4x2048x64.Idx) (q : dot_S4x2048x4096_S64x4096_S4x2048x64_2_1_01_0_n_n.contr.Idx) : (dot_S4x2048x4096_S64x4096_S4x2048x64_2_1_01_0_n_n.lhsIdx i q 0).val = (i 0).val := by
  unfold DotDims.lhsIdx
  rw [dif_neg (show ¬(0 : Fin S4x2048x4096.rank) ∈ dot_S4x2048x4096_S64x4096_S4x2048x64_2_1_01_0_n_n.lhsBatch from List.not_mem_nil),
    dif_pos (show (0 : Fin S4x2048x4096.rank) ∈ dot_S4x2048x4096_S64x4096_S4x2048x64_2_1_01_0_n_n.lhsNonContracting from List.mem_cons_self)]
  rfl
theorem down_lhs1 (i : S4x2048x64.Idx) (q : dot_S4x2048x4096_S64x4096_S4x2048x64_2_1_01_0_n_n.contr.Idx) : (dot_S4x2048x4096_S64x4096_S4x2048x64_2_1_01_0_n_n.lhsIdx i q 1).val = (i 1).val := by
  unfold DotDims.lhsIdx
  rw [dif_neg (show ¬(1 : Fin S4x2048x4096.rank) ∈ dot_S4x2048x4096_S64x4096_S4x2048x64_2_1_01_0_n_n.lhsBatch from List.not_mem_nil),
    dif_pos (show (1 : Fin S4x2048x4096.rank) ∈ dot_S4x2048x4096_S64x4096_S4x2048x64_2_1_01_0_n_n.lhsNonContracting from List.mem_cons_of_mem _ List.mem_cons_self)]
  rfl
theorem down_lhs2 (i : S4x2048x64.Idx) (q : dot_S4x2048x4096_S64x4096_S4x2048x64_2_1_01_0_n_n.contr.Idx) : (dot_S4x2048x4096_S64x4096_S4x2048x64_2_1_01_0_n_n.lhsIdx i q 2).val = (q ⟨0, Nat.one_pos⟩).val :=
  dot_S4x2048x4096_S64x4096_S4x2048x64_2_1_01_0_n_n.lhsIdx_val_of_single rfl i q
theorem down_rhs0 (i : S4x2048x64.Idx) (q : dot_S4x2048x4096_S64x4096_S4x2048x64_2_1_01_0_n_n.contr.Idx) : (dot_S4x2048x4096_S64x4096_S4x2048x64_2_1_01_0_n_n.rhsIdx i q 0).val = (i 2).val := by
  unfold DotDims.rhsIdx
  rw [dif_neg (show ¬(0 : Fin S64x4096.rank) ∈ dot_S4x2048x4096_S64x4096_S4x2048x64_2_1_01_0_n_n.rhsBatch from List.not_mem_nil),
    dif_pos (show (0 : Fin S64x4096.rank) ∈ dot_S4x2048x4096_S64x4096_S4x2048x64_2_1_01_0_n_n.rhsNonContracting from List.mem_cons_self)]
  rfl
theorem down_rhs1 (i : S4x2048x64.Idx) (q : dot_S4x2048x4096_S64x4096_S4x2048x64_2_1_01_0_n_n.contr.Idx) : (dot_S4x2048x4096_S64x4096_S4x2048x64_2_1_01_0_n_n.rhsIdx i q 1).val = (q ⟨0, Nat.one_pos⟩).val :=
  dot_S4x2048x4096_S64x4096_S4x2048x64_2_1_01_0_n_n.rhsIdx_val_of_single rfl i q

/-- The projection onto the rank coordinates at (b, t, r): the sum over d of x(b, t, d) times A(r, d). -/
theorem down_apply (l : FVec Ideal S4x2048x4096 .f32) (r : FVec Ideal S64x4096 .f32) (b : Fin 4) (t : Fin 2048) (o : Fin 64) :
    Host.dotGeneral dot_S4x2048x4096_S64x4096_S4x2048x64_2_1_01_0_n_n none l r (ix3 b t o) = ∑ k : Fin 4096, l (ix3 b t k) * r (ix2 o k) := by
  simp only [Host.dotGeneral]
  rw [Ideal.dotGeneral_apply, ← Equiv.sum_comp (contrEquiv1 dot_S4x2048x4096_S64x4096_S4x2048x64_2_1_01_0_n_n 4096 rfl rfl).symm]
  refine Finset.sum_congr rfl fun k _ => ?_
  have hk := contrEquiv1_symm_val dot_S4x2048x4096_S64x4096_S4x2048x64_2_1_01_0_n_n 4096 rfl rfl k
  have el : dot_S4x2048x4096_S64x4096_S4x2048x64_2_1_01_0_n_n.lhsIdx (ix3 b t o) ((contrEquiv1 dot_S4x2048x4096_S64x4096_S4x2048x64_2_1_01_0_n_n 4096 rfl rfl).symm k) = ix3 b t k :=
    funext fun a => Fin.ext (by
      match a with
      | ⟨0, _⟩ => exact down_lhs0 _ _
      | ⟨1, _⟩ => exact down_lhs1 _ _
      | ⟨2, _⟩ => exact (down_lhs2 _ _).trans hk)
  have er : dot_S4x2048x4096_S64x4096_S4x2048x64_2_1_01_0_n_n.rhsIdx (ix3 b t o) ((contrEquiv1 dot_S4x2048x4096_S64x4096_S4x2048x64_2_1_01_0_n_n 4096 rfl rfl).symm k) = ix2 o k :=
    funext fun a => Fin.ext (by
      match a with
      | ⟨0, _⟩ => exact down_rhs0 _ _
      | ⟨1, _⟩ => exact (down_rhs1 _ _).trans hk)
  rw [el, er]

/-! ### the projection against B: [4, 2048, 64] with [4096, 64] over the 64 rank coordinates -/

theorem up_lhs0 (i : S4x2048x4096.Idx) (q : dot_S4x2048x64_S4096x64_S4x2048x4096_2_1_01_0_n_n.contr.Idx) : (dot_S4x2048x64_S4096x64_S4x2048x4096_2_1_01_0_n_n.lhsIdx i q 0).val = (i 0).val := by
  unfold DotDims.lhsIdx
  rw [dif_neg (show ¬(0 : Fin S4x2048x64.rank) ∈ dot_S4x2048x64_S4096x64_S4x2048x4096_2_1_01_0_n_n.lhsBatch from List.not_mem_nil),
    dif_pos (show (0 : Fin S4x2048x64.rank) ∈ dot_S4x2048x64_S4096x64_S4x2048x4096_2_1_01_0_n_n.lhsNonContracting from List.mem_cons_self)]
  rfl
theorem up_lhs1 (i : S4x2048x4096.Idx) (q : dot_S4x2048x64_S4096x64_S4x2048x4096_2_1_01_0_n_n.contr.Idx) : (dot_S4x2048x64_S4096x64_S4x2048x4096_2_1_01_0_n_n.lhsIdx i q 1).val = (i 1).val := by
  unfold DotDims.lhsIdx
  rw [dif_neg (show ¬(1 : Fin S4x2048x64.rank) ∈ dot_S4x2048x64_S4096x64_S4x2048x4096_2_1_01_0_n_n.lhsBatch from List.not_mem_nil),
    dif_pos (show (1 : Fin S4x2048x64.rank) ∈ dot_S4x2048x64_S4096x64_S4x2048x4096_2_1_01_0_n_n.lhsNonContracting from List.mem_cons_of_mem _ List.mem_cons_self)]
  rfl
theorem up_lhs2 (i : S4x2048x4096.Idx) (q : dot_S4x2048x64_S4096x64_S4x2048x4096_2_1_01_0_n_n.contr.Idx) : (dot_S4x2048x64_S4096x64_S4x2048x4096_2_1_01_0_n_n.lhsIdx i q 2).val = (q ⟨0, Nat.one_pos⟩).val :=
  dot_S4x2048x64_S4096x64_S4x2048x4096_2_1_01_0_n_n.lhsIdx_val_of_single rfl i q
theorem up_rhs0 (i : S4x2048x4096.Idx) (q : dot_S4x2048x64_S4096x64_S4x2048x4096_2_1_01_0_n_n.contr.Idx) : (dot_S4x2048x64_S4096x64_S4x2048x4096_2_1_01_0_n_n.rhsIdx i q 0).val = (i 2).val := by
  unfold DotDims.rhsIdx
  rw [dif_neg (show ¬(0 : Fin S4096x64.rank) ∈ dot_S4x2048x64_S4096x64_S4x2048x4096_2_1_01_0_n_n.rhsBatch from List.not_mem_nil),
    dif_pos (show (0 : Fin S4096x64.rank) ∈ dot_S4x2048x64_S4096x64_S4x2048x4096_2_1_01_0_n_n.rhsNonContracting from List.mem_cons_self)]
  rfl
theorem up_rhs1 (i : S4x2048x4096.Idx) (q : dot_S4x2048x64_S4096x64_S4x2048x4096_2_1_01_0_n_n.contr.Idx) : (dot_S4x2048x64_S4096x64_S4x2048x4096_2_1_01_0_n_n.rhsIdx i q 1).val = (q ⟨0, Nat.one_pos⟩).val :=
  dot_S4x2048x64_S4096x64_S4x2048x4096_2_1_01_0_n_n.rhsIdx_val_of_single rfl i q

/-- The correction at (b, t, o): the sum over the rank coordinates r of the projection's (b, t, r) times B(o, r). -/
theorem up_apply (l : FVec Ideal S4x2048x64 .f32) (r : FVec Ideal S4096x64 .f32) (b : Fin 4) (t : Fin 2048) (o : Fin 4096) :
    Host.dotGeneral dot_S4x2048x64_S4096x64_S4x2048x4096_2_1_01_0_n_n none l r (ix3 b t o) = ∑ k : Fin 64, l (ix3 b t k) * r (ix2 o k) := by
  simp only [Host.dotGeneral]
  rw [Ideal.dotGeneral_apply, ← Equiv.sum_comp (contrEquiv1 dot_S4x2048x64_S4096x64_S4x2048x4096_2_1_01_0_n_n 64 rfl rfl).symm]
  refine Finset.sum_congr rfl fun k _ => ?_
  have hk := contrEquiv1_symm_val dot_S4x2048x64_S4096x64_S4x2048x4096_2_1_01_0_n_n 64 rfl rfl k
  have el : dot_S4x2048x64_S4096x64_S4x2048x4096_2_1_01_0_n_n.lhsIdx (ix3 b t o) ((contrEquiv1 dot_S4x2048x64_S4096x64_S4x2048x4096_2_1_01_0_n_n 64 rfl rfl).symm k) = ix3 b t k :=
    funext fun a => Fin.ext (by
      match a with
      | ⟨0, _⟩ => exact up_lhs0 _ _
      | ⟨1, _⟩ => exact up_lhs1 _ _
      | ⟨2, _⟩ => exact (up_lhs2 _ _).trans hk)
  have er : dot_S4x2048x64_S4096x64_S4x2048x4096_2_1_01_0_n_n.rhsIdx (ix3 b t o) ((contrEquiv1 dot_S4x2048x64_S4096x64_S4x2048x4096_2_1_01_0_n_n 64 rfl rfl).symm k) = ix2 o k :=
    funext fun a => Fin.ext (by
      match a with
      | ⟨0, _⟩ => exact up_rhs0 _ _
      | ⟨1, _⟩ => exact (up_rhs1 _ _).trans hk)
  rw [el, er]

/-! ## The result at an index -/

/-- The low-rank correction at (b, t, o). -/
theorem lowRank_apply (x : FVec Ideal S4x2048x4096 .f32) (A : FVec Ideal S64x4096 .f32) (B : FVec Ideal S4096x64 .f32)
    (b : Fin 4) (t : Fin 2048) (o : Fin 4096) :
    lowRank x A B (ix3 b t o) = ∑ r : Fin 64, (∑ d : Fin 4096, x (ix3 b t d) * A (ix2 r d)) * B (ix2 o r) := by
  unfold lowRank
  rw [up_apply]
  refine Finset.sum_congr rfl fun r _ => ?_
  rw [down_apply]

/-- The reference's result at (b, t, o) is the specification's output there. -/
theorem out_apply (x : FVec Ideal S4x2048x4096 .f32) (A : FVec Ideal S64x4096 .f32) (B : FVec Ideal S4096x64 .f32)
    (am : FVec Ideal S262144 .f32) (codes : IVec S4096x4096 32) (hc : ∀ i, (codes i).toNat < 16)
    (b : Fin 4) (t : Fin 2048) (o : Fin 4096) :
    out (F := Ideal) x A B am codes (ix3 b t o) = Cert.Spec.out x A B am codes b t o := by
  unfold out Cert.Spec.out
  rw [addf_apply, mulf_apply, base_apply, lowRank_apply]
  refine congrArg₂ (· + ·) (Finset.sum_congr rfl fun d _ => ?_) rfl
  rw [wmat_apply am codes hc]

end Cert.RefHand

end
-- ==== Proof.PreRange.lean ====
import proofs.«406961_j15015205667342_3_alg».proof.Proof.Gen.Pre_finite_inputs
import Idealize.ShloMosaic.Lib.ReduceAll
import Idealize.ShloMosaic.Lib.ValueIdx

/-!
# The range of the code words, read out of the precondition

The precondition is one bit: the conjunction of four finiteness tests on the float inputs and of
"every code word c satisfies 0 ≤ c and c < 16", both comparisons signed. The last conjunct is a
conjunction over all 4096 × 4096 positions, started from the bit 1. If the whole bit is 1 then that
last conjunct is 1, hence the bit at every position is 1, hence every word lies in [0, 16) read
signed; a word in that range has its top bit clear, so it is the same number read unsigned.
-/

namespace Cert.PreRange
open Idealize.ShloMosaic

/-- A shape with no axes has a single index (the empty tuple), so a conjunction over all axes
    lands in one place and every position of the operand contributes to it. -/
instance scalarIdx_subsingleton : Subsingleton Cert.Pre_finite_inputs.S_.Idx :=
  ⟨fun _ _ => funext fun d => d.elim0⟩

/-- A 32-bit word whose signed reading is at least 0 and below 16 is below 16 read unsigned:
    a non-negative signed reading means the top bit is clear (twice the unsigned value is below 2³²),
    and then the signed and unsigned readings are the same number. -/
theorem word_lt_sixteen (c : BitVec 32)
    (h : IntOp.andi (IntOp.cmpi .sge c 0#32) (IntOp.cmpi .slt c 16#32) = 1#1) : c.toNat < 16 := by
  obtain ⟨hge, hlt⟩ := IntOp.andi_eq_one.1 h
  rw [IntOp.cmpi_sge, show (0#32 : BitVec 32).toInt = 0 from by decide] at hge
  rw [IntOp.cmpi_slt, show (16#32 : BitVec 32).toInt = 16 from by decide] at hlt
  have htop : 2 * c.toNat < 2 ^ 32 := BitVec.toInt_pos_iff.1 hge
  rw [BitVec.toInt_eq_toNat_of_lt htop] at hlt
  omega

/-- Under the precondition every code word is below 16 (read unsigned; it is also non-negative read signed). -/
theorem codes_lt {F : FTy → Type} [FloatOps F]
    (x : FVec F Cert.Pre_finite_inputs.S4x2048x4096 .f32) (A : FVec F Cert.Pre_finite_inputs.S64x4096 .f32)
    (B : FVec F Cert.Pre_finite_inputs.S4096x64 .f32) (am : FVec F Cert.Pre_finite_inputs.S262144 .f32)
    (codes : IVec Cert.Pre_finite_inputs.S4096x4096 32)
    (h : Cert.Pre_finite_inputs.fn (F := F) x A B am codes = fun _ => 1#1) :
    ∀ i : Cert.Pre_finite_inputs.S4096x4096.Idx, (codes i).toNat < 16 := by
  intro i
  -- the one bit of the precondition, written out as its chain of conjunctions
  have hbit := congrFun h ValueIdx.ix0
  dsimp only [Cert.Pre_finite_inputs.fn, Cert.Pre_finite_inputs.fn_part1] at hbit
  -- outermost conjunction: (the float tests) ∧ (all codes in range); keep the right side
  have hall := (IntOp.andi_eq_one.1 hbit).2
  -- a conjunction over every position that came out 1 is 1 at position i
  have hi := Host.reduce_andi_all _ _ _ _ _ hall i
  -- at position i the two broadcast constants read 0 and 16, and the vector operations act on
  -- the word (codes i): this is the word-level statement by unfolding definitions only
  exact word_lt_sixteen (codes i) hi

end Cert.PreRange
-- ==== Proof.lean ====
/-
  The certificate: a four-bit-quantised linear layer with a low-rank correction, as a three-launch kernel
  program, against its plain reference.

  Both programs compute, at batch b, position t and output feature o,
      sum_d x(b,t,d) * W(o,d)  +  2 * sum_r (sum_d x(b,t,d) * A(r,d)) * B(o,r),
  where W(o,d) = level(code(o,d)) * scale(o*64 + d/64) is the weight rebuilt from its codes (Proof/Spec.lean).
  The reference does so literally (a table lookup, two reshapes around the per-run scaling, three contractions).
  The kernel program rebuilds W in a first launch (the lookup as a tree of selections on the code's low four bits,
  which agrees with the table on codes 0..15: the statement's precondition keeps the codes there), forms the
  inner factor x·Aᵀ in a second launch (the rank padded from 64 to 128 with zeros, the 4096-long contraction
  accumulated in four steps of 1024 in a scratch buffer) and the output in a third (the base product accumulated
  the same way, the correction added at the last step).  Over the extended reals the two agree because regrouping a
  finite sum changes nothing and a term with a zero factor is zero; no finiteness of the inputs is used.

  The three frames are the runs themselves with the result dropped: the kernel program's run (Proof/KI/Run.lean at
  the ideal instance, its word-level twin Proof/KB/Run.lean) and the reference's (Proof/RefRun.lean).  The ideal
  pass rewrote no operation, so there is nothing to preserve.  The algebraic claim pairs the two runs' results:
  the reference's result read at an index is the specification (Proof/RefRead.lean), and so is the kernel's
  (Proof/KI/Value.lean, through the value of each launch and Proof/Bridge.lean).
-/
import proofs.«406961_j15015205667342_3_alg».proof.Defs
import proofs.«406961_j15015205667342_3_alg».proof.Proof.Gen.Kernel
import proofs.«406961_j15015205667342_3_alg».proof.Proof.Gen.KernelIdeal
import proofs.«406961_j15015205667342_3_alg».proof.Proof.Gen.ReferenceIdeal
import proofs.«406961_j15015205667342_3_alg».proof.Proof.Gen.Pre_finite_inputs
import proofs.«406961_j15015205667342_3_alg».proof.Proof.KB.Run
import proofs.«406961_j15015205667342_3_alg».proof.Proof.KI.Run
import proofs.«406961_j15015205667342_3_alg».proof.Proof.KI.Value
import proofs.«406961_j15015205667342_3_alg».proof.Proof.RefRun
import proofs.«406961_j15015205667342_3_alg».proof.Proof.RefRead
import proofs.«406961_j15015205667342_3_alg».proof.Proof.PreRange
import Idealize.ShloMosaic.Adequacy
import Idealize.ShloMosaic.Init

noncomputable section

namespace Cert.Proof

open Idealize.ShloMosaic Idealize.ShloMosaic.ValueIdx Idealize.SL.Sem

/-- The word-level kernel program runs to its end and leaves its arguments alone. -/
theorem frame_kernel : Cert.frame_Kernel := fun m ρ _ =>
  (θ_run Cert.Kernel.defs _ _).mono (fun _ h c => (h c).2) (Cert.Kernel.Hand.run_all (F := Bits) m ρ)

/-- So does the idealized one. -/
theorem frame_kernelIdeal : Cert.frame_KernelIdeal := fun m ρ _ =>
  (θ_run Cert.KernelIdeal.defs _ _).mono (fun _ h c => (h c).2) (Cert.KernelIdeal.Hand.run_all (F := Ideal) m ρ)

/-- And the reference. -/
theorem frame_reference : Cert.frame_ReferenceIdeal := fun m ρ _ =>
  (θ_run Cert.ReferenceIdeal.defs _ _).mono (fun _ h c => (h c).2) (Cert.RefHand.run (F := Ideal) m ρ)

/-- From memories that agree on the arguments both programs end with the same result: index by index both are the
    specification's value, the reference's by reading its operations, the kernel's by the value of its launches. -/
theorem algebraic : Cert.algebraic_KernelIdeal_ReferenceIdeal := by
  intro m ρ m' ρ' hpre hagree
  refine ⟨fun c => Cert.KernelIdeal.Hand.after9 (F := Ideal) m c (Proc.devRef .tc Cert.KernelIdeal.main_v9),
    Cert.KernelIdeal.Hand.run_all (F := Ideal) m ρ, ?_⟩
  refine (θ_run Cert.ReferenceIdeal.defs _ _).mono (fun _ h c => ⟨(h c).1.trans ?_, (h c).2⟩)
    (Cert.RefHand.run (F := Ideal) m' ρ')
  have hc := Cert.PreRange.codes_lt _ _ _ _ _ (hpre c)
  rw [(hagree c).1, (hagree c).2.1, (hagree c).2.2.1, (hagree c).2.2.2.1, (hagree c).2.2.2.2]
  funext j
  obtain ⟨b, t, o, rfl⟩ : ∃ (b : Fin 4) (t : Fin 2048) (o : Fin 4096), j = ix3 b t o := ⟨j 0, j 1, j 2, eq_ix3 j⟩
  exact (Cert.RefHand.out_apply _ _ _ _ _ hc b t o).trans (Cert.KernelIdeal.Hand.kernel_value m c hc b t o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
